-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x10 : Shape := ⟨2, ![200000, 10]⟩
abbrev S2x1000000 : Shape := ⟨2, ![2, 1000000]⟩
abbrev S200000 : Shape := ⟨1, ![200000]⟩
abbrev S10x64 : Shape := ⟨2, ![10, 64]⟩
abbrev S64 : Shape := ⟨1, ![64]⟩
abbrev S64x64 : Shape := ⟨2, ![64, 64]⟩
abbrev S_ : Shape := ⟨0, ![]⟩
abbrev S64x32 : Shape := ⟨2, ![64, 32]⟩
abbrev S32 : Shape := ⟨1, ![32]⟩
abbrev S32x8 : Shape := ⟨2, ![32, 8]⟩
abbrev S8 : Shape := ⟨1, ![8]⟩
abbrev S64x24 : Shape := ⟨2, ![64, 24]⟩
abbrev S24 : Shape := ⟨1, ![24]⟩
abbrev S1x1000000 : Shape := ⟨2, ![1, 1000000]⟩
abbrev S1000000 : Shape := ⟨1, ![1000000]⟩

class Facts : Prop where
  bcast_S_S200000x10 : S_.BroadcastsInDim S200000x10 (![] : Fin 0 → Fin S200000x10.rank)
  reducesTo_S200000x10_S_d0_1 : S200000x10.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  reducesTo_S_S_d : S_.ReducesTo [] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_arg1 : IVec S2x1000000 32) (main_v81 : IVec S_ 1) (main_v83 : IVec S1000000 32) (main_v84 : IVec S1000000 32) : IVec S_ 1 :=
  let main_v85 : IVec S1000000 1 := cmpi .sge main_v83 main_v84
  let main_c_33 : IVec S_ 1 := constantI S_ 1 1#1
  let main_v86 : IVec S_ 1 := (fun x v => Host.reduce IntOp.andi x v reducesTo_S1000000_S_d0 h_S_) main_v85 main_c_33
  let main_v87 : IVec S_ 1 := andi main_v81 main_v86
  let main_v88 : IVec S1x1000000 32 := (extractStridedSlice S1x1000000 ![0, 0] · slices_S2x1000000_S1x1000000_0_0) main_arg1
  let main_v89 : IVec S1000000 32 := shapeCast S1000000 main_v88 shapeCasts_S1x1000000_S1000000
  let main_c_34 : IVec S_ 32 := constantI S_ 32 200000#32
  let main_v90 : IVec S1000000 32 := broadcastInDim S1000000 ![] bcast_S_S1000000 main_c_34
  let main_v91 : IVec S1000000 1 := cmpi .slt main_v89 main_v90
  let main_c_35 : IVec S_ 1 := constantI S_ 1 1#1
  let main_v92 : IVec S_ 1 := (fun x v => Host.reduce IntOp.andi x v reducesTo_S1000000_S_d0 h_S_) main_v91 main_c_35
  let main_v93 : IVec S_ 1 := andi main_v87 main_v92
  main_v93

def fn_part4 {F : FTy → Type} [FloatOps F] (main_arg1 : IVec S2x1000000 32) (main_arg17 : FVec F S64x24 .f32) (main_arg18 : FVec F S24 .f32) (main_v66 : IVec S_ 1) (main_v67 : FVec F S8 .f32) : IVec S_ 1 :=
  let main_cst_26 : FVec F S_ .f32 := constant S_ .f32 0x7F800000#32
  let main_v68 : FVec F S8 .f32 := broadcastInDim S8 ![] bcast_S_S8 main_cst_26
  let main_v69 : IVec S8 1 := cmpf .olt main_v67 main_v68
  let main_c_27 : IVec S_ 1 := constantI S_ 1 1#1
  let main_v70 : IVec S_ 1 := (fun x v => Host.reduce IntOp.andi x v reducesTo_S8_S_d0 h_S_) main_v69 main_c_27
  let main_v71 : IVec S_ 1 := andi main_v66 main_v70
  let main_v72 : FVec F S64x24 .f32 := Host.absf main_arg17
  let main_cst_28 : FVec F S_ .f32 := constant S_ .f32 0x7F800000#32
  let main_v73 : FVec F S64x24 .f32 := broadcastInDim S64x24 ![] bcast_S_S64x24 main_cst_28
  let main_v74 : IVec S64x24 1 := cmpf .olt main_v72 main_v73
  let main_c_29 : IVec S_ 1 := constantI S_ 1 1#1
  let main_v75 : IVec S_ 1 := (fun x v => Host.reduce IntOp.andi x v reducesTo_S64x24_S_d0_1 h_S_) main_v74 main_c_29
  let main_v76 : IVec S_ 1 := andi main_v71 main_v75
  let main_v77 : FVec F S24 .f32 := Host.absf main_arg18
  let main_cst_30 : FVec F S_ .f32 := constant S_ .f32 0x7F800000#32
  let main_v78 : FVec F S24 .f32 := broadcastInDim S24 ![] bcast_S_S24 main_cst_30
  let main_v79 : IVec S24 1 := cmpf .olt main_v77 main_v78
  let main_c_31 : IVec S_ 1 := constantI S_ 1 1#1
  let main_v80 : IVec S_ 1 := (fun x v => Host.reduce IntOp.andi x v reducesTo_S24_S_d0 h_S_) main_v79 main_c_31
  let main_v81 : IVec S_ 1 := andi main_v76 main_v80
  let main_v82 : IVec S1x1000000 32 := (extractStridedSlice S1x1000000 ![0, 0] · slices_S2x1000000_S1x1000000_0_0) main_arg1
  let main_v83 : IVec S1000000 32 := shapeCast S1000000 main_v82 shapeCasts_S1x1000000_S1000000
  let main_c_32 : IVec S_ 32 := constantI S_ 32 0#32
  let main_v84 : IVec S1000000 32 := broadcastInDim S1000000 ![] bcast_S_S1000000 main_c_32
  fn_part5 (F := F) main_arg1 main_v81 main_v83 main_v84

def fn_part3 {F : FTy → Type} [FloatOps F] (main_arg1 : IVec S2x1000000 32) (main_arg13 : FVec F S64x32 .f32) (main_arg14 : FVec F S32 .f32) (main_arg15 : FVec F S32x8 .f32) (main_arg16 : FVec F S8 .f32) (main_arg17 : FVec F S64x24 .f32) (main_arg18 : FVec F S24 .f32) (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  let main_v52 : FVec F S64x32 .f32 := Host.absf main_arg13
  let main_cst_20 : FVec F S_ .f32 := constant S_ .f32 0x7F800000#32
  let main_v53 : FVec F S64x32 .f32 := broadcastInDim S64x32 ![] bcast_S_S64x32 main_cst_20
  let main_v54 : IVec S64x32 1 := cmpf .olt main_v52 main_v53
  let main_c_21 : IVec S_ 1 := constantI S_ 1 1#1
  let main_v55 : IVec S_ 1 := (fun x v => Host.reduce IntOp.andi x v reducesTo_S64x32_S_d0_1 h_S_) main_v54 main_c_21
  let main_v56 : IVec S_ 1 := andi main_v51 main_v55
  let main_v57 : FVec F S32 .f32 := Host.absf main_arg14
  let main_cst_22 : FVec F S_ .f32 := constant S_ .f32 0x7F800000#32
  let main_v58 : FVec F S32 .f32 := broadcastInDim S32 ![] bcast_S_S32 main_cst_22
  let main_v59 : IVec S32 1 := cmpf .olt main_v57 main_v58
  let main_c_23 : IVec S_ 1 := constantI S_ 1 1#1
  let main_v60 : IVec S_ 1 := (fun x v => Host.reduce IntOp.andi x v reducesTo_S32_S_d0 h_S_) main_v59 main_c_23
  let main_v61 : IVec S_ 1 := andi main_v56 main_v60
  let main_v62 : FVec F S32x8 .f32 := Host.absf main_arg15
  let main_cst_24 : FVec F S_ .f32 := constant S_ .f32 0x7F800000#32
  let main_v63 : FVec F S32x8 .f32 := broadcastInDim S32x8 ![] bcast_S_S32x8 main_cst_24
  let main_v64 : IVec S32x8 1 := cmpf .olt main_v62 main_v63
  let main_c_25 : IVec S_ 1 := constantI S_ 1 1#1
  let main_v65 : IVec S_ 1 := (fun x v => Host.reduce IntOp.andi x v reducesTo_S32x8_S_d0_1 h_S_) main_v64 main_c_25
  let main_v66 : IVec S_ 1 := andi main_v61 main_v65
  let main_v67 : FVec F S8 .f32 := Host.absf main_arg16
  fn_part4 (F := F) main_arg1 main_arg17 main_arg18 main_v66 main_v67

def fn_part2 {F : FTy → Type} [FloatOps F] (main_arg1 : IVec S2x1000000 32) (main_arg10 : FVec F S64x64 .f32) (main_arg11 : FVec F S64 .f32) (main_arg12 : FVec F S_ .f32) (main_arg13 : FVec F S64x32 .f32) (main_arg14 : FVec F S32 .f32) (main_arg15 : FVec F S32x8 .f32) (main_arg16 : FVec F S8 .f32) (main_arg17 : FVec F S64x24 .f32) (main_arg18 : FVec F S24 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S64x64 .f32 := Host.absf main_arg10
  let main_cst_14 : FVec F S_ .f32 := constant S_ .f32 0x7F800000#32
  let main_v39 : FVec F S64x64 .f32 := broadcastInDim S64x64 ![] bcast_S_S64x64 main_cst_14
  let main_v40 : IVec S64x64 1 := cmpf .olt main_v38 main_v39
  let main_c_15 : IVec S_ 1 := constantI S_ 1 1#1
  let main_v41 : IVec S_ 1 := (fun x v => Host.reduce IntOp.andi x v reducesTo_S64x64_S_d0_1 h_S_) main_v40 main_c_15
  let main_v42 : IVec S_ 1 := andi main_v37 main_v41
  let main_v43 : FVec F S64 .f32 := Host.absf main_arg11
  let main_cst_16 : FVec F S_ .f32 := constant S_ .f32 0x7F800000#32
  let main_v44 : FVec F S64 .f32 := broadcastInDim S64 ![] bcast_S_S64 main_cst_16
  let main_v45 : IVec S64 1 := cmpf .olt main_v43 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v42 main_v46
  let main_v48 : FVec F S_ .f32 := Host.absf main_arg12
  let main_cst_18 : FVec F S_ .f32 := constant S_ .f32 0x7F800000#32
  let main_v49 : IVec S_ 1 := cmpf .olt main_v48 main_cst_18
  let main_c_19 : IVec S_ 1 := constantI S_ 1 1#1
  fn_part3 (F := F) main_arg1 main_arg13 main_arg14 main_arg15 main_arg16 main_arg17 main_arg18 main_v47 main_v49 main_c_19

def fn_part1 {F : FTy → Type} [FloatOps F] (main_arg1 : IVec S2x1000000 32) (main_arg6 : FVec F S64 .f32) (main_arg7 : FVec F S_ .f32) (main_arg8 : FVec F S64x64 .f32) (main_arg9 : FVec F S64 .f32) (main_arg10 : FVec F S64x64 .f32) (main_arg11 : FVec F S64 .f32) (main_arg12 : FVec F S_ .f32) (main_arg13 : FVec F S64x32 .f32) (main_arg14 : FVec F S32 .f32) (main_arg15 : FVec F S32x8 .f32) (main_arg16 : FVec F S8 .f32) (main_arg17 : FVec F S64x24 .f32) (main_arg18 : FVec F S24 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S_ .f32 := Host.absf main_arg7
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S64x64 .f32 := Host.absf main_arg8
  let main_cst_10 : FVec F S_ .f32 := constant S_ .f32 0x7F800000#32
  let main_v29 : FVec F S64x64 .f32 := broadcastInDim S64x64 ![] bcast_S_S64x64 main_cst_10
  let main_v30 : IVec S64x64 1 := cmpf .olt main_v28 main_v29
  let main_c_11 : IVec S_ 1 := constantI S_ 1 1#1
  let main_v31 : IVec S_ 1 := (fun x v => Host.reduce IntOp.andi x v reducesTo_S64x64_S_d0_1 h_S_) main_v30 main_c_11
  let main_v32 : IVec S_ 1 := andi main_v27 main_v31
  let main_v33 : FVec F S64 .f32 := Host.absf main_arg9
  fn_part2 (F := F) main_arg1 main_arg10 main_arg11 main_arg12 main_arg13 main_arg14 main_arg15 main_arg16 main_arg17 main_arg18 main_v32 main_v33

def fn {F : FTy → Type} [FloatOps F] (main_arg0 : FVec F S200000x10 .f32) (main_arg1 : IVec S2x1000000 32) (main_arg2 : IVec S200000 32) (main_arg3 : FVec F S10x64 .f32) (main_arg4 : FVec F S64 .f32) (main_arg5 : FVec F S64x64 .f32) (main_arg6 : FVec F S64 .f32) (main_arg7 : FVec F S_ .f32) (main_arg8 : FVec F S64x64 .f32) (main_arg9 : FVec F S64 .f32) (main_arg10 : FVec F S64x64 .f32) (main_arg11 : FVec F S64 .f32) (main_arg12 : FVec F S_ .f32) (main_arg13 : FVec F S64x32 .f32) (main_arg14 : FVec F S32 .f32) (main_arg15 : FVec F S32x8 .f32) (main_arg16 : FVec F S8 .f32) (main_arg17 : FVec F S64x24 .f32) (main_arg18 : FVec F S24 .f32) : IVec S_ 1 :=
  let main_v0 : FVec F S200000x10 .f32 := Host.absf main_arg0
  let main_cst : FVec F S_ .f32 := constant S_ .f32 0x7F800000#32
  let main_v1 : FVec F S200000x10 .f32 := broadcastInDim S200000x10 ![] bcast_S_S200000x10 main_cst
  let main_v2 : IVec S200000x10 1 := cmpf .olt main_v0 main_v1
  let main_c : IVec S_ 1 := constantI S_ 1 1#1
  let main_v3 : IVec S_ 1 := (fun x v => Host.reduce IntOp.andi x v reducesTo_S200000x10_S_d0_1 h_S_) main_v2 main_c
  let main_v4 : FVec F S10x64 .f32 := Host.absf main_arg3
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_arg13 main_arg14 main_arg15 main_arg16 main_arg17 main_arg18 main_v13 main_v16
-- ==== Kernel.lean ====
abbrev S200000x10 : Shape := ⟨2, ![200000, 10]⟩
abbrev S2x1000000 : Shape := ⟨2, ![2, 1000000]⟩
abbrev S200000 : Shape := ⟨1, ![200000]⟩
abbrev S10x64 : Shape := ⟨2, ![10, 64]⟩
abbrev S64 : Shape := ⟨1, ![64]⟩
abbrev S64x64 : Shape := ⟨2, ![64, 64]⟩
abbrev S_ : Shape := ⟨0, ![]⟩
abbrev S64x32 : Shape := ⟨2, ![64, 32]⟩
abbrev S32 : Shape := ⟨1, ![32]⟩
abbrev S32x8 : Shape := ⟨2, ![32, 8]⟩
abbrev S8 : Shape := ⟨1, ![8]⟩
abbrev S64x24 : Shape := ⟨2, ![64, 24]⟩
abbrev S24 : Shape := ⟨1, ![24]⟩
abbrev S1x1000000 : Shape := ⟨2, ![1, 1000000]⟩
abbrev S1000000 : Shape := ⟨1, ![1000000]⟩
abbrev S1000000x1 : Shape := ⟨2, ![1000000, 1]⟩
abbrev S1 : Shape := ⟨1, ![1]⟩
abbrev S1x1 : Shape := ⟨2, ![1, 1]⟩
abbrev S1000000x10 : Shape := ⟨2, ![1000000, 10]⟩
abbrev S1x64 : Shape := ⟨2, ![1, 64]⟩
abbrev S200000x64 : Shape := ⟨2, ![200000, 64]⟩
abbrev S5000x10 : Shape := ⟨2, ![5000, 10]⟩
abbrev S5000x64 : Shape := ⟨2, ![5000, 64]⟩
abbrev S1000000x64 : Shape := ⟨2, ![1000000, 64]⟩
abbrev S200000x1 : Shape := ⟨2, ![200000, 1]⟩
abbrev S1x32 : Shape := ⟨2, ![1, 32]⟩
abbrev S1x8 : Shape := ⟨2, ![1, 8]⟩
abbrev S1x24 : Shape := ⟨2, ![1, 24]⟩
abbrev S256x8 : Shape := ⟨2, ![256, 8]⟩
abbrev S256x24 : Shape := ⟨2, ![256, 24]⟩
abbrev S5000x1 : Shape := ⟨2, ![5000, 1]⟩
abbrev S256x64 : Shape := ⟨2, ![256, 64]⟩
abbrev S5000x256 : Shape := ⟨2, ![5000, 256]⟩
abbrev S256x32 : Shape := ⟨2, ![256, 32]⟩
abbrev S256x3x8 : Shape := ⟨3, ![256, 3, 8]⟩

abbrev nBuf : Space → Nat
  | .hbm => 92
  | .vmem => 35
  | .smem => 0
  | _ => 0

abbrev bufTy : (tb : Table) → Fin (tcTables nBuf tb) → BufTy
  | .hbm, ⟨0, _⟩ => ⟨S200000x10, .f32⟩
  | .hbm, ⟨1, _⟩ => ⟨S2x1000000, .i32⟩
  | .hbm, ⟨2, _⟩ => ⟨S200000, .i32⟩
  | .hbm, ⟨3, _⟩ => ⟨S10x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S64x32, .f32⟩
  | .hbm, ⟨14, _⟩ => ⟨S32, .f32⟩
  | .hbm, ⟨15, _⟩ => ⟨S32x8, .f32⟩
  | .hbm, ⟨16, _⟩ => ⟨S8, .f32⟩
  | .hbm, ⟨17, _⟩ => ⟨S64x24, .f32⟩
  | .hbm, ⟨18, _⟩ => ⟨S24, .f32⟩
  | .hbm, ⟨19, _⟩ => ⟨S1x1000000, .i32⟩
  | .hbm, ⟨20, _⟩ => ⟨S1000000, .i32⟩
  | .hbm, ⟨21, _⟩ => ⟨S1x1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1, .i32⟩
  | .hbm, ⟨32, _⟩ => ⟨S_, .i32⟩
  | .hbm, ⟨33, _⟩ => ⟨S1000000x1, .i32⟩
  | .hbm, ⟨34, _⟩ => ⟨S1000000x1, .i1⟩
  | .hbm, ⟨35, _⟩ => ⟨S1x1, .i32⟩
  | .hbm, ⟨36, _⟩ => ⟨S1000000x1, .i32⟩
  | .hbm, ⟨37, _⟩ => ⟨S1000000x1, .i1⟩
  | .hbm, ⟨38, _⟩ => ⟨S1000000x1, .i1⟩
  | .hbm, ⟨39, _⟩ => ⟨S_, .i1⟩
  | .hbm, ⟨40, _⟩ => ⟨S1000000, .i1⟩
  | .hbm, ⟨41, _⟩ => ⟨S1000000x10, .f32⟩
  | .hbm, ⟨42, _⟩ => ⟨S1000000x10, .i1⟩
  | .hbm, ⟨43, _⟩ => ⟨S_, .f32⟩
  | .hbm, ⟨44, _⟩ => ⟨S1000000x10, .f32⟩
  | .hbm, ⟨45, _⟩ => ⟨S1000000x10, .f32⟩
  | .hbm, ⟨46, _⟩ => ⟨S_, .f32⟩
  | .hbm, ⟨47, _⟩ => ⟨S200000x10, .f32⟩
  | .hbm, ⟨48, _⟩ => ⟨S1000000x1, .i32⟩
  | .hbm, ⟨49, _⟩ => ⟨S200000x10, .f32⟩
  | .hbm, ⟨50, _⟩ => ⟨S1x1, .f32⟩
  | .hbm, ⟨51, _⟩ => ⟨S1x64, .f32⟩
  | .hbm, ⟨52, _⟩ => ⟨S1x64, .f32⟩
  | .hbm, ⟨53, _⟩ => ⟨S200000x64, .f32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1, .i32⟩
  | .hbm, ⟨63, _⟩ => ⟨S_, .i32⟩
  | .hbm, ⟨64, _⟩ => ⟨S1000000x1, .i32⟩
  | .hbm, ⟨65, _⟩ => ⟨S1000000x1, .i1⟩
  | .hbm, ⟨66, _⟩ => ⟨S1x1, .i32⟩
  | .hbm, ⟨67, _⟩ => ⟨S1000000x1, .i32⟩
  | .hbm, ⟨68, _⟩ => ⟨S1000000x1, .i1⟩
  | .hbm, ⟨69, _⟩ => ⟨S1000000x1, .i1⟩
  | .hbm, ⟨70, _⟩ => ⟨S_, .i1⟩
  | .hbm, ⟨71, _⟩ => ⟨S1000000, .i1⟩
  | .hbm, ⟨72, _⟩ => ⟨S1000000x64, .f32⟩
  | .hbm, ⟨73, _⟩ => ⟨S1000000x64, .i1⟩
  | .hbm, ⟨74, _⟩ => ⟨S_, .f32⟩
  | .hbm, ⟨75, _⟩ => ⟨S1000000x64, .f32⟩
  | .hbm, ⟨76, _⟩ => ⟨S1000000x64, .f32⟩
  | .hbm, ⟨77, _⟩ => ⟨S_, .f32⟩
  | .hbm, ⟨78, _⟩ => ⟨S200000x64, .f32⟩
  | .hbm, ⟨79, _⟩ => ⟨S1000000x1, .i32⟩
  | .hbm, ⟨80, _⟩ => ⟨S200000x64, .f32⟩
  | .hbm, ⟨81, _⟩ => ⟨S1x1, .f32⟩
  | .hbm, ⟨82, _⟩ => ⟨S1x64, .f32⟩
  | .hbm, ⟨83, _⟩ => ⟨S1x64, .f32⟩
  | .hbm, ⟨84, _⟩ => ⟨S200000x64, .f32⟩
  | .hbm, ⟨85, _⟩ => ⟨S200000x1, .i32⟩
  | .hbm, ⟨86, _⟩ => ⟨S1x32, .f32⟩
  | .hbm, ⟨87, _⟩ => ⟨S1x8, .f32⟩
  | .hbm, ⟨88, _⟩ => ⟨S1x24, .f32⟩
  | .hbm, ⟨89, _⟩ => ⟨S256x8, .f32⟩
  | .hbm, ⟨90, _⟩ => ⟨S256x24, .f32⟩
  | .hbm, ⟨91, _⟩ => ⟨S256x3x8, .f32⟩
  | .local _ .vmem, ⟨0, _⟩ => ⟨S5000x10, .f32⟩
  | .local _ .vmem, ⟨1, _⟩ => ⟨S5000x10, .f32⟩
  | .local _ .vmem, ⟨2, _⟩ => ⟨S5000x10, .f32⟩
  | .local _ .vmem, ⟨3, _⟩ => ⟨S5000x10, .f32⟩
  | .local _ .vmem, ⟨4, _⟩ => ⟨S1x1, .f32⟩
  | .local _ .vmem, ⟨5, _⟩ => ⟨S10x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x1, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .i32⟩
  | .local _ .vmem, ⟨25, _⟩ => ⟨S5000x1, .i32⟩
  | .local _ .vmem, ⟨26, _⟩ => ⟨S64x32, .f32⟩
  | .local _ .vmem, ⟨27, _⟩ => ⟨S1x32, .f32⟩
  | .local _ .vmem, ⟨28, _⟩ => ⟨S32x8, .f32⟩
  | .local _ .vmem, ⟨29, _⟩ => ⟨S1x8, .f32⟩
  | .local _ .vmem, ⟨30, _⟩ => ⟨S64x24, .f32⟩
  | .local _ .vmem, ⟨31, _⟩ => ⟨S1x24, .f32⟩
  | .local _ .vmem, ⟨32, _⟩ => ⟨S256x8, .f32⟩
  | .local _ .vmem, ⟨33, _⟩ => ⟨S256x24, .f32⟩
  | .local _ .vmem, ⟨34, _⟩ => ⟨S256x64, .f32⟩
  | _, _ => ⟨S200000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_cst : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v12 : Ref sig .tc := ⟨.hbm, 76, rfl⟩
abbrev main_cst_0 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24_0 : Ref sig .tc := ⟨.hbm, 89, rfl⟩
abbrev main_v24_1 : Ref sig .tc := ⟨.hbm, 90, rfl⟩
abbrev main_v25 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![40], ![false]⟩

def k2_cond2 (i : grid2.Coords) : BitVec 1 :=
  let arg0 : BitVec 32 := BitVec.ofNat 32 (i 0).val
  let c39_i32 : BitVec 32 := 39#32
  let v20 : BitVec 1 := Scalar.cmpi .eq arg0 c39_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x24 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x24 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x8 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x24 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x10_0 : S1000000.BroadcastsInDim S1000000x10 (![0] : Fin 1 → Fin S1000000x10.rank)
  bcast_S_S1000000x10 : S_.BroadcastsInDim S1000000x10 (![] : Fin 0 → Fin S1000000x10.rank)
  bcast_S_S200000x10 : S_.BroadcastsInDim S200000x10 (![] : Fin 0 → Fin S200000x10.rank)
  shapeCasts_S_S1x1 : S_.ShapeCasts S1x1
  shapeCasts_S64_S1x64 : S64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x10_S5000x10_0_0 : ∀ a, (![0, 0] : Fin 2 → Nat) a + S5000x10.size a ≤ S5000x10.size a
  h_S5000x10 : 0 < S5000x10.numel
  broadcasts_S1x1_S5000x10 : S1x1.Broadcasts S5000x10
  shapeCasts_S5000x10_S5000x10 : S5000x10.ShapeCasts S5000x10
  bitsLt_bf16_f32 : FTy.bits .bf16 < FTy.bits .f32
  inb_S10x64_S10x64_0_0 : ∀ a, (![0, 0] : Fin 2 → Nat) a + S10x64.size a ≤ S10x64.size a
  h_S10x64 : 0 < S10x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S200000x64 : S_.BroadcastsInDim S200000x64 (![] : Fin 0 → Fin S200000x64.rank)
  shapeCasts_S5000x64_S5000x64 : S5000x64.ShapeCasts S5000x64
  broadcasts_S1x1_S5000x64 : S1x1.Broadcasts S5000x64
  shapeCasts_S200000_S200000x1 : S200000.ShapeCasts S200000x1
  shapeCasts_S32_S1x32 : S32.ShapeCasts S1x32
  shapeCasts_S8_S1x8 : S8.ShapeCasts S1x8
  shapeCasts_S24_S1x24 : S24.ShapeCasts S1x24
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x8_S32x8_0_0 : ∀ a, (![0, 0] : Fin 2 → Nat) a + S32x8.size a ≤ S32x8.size a
  h_S32x8 : 0 < S32x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S256x8_S256x8_0_0 : ∀ a, (![0, 0] : Fin 2 → Nat) a + S256x8.size a ≤ S256x8.size a
  h_S256x8 : 0 < S256x8.numel
  inb_S64x24_S64x24_0_0 : ∀ a, (![0, 0] : Fin 2 → Nat) a + S64x24.size a ≤ S64x24.size a
  h_S64x24 : 0 < S64x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S256x24 : S1x24.Broadcasts S256x24
  inb_S256x24_S256x24_0_0 : ∀ a, (![0, 0] : Fin 2 → Nat) a + S256x24.size a ≤ S256x24.size a
  h_S256x24 : 0 < S256x24.numel
  shapeCasts_S256x24_S256x3x8 : S256x24.ShapeCasts S256x3x8
  gather_S200000x10_S1000000x1_S1000000x10_1_0_n_n_0_1_110_wf : GatherDims.WF S200000x10 S1000000x1 S1000000x10 [1] [0] [] [0] [] 1 ![1, 10]
  scatter_S200000x10_S1000000x1_S1000000x10_1_0_0_1_wf : ScatterDims.WF S200000x10 S1000000x1 S1000000x10 [1] [0] [0] 1
  dot_S5000x10_S10x64_S5000x64_1_0_0_1_n_n_wf : DotDims.WF S5000x10 S10x64 S5000x64 [1] [0] [0] [1] [] []
  dot_S5000x64_S64x64_S5000x64_1_0_0_1_n_n_wf : DotDims.WF S5000x64 S64x64 S5000x64 [1] [0] [0] [1] [] []
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  dot_S5000x256_S5000x64_S256x64_0_0_1_1_n_n_wf : DotDims.WF S5000x256 S5000x64 S256x64 [0] [0] [1] [1] [] []
  dot_S256x64_S64x32_S256x32_1_0_0_1_n_n_wf : DotDims.WF S256x64 S64x32 S256x32 [1] [0] [0] [1] [] []
  dot_S256x32_S32x8_S256x8_1_0_0_1_n_n_wf : DotDims.WF S256x32 S32x8 S256x8 [1] [0] [0] [1] [] []
  dot_S256x64_S64x24_S256x24_1_0_0_1_n_n_wf : DotDims.WF S256x64 S64x24 S256x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S200000x10.size a
  hwx0_0 : ∀ i : grid0.Coords, EltTy.bits .f32 = 32 ∨ (Rect.block (s := S200000x10) S5000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x10.size a ≤ S200000x10.size a
  hwx0_1 : ∀ i : grid0.Coords, EltTy.bits .f32 = 32 ∨ (Rect.block (s := S200000x10) S5000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x64.size a ≤ S10x64.size a
  hwx0_3 : ∀ i : grid0.Coords, EltTy.bits .f32 = 32 ∨ (Rect.block (s := S10x64) S10x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S200000x64.size a
  hwx0_7 : ∀ i : grid0.Coords, EltTy.bits .f32 = 32 ∨ (Rect.block (s := S200000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S200000x64.size a
  hwx1_7 : ∀ i : grid1.Coords, EltTy.bits .f32 = 32 ∨ (Rect.block (s := S200000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S200000x1.size a
  hwx2_1 : ∀ i : grid2.Coords, EltTy.bits .i32 = 32 ∨ (Rect.block (s := S200000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x8.size a ≤ S32x8.size a
  hwx2_4 : ∀ i : grid2.Coords, EltTy.bits .f32 = 32 ∨ (Rect.block (s := S32x8) S32x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x8.size a ≤ S1x8.size a
  hwx2_5 : ∀ i : grid2.Coords, EltTy.bits .f32 = 32 ∨ (Rect.block (s := S1x8) S1x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x24.size a ≤ S64x24.size a
  hwx2_6 : ∀ i : grid2.Coords, EltTy.bits .f32 = 32 ∨ (Rect.block (s := S64x24) S64x24.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x24.size a ≤ S1x24.size a
  hwx2_7 : ∀ i : grid2.Coords, EltTy.bits .f32 = 32 ∨ (Rect.block (s := S1x24) S1x24.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x8.size a ≤ S256x8.size a
  hwx2_8 : ∀ i : grid2.Coords, EltTy.bits .f32 = 32 ∨ (Rect.block (s := S256x8) S256x8.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x24.size a ≤ S256x24.size a
  hwx2_9 : ∀ i : grid2.Coords, EltTy.bits .f32 = 32 ∨ (Rect.block (s := S256x24) S256x24.size (cc2_transform_9 i) (hinb2_9 i)).WholeWords (EltTy.packing .f32)

variable [Facts₀]

def gather_S200000x10_S1000000x1_S1000000x10_1_0_n_n_0_1_110 : GatherDims S200000x10 S1000000x1 S1000000x10 where
  offsetDims := [1]
  collapsedSliceDims := [0]
  operandBatchingDims := []
  startIndicesBatchingDims := []
  startIndexMap := [0]
  indexVectorDim := 1
  sliceSizes := ![1, 10]
  wf := gather_S200000x10_S1000000x1_S1000000x10_1_0_n_n_0_1_110_wf
def scatter_S200000x10_S1000000x1_S1000000x10_1_0_0_1 : ScatterDims S200000x10 S1000000x1 S1000000x10 where
  updateWindowDims := [1]
  insertedWindowDims := [0]
  scatterDimsToOperandDims := [0]
  indexVectorDim := 1
  wf := scatter_S200000x10_S1000000x1_S1000000x10_1_0_0_1_wf
def dot_S5000x10_S10x64_S5000x64_1_0_0_1_n_n : DotDims S5000x10 S10x64 S5000x64 where
  lhsContracting := [1]
  rhsContracting := [0]
  lhsNonContracting := [0]
  rhsNonContracting := [1]
  lhsBatch := []
  rhsBatch := []
  wf := dot_S5000x10_S10x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x8_S256x8_1_0_0_1_n_n : DotDims S256x32 S32x8 S256x8 where
  lhsContracting := [1]
  rhsContracting := [0]
  lhsNonContracting := [0]
  rhsNonContracting := [1]
  lhsBatch := []
  rhsBatch := []
  wf := dot_S256x32_S32x8_S256x8_1_0_0_1_n_n_wf
def dot_S256x64_S64x24_S256x24_1_0_0_1_n_n : DotDims S256x64 S64x24 S256x24 where
  lhsContracting := [1]
  rhsContracting := [0]
  lhsNonContracting := [0]
  rhsNonContracting := [1]
  lhsBatch := []
  rhsBatch := []
  wf := dot_S256x64_S64x24_S256x24_1_0_0_1_n_n_wf

abbrev win0_0 : Pipeline.Window sig grid0 :=
  Pipeline.Window.ofSpec (Memref.whole main_arg0) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S32x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S64x24.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S1x24.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v24_0) S256x8.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v24_1) S256x24.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | 9 => fun i => !(k2_cond2 i == 1#1) | ⟨_ + 10, h⟩ => absurd h (Nat.not_lt.2 (Nat.le_add_left _ _))

class Facts : Prop extends Facts₀ where

variable [Facts]
-- ==== ReferenceIdeal.lean ====
abbrev S200000x10 : Shape := ⟨2, ![200000, 10]⟩
abbrev S2x1000000 : Shape := ⟨2, ![2, 1000000]⟩
abbrev S200000 : Shape := ⟨1, ![200000]⟩
abbrev S10x64 : Shape := ⟨2, ![10, 64]⟩
abbrev S64 : Shape := ⟨1, ![64]⟩
abbrev S64x64 : Shape := ⟨2, ![64, 64]⟩
abbrev S_ : Shape := ⟨0, ![]⟩
abbrev S64x32 : Shape := ⟨2, ![64, 32]⟩
abbrev S32 : Shape := ⟨1, ![32]⟩
abbrev S32x8 : Shape := ⟨2, ![32, 8]⟩
abbrev S8 : Shape := ⟨1, ![8]⟩
abbrev S64x24 : Shape := ⟨2, ![64, 24]⟩
abbrev S24 : Shape := ⟨1, ![24]⟩
abbrev S1x1000000 : Shape := ⟨2, ![1, 1000000]⟩
abbrev S1000000 : Shape := ⟨1, ![1000000]⟩
abbrev S1000000x1 : Shape := ⟨2, ![1000000, 1]⟩
abbrev S1000000x10 : Shape := ⟨2, ![1000000, 10]⟩
abbrev S200000x64 : Shape := ⟨2, ![200000, 64]⟩
abbrev S1x64 : Shape := ⟨2, ![1, 64]⟩
abbrev S1000000x64 : Shape := ⟨2, ![1000000, 64]⟩
abbrev S256x64 : Shape := ⟨2, ![256, 64]⟩
abbrev S200000x1 : Shape := ⟨2, ![200000, 1]⟩
abbrev S256x32 : Shape := ⟨2, ![256, 32]⟩
abbrev S1x32 : Shape := ⟨2, ![1, 32]⟩
abbrev S256x8 : Shape := ⟨2, ![256, 8]⟩
abbrev S1x8 : Shape := ⟨2, ![1, 8]⟩
abbrev S256x24 : Shape := ⟨2, ![256, 24]⟩
abbrev S1x24 : Shape := ⟨2, ![1, 24]⟩
abbrev S256x3x8 : Shape := ⟨3, ![256, 3, 8]⟩

abbrev nBuf : Space → Nat
  | .hbm => 115
  | .vmem => 0
  | .smem => 0
  | _ => 0

abbrev bufTy : (tb : Table) → Fin (tcTables nBuf tb) → BufTy
  | .hbm, ⟨0, _⟩ => ⟨S200000x10, .f32⟩
  | .hbm, ⟨1, _⟩ => ⟨S2x1000000, .i32⟩
  | .hbm, ⟨2, _⟩ => ⟨S200000, .i32⟩
  | .hbm, ⟨3, _⟩ => ⟨S10x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S64x32, .f32⟩
  | .hbm, ⟨14, _⟩ => ⟨S32, .f32⟩
  | .hbm, ⟨15, _⟩ => ⟨S32x8, .f32⟩
  | .hbm, ⟨16, _⟩ => ⟨S8, .f32⟩
  | .hbm, ⟨17, _⟩ => ⟨S64x24, .f32⟩
  | .hbm, ⟨18, _⟩ => ⟨S24, .f32⟩
  | .hbm, ⟨19, _⟩ => ⟨S1x1000000, .i32⟩
  | .hbm, ⟨20, _⟩ => ⟨S1000000, .i32⟩
  | .hbm, ⟨21, _⟩ => ⟨S1x1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x10, .f32⟩
  | .hbm, ⟨32, _⟩ => ⟨S_, .f32⟩
  | .hbm, ⟨33, _⟩ => ⟨S200000x10, .f32⟩
  | .hbm, ⟨34, _⟩ => ⟨S1000000x1, .i32⟩
  | .hbm, ⟨35, _⟩ => ⟨S200000x10, .f32⟩
  | .hbm, ⟨36, _⟩ => ⟨S_, .f32⟩
  | .hbm, ⟨37, _⟩ => ⟨S_, .f32⟩
  | .hbm, ⟨38, _⟩ => ⟨S200000x10, .f32⟩
  | .hbm, ⟨39, _⟩ => ⟨S200000x10, .f32⟩
  | .hbm, ⟨40, _⟩ => ⟨S200000x10, .f32⟩
  | .hbm, ⟨41, _⟩ => ⟨S200000x64, .f32⟩
  | .hbm, ⟨42, _⟩ => ⟨S1x64, .f32⟩
  | .hbm, ⟨43, _⟩ => ⟨S200000x64, .f32⟩
  | .hbm, ⟨44, _⟩ => ⟨S200000x64, .f32⟩
  | .hbm, ⟨45, _⟩ => ⟨S_, .f32⟩
  | .hbm, ⟨46, _⟩ => ⟨S200000x64, .f32⟩
  | .hbm, ⟨47, _⟩ => ⟨S200000x64, .f32⟩
  | .hbm, ⟨48, _⟩ => ⟨S200000x64, .f32⟩
  | .hbm, ⟨49, _⟩ => ⟨S1x64, .f32⟩
  | .hbm, ⟨50, _⟩ => ⟨S200000x64, .f32⟩
  | .hbm, ⟨51, _⟩ => ⟨S200000x64, .f32⟩
  | .hbm, ⟨52, _⟩ => ⟨S_, .f32⟩
  | .hbm, ⟨53, _⟩ => ⟨S200000x64, .f32⟩
  | .hbm, ⟨54, _⟩ => ⟨S200000x64, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x64, .f32⟩
  | .hbm, ⟨64, _⟩ => ⟨S_, .f32⟩
  | .hbm, ⟨65, _⟩ => ⟨S200000x64, .f32⟩
  | .hbm, ⟨66, _⟩ => ⟨S1000000x1, .i32⟩
  | .hbm, ⟨67, _⟩ => ⟨S200000x64, .f32⟩
  | .hbm, ⟨68, _⟩ => ⟨S_, .f32⟩
  | .hbm, ⟨69, _⟩ => ⟨S_, .f32⟩
  | .hbm, ⟨70, _⟩ => ⟨S200000x64, .f32⟩
  | .hbm, ⟨71, _⟩ => ⟨S200000x64, .f32⟩
  | .hbm, ⟨72, _⟩ => ⟨S200000x64, .f32⟩
  | .hbm, ⟨73, _⟩ => ⟨S200000x64, .f32⟩
  | .hbm, ⟨74, _⟩ => ⟨S1x64, .f32⟩
  | .hbm, ⟨75, _⟩ => ⟨S200000x64, .f32⟩
  | .hbm, ⟨76, _⟩ => ⟨S200000x64, .f32⟩
  | .hbm, ⟨77, _⟩ => ⟨S_, .f32⟩
  | .hbm, ⟨78, _⟩ => ⟨S200000x64, .f32⟩
  | .hbm, ⟨79, _⟩ => ⟨S200000x64, .f32⟩
  | .hbm, ⟨80, _⟩ => ⟨S200000x64, .f32⟩
  | .hbm, ⟨81, _⟩ => ⟨S1x64, .f32⟩
  | .hbm, ⟨82, _⟩ => ⟨S200000x64, .f32⟩
  | .hbm, ⟨83, _⟩ => ⟨S200000x64, .f32⟩
  | .hbm, ⟨84, _⟩ => ⟨S_, .f32⟩
  | .hbm, ⟨85, _⟩ => ⟨S200000x64, .f32⟩
  | .hbm, ⟨86, _⟩ => ⟨S200000x64, .f32⟩
  | .hbm, ⟨87, _⟩ => ⟨S_, .f32⟩
  | .hbm, ⟨88, _⟩ => ⟨S256x64, .f32⟩
  | .hbm, ⟨89, _⟩ => ⟨S200000x1, .i32⟩
  | .hbm, ⟨90, _⟩ => ⟨S256x64, .f32⟩
  | .hbm, ⟨91, _⟩ => ⟨S256x32, .f32⟩
  | .hbm, ⟨92, _⟩ => ⟨S1x32, .f32⟩
  | .hbm, ⟨93, _⟩ => ⟨S256x32, .f32⟩
  | .hbm, ⟨94, _⟩ => ⟨S256x32, .f32⟩
  | .hbm, ⟨95, _⟩ => ⟨S_, .f32⟩
  | .hbm, ⟨96, _⟩ => ⟨S256x32, .f32⟩
  | .hbm, ⟨97, _⟩ => ⟨S256x32, .f32⟩
  | .hbm, ⟨98, _⟩ => ⟨S256x8, .f32⟩
  | .hbm, ⟨99, _⟩ => ⟨S1x8, .f32⟩
  | .hbm, ⟨100, _⟩ => ⟨S256x8, .f32⟩
  | .hbm, ⟨101, _⟩ => ⟨S256x8, .f32⟩
  | .hbm, ⟨102, _⟩ => ⟨S256x8, .f32⟩
  | .hbm, ⟨103, _⟩ => ⟨S256x8, .f32⟩
  | .hbm, ⟨104, _⟩ => ⟨S_, .f32⟩
  | .hbm, ⟨105, _⟩ => ⟨S256x8, .f32⟩
  | .hbm, ⟨106, _⟩ => ⟨S256x8, .f32⟩
  | .hbm, ⟨107, _⟩ => ⟨S_, .f32⟩
  | .hbm, ⟨108, _⟩ => ⟨S256x8, .f32⟩
  | .hbm, ⟨109, _⟩ => ⟨S256x8, .f32⟩
  | .hbm, ⟨110, _⟩ => ⟨S256x24, .f32⟩
  | .hbm, ⟨111, _⟩ => ⟨S1x24, .f32⟩
  | .hbm, ⟨112, _⟩ => ⟨S256x24, .f32⟩
  | .hbm, ⟨113, _⟩ => ⟨S256x24, .f32⟩
  | .hbm, ⟨114, _⟩ => ⟨S256x3x8, .f32⟩
  | _, _ => ⟨S200000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x10 : S_.BroadcastsInDim S200000x10 (![] : Fin 0 → Fin S200000x10.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S256x64 : S_.BroadcastsInDim S256x64 (![] : Fin 0 → Fin S256x64.rank)
  bcast_S200000_S200000x1_0 : S200000.BroadcastsInDim S200000x1 (![0] : Fin 1 → Fin S200000x1.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  bcast_S_S256x8 : S_.BroadcastsInDim S256x8 (![] : Fin 0 → Fin S256x8.rank)
  bcast_S24_S1x24_1 : S24.BroadcastsInDim S1x24 (![1] : Fin 1 → Fin S1x24.rank)
  bcast_S1x24_S256x24_0_1 : S1x24.BroadcastsInDim S256x24 (![0, 1] : Fin 2 → Fin S256x24.rank)
  shapeCasts_S256x24_S256x3x8 : S256x24.ShapeCasts S256x3x8
  gather_S200000x10_S1000000x1_S1000000x10_1_0_n_n_0_1_110_wf : GatherDims.WF S200000x10 S1000000x1 S1000000x10 [1] [0] [] [0] [] 1 ![1, 10]
  scatter_S200000x10_S1000000x1_S1000000x10_1_0_0_1_wf : ScatterDims.WF S200000x10 S1000000x1 S1000000x10 [1] [0] [0] 1
  dot_S200000x10_S10x64_S200000x64_1_0_0_1_n_n_wf : DotDims.WF S200000x10 S10x64 S200000x64 [1] [0] [0] [1] [] []
  dot_S200000x64_S64x64_S200000x64_1_0_0_1_n_n_wf : DotDims.WF S200000x64 S64x64 S200000x64 [1] [0] [0] [1] [] []
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S256x64_S200000x1_S200000x64_1_0_0_1_wf : ScatterDims.WF S256x64 S200000x1 S200000x64 [1] [0] [0] 1
  dot_S256x64_S64x32_S256x32_1_0_0_1_n_n_wf : DotDims.WF S256x64 S64x32 S256x32 [1] [0] [0] [1] [] []
  dot_S256x32_S32x8_S256x8_1_0_0_1_n_n_wf : DotDims.WF S256x32 S32x8 S256x8 [1] [0] [0] [1] [] []
  dot_S256x64_S64x24_S256x24_1_0_0_1_n_n_wf : DotDims.WF S256x64 S64x24 S256x24 [1] [0] [0] [1] [] []

variable [Facts₀]

def gather_S200000x10_S1000000x1_S1000000x10_1_0_n_n_0_1_110 : GatherDims S200000x10 S1000000x1 S1000000x10 where
  offsetDims := [1]
  collapsedSliceDims := [0]
  operandBatchingDims := []
  startIndicesBatchingDims := []
  startIndexMap := [0]
  indexVectorDim := 1
  sliceSizes := ![1, 10]
  wf := gather_S200000x10_S1000000x1_S1000000x10_1_0_n_n_0_1_110_wf
def scatter_S200000x10_S1000000x1_S1000000x10_1_0_0_1 : ScatterDims S200000x10 S1000000x1 S1000000x10 where
  updateWindowDims := [1]
  insertedWindowDims := [0]
  scatterDimsToOperandDims := [0]
  indexVectorDim := 1
  wf := scatter_S200000x10_S1000000x1_S1000000x10_1_0_0_1_wf
def dot_S200000x10_S10x64_S200000x64_1_0_0_1_n_n : DotDims S200000x10 S10x64 S200000x64 where
  lhsContracting := [1]
  rhsContracting := [0]
  lhsNonContracting := [0]
  rhsNonContracting := [1]
  lhsBatch := []
  rhsBatch := []
  wf := dot_S200000x10_S10x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S256x64_S200000x1_S200000x64_1_0_0_1 : ScatterDims S256x64 S200000x1 S200000x64 where
  updateWindowDims := [1]
  insertedWindowDims := [0]
  scatterDimsToOperandDims := [0]
  indexVectorDim := 1
  wf := scatter_S256x64_S200000x1_S200000x64_1_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x8_S256x8_1_0_0_1_n_n : DotDims S256x32 S32x8 S256x8 where
  lhsContracting := [1]
  rhsContracting := [0]
  lhsNonContracting := [0]
  rhsNonContracting := [1]
  lhsBatch := []
  rhsBatch := []
  wf := dot_S256x32_S32x8_S256x8_1_0_0_1_n_n_wf
def dot_S256x64_S64x24_S256x24_1_0_0_1_n_n : DotDims S256x64 S64x24 S256x24 where
  lhsContracting := [1]
  rhsContracting := [0]
  lhsNonContracting := [0]
  rhsNonContracting := [1]
  lhsBatch := []
  rhsBatch := []
  wf := dot_S256x64_S64x24_S256x24_1_0_0_1_n_n_wf

class Facts : Prop extends Facts₀ where

variable [Facts]
-- ==== Proof.K.RunCond.lean ====
import proofs.«403875_j79474074845433_2_alg».proof.Proof.Gen.Kernel.Regions

/-! # The run of @main with every final buffer named

The conditional frame of the regions module reads only the argument arrays off the last
valuation.  The same run, read at EVERY unscoped buffer: given one segment record per kernel
region, entered and left at the valuations `V3 … V9`, every weakly fair execution of @main
terminates and each core's unscoped buffers end holding `V10 m outs c`. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run, given the regions' records: every unscoped buffer of every core ends at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V10 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, .rfl, hpre1 c, hpost1 c, hpre2 c, hpost2 c, sep_mono .rfl (hE3 c)⟩)
    (hinit := ?_)
    (QY := fun c s => ∀ b ∈ Pipeline.ucRefs τ sig, s.mem ((c : Thread nD τ).1, b) = V10 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

end Cert.Kernel.Hand

end
-- ==== Proof.K.Conv0.lean ====
/- Kernel call 0 of the program (the two-layer perceptron of a graph convolution, on row tiles of 5000): the proof data of its
   pipeline at a parameter `V`, the contents of the core's buffers when the region is entered, and the body's
   obligation. The body loads each of its seven input blocks whole, loads the output block (whose contents are
   unknown and unused), and stores one whole block: the second layer's rectified output as a closed function of the
   seven input blocks. -/
import proofs.«403875_j79474074845433_2_alg».proof.Proof.Gen.Kernel.Launch
import proofs.«403875_j79474074845433_2_alg».proof.Proof.Gen.Kernel.Skeleton
import proofs.«403875_j79474074845433_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (the block index of an
    unfetched point has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (the block index of an
    unfetched point has not moved), for any proof data over the entry contents whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (the block index of an
    unfetched point has not moved), for any proof data over the entry contents whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (the block index of an
    unfetched point has not moved), for any proof data over the entry contents whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (the block index of an
    unfetched point has not moved), for any proof data over the entry contents whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (the block index of an
    unfetched point has not moved), for any proof data over the entry contents whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not (the block index of an
    unfetched point has not moved), for any proof data over the entry contents whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

abbrev r0_S5000x10 : Rect S5000x10 := Rect.unit (s := S5000x10) ![0, 0] S5000x10.size inb_S5000x10_S5000x10_0_0
abbrev r0_S1x1 : Rect S1x1 := Rect.unit (s := S1x1) ![0, 0] S1x1.size inb_S1x1_S1x1_0_0
abbrev r0_S10x64 : Rect S10x64 := Rect.unit (s := S10x64) ![0, 0] S10x64.size inb_S10x64_S10x64_0_0
abbrev r0_S1x64 : Rect S1x64 := Rect.unit (s := S1x64) ![0, 0] S1x64.size inb_S1x64_S1x64_0_0
abbrev r0_S64x64 : Rect S64x64 := Rect.unit (s := S64x64) ![0, 0] S64x64.size inb_S64x64_S64x64_0_0
abbrev r0_S5000x64 : Rect S5000x64 := Rect.unit (s := S5000x64) ![0, 0] S5000x64.size inb_S5000x64_S5000x64_0_0

/-! ## What the body leaves in the output window's buffer -/

/-- The output block after the body, from the seven input blocks (in window order: features, aggregated
    neighbours, epsilon, first weights, first bias, second weights, second bias): the one store's payload over what
    the loads read. -/
def out0_7 (x0 : Vec F S5000x10 .f32) (x1 : Vec F S5000x10 .f32) (x2 : Vec F S1x1 .f32) (x3 : Vec F S10x64 .f32) (x4 : Vec F S1x64 .f32) (x5 : Vec F S64x64 .f32) (x6 : Vec F S1x64 .f32) : Vec F S5000x64 .f32 :=
  View.canon [⟨r0_S5000x64, k0_pay1 (View.ld x2 r0_S1x1) (View.ld x0 r0_S5000x10) (View.ld x1 r0_S5000x10) (View.ld x3 r0_S10x64) (View.ld x4 r0_S1x64) (View.ld x5 r0_S64x64) (View.ld x6 r0_S1x64)⟩]

/-- The one store covers the buffer. -/
theorem cover0_7 (p0 : Vec F S5000x64 .f32) (y : S5000x64.Idx) :
    ∃ pc ∈ ([⟨r0_S5000x64, p0⟩] : List (View.Piece (Elt F) S5000x64 .f32)), y ∈ pc.1.set :=
  View.cover_of_tiled [⟨r0_S5000x64, p0⟩] S5000x64.size (by rfl) y

/-! ## The body's triple -/

set_option maxHeartbeats 4000000 in
/-- The body on whole staging memrefs, the inputs' at read contents `x0 … x6` and the output's at anything, runs to a
    continuation that holds the inputs' as they were and the output's at `out0_7` of them. -/
theorem sound_kernel0 (c : Dev nD) (E : Set ℕ) (i : grid0.Coords) (arg1 : Memref sig .tc .vmem S5000x10 .f32) (harg1 : arg1.IsWhole) (arg2 : Memref sig .tc .vmem S5000x10 .f32) (harg2 : arg2.IsWhole) (arg3 : Memref sig .tc .vmem S1x1 .f32) (harg3 : arg3.IsWhole) (arg4 : Memref sig .tc .vmem S10x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x10 .f32) (x1 : Vec F S5000x10 .f32) (x2 : Vec F S1x1 .f32) (x3 : Vec F S10x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E (cc0_conv_mlp_kernel i arg1 harg1 arg2 harg2 arg3 harg3 arg4 harg4 arg5 harg5 arg6 harg6 arg7 harg7 arg8 harg8) K := by
  simp only [cc0_conv_mlp_kernel_eq_skeleton]; unfold cc0_conv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer at its block and the output's at `out0_7` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Conv1.lean ====
/- Kernel call 1 of the program (the two-layer perceptron of a graph convolution, on row tiles of 5000): the proof data of its
   pipeline at a parameter `V`, the contents of the core's buffers when the region is entered, and the body's
   obligation. The body loads each of its seven input blocks whole, loads the output block (whose contents are
   unknown and unused), and stores one whole block: the second layer's rectified output as a closed function of the
   seven input blocks. -/
import proofs.«403875_j79474074845433_2_alg».proof.Proof.Gen.Kernel.Launch
import proofs.«403875_j79474074845433_2_alg».proof.Proof.Gen.Kernel.Skeleton
import proofs.«403875_j79474074845433_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (the block index of an
    unfetched point has not moved), for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (the block index of an
    unfetched point has not moved), for any proof data over the entry contents whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (the block index of an
    unfetched point has not moved), for any proof data over the entry contents whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (the block index of an
    unfetched point has not moved), for any proof data over the entry contents whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (the block index of an
    unfetched point has not moved), for any proof data over the entry contents whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (the block index of an
    unfetched point has not moved), for any proof data over the entry contents whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not (the block index of an
    unfetched point has not moved), for any proof data over the entry contents whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole block -/

abbrev r1_S5000x64 : Rect S5000x64 := Rect.unit (s := S5000x64) ![0, 0] S5000x64.size inb_S5000x64_S5000x64_0_0
abbrev r1_S1x1 : Rect S1x1 := Rect.unit (s := S1x1) ![0, 0] S1x1.size inb_S1x1_S1x1_0_0
abbrev r1_S64x64 : Rect S64x64 := Rect.unit (s := S64x64) ![0, 0] S64x64.size inb_S64x64_S64x64_0_0
abbrev r1_S1x64 : Rect S1x64 := Rect.unit (s := S1x64) ![0, 0] S1x64.size inb_S1x64_S1x64_0_0

/-! ## What the body leaves in the output window's buffer -/

/-- The output block after the body, from the seven input blocks (in window order: features, aggregated
    neighbours, epsilon, first weights, first bias, second weights, second bias): the one store's payload over what
    the loads read. -/
def out1_7 (x0 : Vec F S5000x64 .f32) (x1 : Vec F S5000x64 .f32) (x2 : Vec F S1x1 .f32) (x3 : Vec F S64x64 .f32) (x4 : Vec F S1x64 .f32) (x5 : Vec F S64x64 .f32) (x6 : Vec F S1x64 .f32) : Vec F S5000x64 .f32 :=
  View.canon [⟨r1_S5000x64, k1_pay1 (View.ld x2 r1_S1x1) (View.ld x0 r1_S5000x64) (View.ld x1 r1_S5000x64) (View.ld x3 r1_S64x64) (View.ld x4 r1_S1x64) (View.ld x5 r1_S64x64) (View.ld x6 r1_S1x64)⟩]

/-- The one store covers the buffer. -/
theorem cover1_7 (p0 : Vec F S5000x64 .f32) (y : S5000x64.Idx) :
    ∃ pc ∈ ([⟨r1_S5000x64, p0⟩] : List (View.Piece (Elt F) S5000x64 .f32)), y ∈ pc.1.set :=
  View.cover_of_tiled [⟨r1_S5000x64, p0⟩] S5000x64.size (by rfl) y

/-! ## The body's triple -/

set_option maxHeartbeats 4000000 in
/-- The body on whole staging memrefs, the inputs' at read contents `x0 … x6` and the output's at anything, runs to a
    continuation that holds the inputs' as they were and the output's at `out1_7` of them. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S5000x64 .f32) (x2 : Vec F S1x1 .f32) (x3 : Vec F S64x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1_conv_mlp_kernel i arg1 harg1 arg2 harg2 arg3 harg3 arg4 harg4 arg5 harg5 arg6 harg6 arg7 harg7 arg8 harg8) K := by
  simp only [cc1_conv_mlp_kernel_eq_skeleton]; unfold cc1_conv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them; after the body at point `t` each
    input's buffer at its block and the output's at `out1_7` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Pool.lean ====
import proofs.«403875_j79474074845433_2_alg».proof.Proof.Gen.Kernel.Launch
import proofs.«403875_j79474074845433_2_alg».proof.Proof.Gen.Kernel.Skeleton
import proofs.«403875_j79474074845433_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The pooling call (the third pallas_call), at a parameter `V`

The kernel keeps a running sum in a VMEM scratch buffer across the 40 grid points: the first point
zeroes it, every point adds its block's one-hot pooled contribution, and the last point reads the
total and computes the two heads into the two output windows, which no other point stores into.
Here: each window's block, what one point leaves in the scratch as a function of what it found,
the running sum point by point, what the last point leaves in the outputs, the region invariant
(the scratch at the running sum), the proof data and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

abbrev rA2 : Rect S256x64 := Rect.unit (s := S256x64) ![0, 0] S256x64.size inb_S256x64_S256x64_0_0
abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S64x32 := Rect.unit (s := S64x32) ![0, 0] S64x32.size inb_S64x32_S64x32_0_0
abbrev r2_3 : Rect S1x32 := Rect.unit (s := S1x32) ![0, 0] S1x32.size inb_S1x32_S1x32_0_0
abbrev r2_4 : Rect S32x8 := Rect.unit (s := S32x8) ![0, 0] S32x8.size inb_S32x8_S32x8_0_0
abbrev r2_5 : Rect S1x8 := Rect.unit (s := S1x8) ![0, 0] S1x8.size inb_S1x8_S1x8_0_0
abbrev r2_6 : Rect S64x24 := Rect.unit (s := S64x24) ![0, 0] S64x24.size inb_S64x24_S64x24_0_0
abbrev r2_7 : Rect S1x24 := Rect.unit (s := S1x24) ![0, 0] S1x24.size inb_S1x24_S1x24_0_0
abbrev r2_8 : Rect S256x8 := Rect.unit (s := S256x8) ![0, 0] S256x8.size inb_S256x8_S256x8_0_0
abbrev r2_9 : Rect S256x24 := Rect.unit (s := S256x24) ![0, 0] S256x24.size inb_S256x24_S256x24_0_0

/-! ## The running sum -/

/-- What the first point's reset leaves in the scratch before the accumulation: its one whole store of zeros. -/
def acc0_2 : Vec F S256x64 .f32 :=
  View.canon [⟨rA2, k2_pay1 (F := F)⟩]

/-- What a point leaves in the scratch, from its block `x` of the features, its block `b` of the graph labels and
    what it found there, `a`: its one whole store of `a` plus the block's pooled contribution. -/
def accStep2 (x : Vec F S5000x64 .f32) (b : Vec F S5000x1 .i32) (a : Vec F S256x64 .f32) : Vec F S256x64 .f32 :=
  View.canon [⟨rA2, k2_pay2 (View.ld x r2_0) (View.ld b r2_1) (View.ld a rA2)⟩]

/-- The scratch after point `n`: the first point accumulates over the zeros it has just stored, every later point
    over what the point before left. -/
def accAt2 (c : Dev nD) : (n : ℕ) → n < cfg2.N → Vec F S256x64 .f32
  | 0, hn => accStep2 (iblk2 V c 0 ⟨0, hn⟩) (iblk2 V c 1 ⟨0, hn⟩) acc0_2
  | n + 1, hn => accStep2 (iblk2 V c 0 ⟨n + 1, hn⟩) (iblk2 V c 1 ⟨n + 1, hn⟩) (accAt2 c n (Nat.lt_of_succ_lt hn))

theorem accAt2_zero (c : Dev nD) (hn : 0 < cfg2.N) :
    accAt2 V c 0 hn = accStep2 (iblk2 V c 0 ⟨0, hn⟩) (iblk2 V c 1 ⟨0, hn⟩) acc0_2 := rfl

theorem accAt2_succ (c : Dev nD) (n : ℕ) (hn : n + 1 < cfg2.N) :
    accAt2 V c (n + 1) hn = accStep2 (iblk2 V c 0 ⟨n + 1, hn⟩) (iblk2 V c 1 ⟨n + 1, hn⟩) (accAt2 V c n (Nat.lt_of_succ_lt hn)) := rfl

/-- At a point that is not the first: the step over what the point before left. -/
theorem accAt2_pos (c : Dev nD) (t : Fin cfg2.N) (ht : t.val ≠ 0) :
    accAt2 V c t.val t.isLt = accStep2 (iblk2 V c 0 t) (iblk2 V c 1 t) (accAt2 V c (t.val - 1) (Nat.lt_of_le_of_lt (Nat.sub_le _ _) t.isLt)) := by
  obtain ⟨n, hn⟩ := t
  cases n with
  | zero => exact absurd rfl ht
  | succ n => rfl

/-! ## What the last point leaves in the two outputs -/

/-- Output window 8 after the last point, from the scratch's total `a` and the first head's weight blocks: its one
    whole store. -/
def out2_8 (a : Vec F S256x64 .f32) (x2 : Vec F S64x32 .f32) (x3 : Vec F S1x32 .f32) (x4 : Vec F S32x8 .f32) (x5 : Vec F S1x8 .f32) : Vec F S256x8 .f32 :=
  View.canon [⟨r2_8, k2_pay4 (View.ld a rA2) (View.ld x2 r2_2) (View.ld x3 r2_3) (View.ld x4 r2_4) (View.ld x5 r2_5)⟩]

/-- Output window 9 after the last point, from the scratch's total `a` and the second head's weight blocks. -/
def out2_9 (a : Vec F S256x64 .f32) (x6 : Vec F S64x24 .f32) (x7 : Vec F S1x24 .f32) : Vec F S256x24 .f32 :=
  View.canon [⟨r2_9, k2_pay5 (View.ld a rA2) (View.ld x6 r2_6) (View.ld x7 r2_7)⟩]

/-! ## The region invariant -/

/-- The scratch operand, a whole scoped buffer of the kernel's own. -/
abbrev scM2 : Memref sig .tc .vmem S256x64 .f32 := Memref.whole cc2_scratch0

/-- The core's scoped buffers that are neither a staging buffer of this call nor its scratch, each at some contents. -/
abbrev restBut2 (c : Dev nD) : sProp 𝕄 :=
  Pipeline.scopedRestBut (Ix := Unit) (Name := ℕ) (U := UR sig nD τ) (Lvl := ℕ) (Val := Elt F) spec2 c [cc2_scratch0]

/-- The invariant before position `n`: before the first point what the launch hands the region (every scoped buffer
    that is no staging buffer of the call at anything, the generator register at some state); afterwards the same with
    the scratch at the running sum the point before left. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ restBut2 c) ∗ (∃ r, prngReg c r)) := by
  cases n with
  | zero => exact absurd rfl hz
  | succ n => rfl

/-! ## The proof data -/

/-- The proof data of the pooling call on core `c`: the arrays as the region finds them; after the body at point `t`
    each input's buffer at its block, the outputs' at the heads of the running sum there (consulted at the last point
    only: elsewhere the outputs are idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (accAt2 V c t.val t.isLt) (iblk2 V c 2 t) (iblk2 V c 3 t) (iblk2 V c 4 t) (iblk2 V c 5 t)
    | ⟨9, _⟩ => out2_9 (accAt2 V c t.val t.isLt) (iblk2 V c 6 t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (accAt2 V c t.val t.isLt) (iblk2 V c 2 t) (iblk2 V c 3 t) (iblk2 V c 4 t) (iblk2 V c 5 t) := by dsimp only [dat2]
theorem after2_9 (c : Dev nD) (t : Fin cfg2.N) : (dat2 V c).after 9 t = out2_9 (accAt2 V c t.val t.isLt) (iblk2 V c 6 t) (iblk2 V c 7 t) := by dsimp only [dat2]

/-! ## The launch's invariant, the scratch apart -/

/-- The call's scoped rest split at its own scratch: the scratch whole at some contents, every other scoped buffer
    that is no staging buffer of the call unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restBut2 c) :=
  Pipeline.scopedRest_split_of_list spec2 c [cc2_scratch0] (by decide) (by decide)

/-- What the launch hands the region, with the scratch as a memref owned at some contents. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA; rw [scopedRest2_split]; simp only [scM2, owns_whole]; rfl

/-! ## The body's two conditions, decided over the grid -/

/-- The first `scf.if`'s condition (the reset), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second `scf.if`'s condition (the heads), from the grid coordinate. -/
abbrev cond2_1 (i : grid2.Coords) : Prop := k2_cond2 i = 1#1
/-- It holds at the last point only. -/
theorem hcond2_1 : ∀ t : Fin cfg2.N, cond2_1 (grid2.coords t) ↔ t.val = 39 :=
  (by decide +kernel : ∀ t : Fin grid2.N, cond2_1 (grid2.coords t) ↔ t.val = 39)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
/-- Before the last point the two outputs are idle and not written back; at the last point they are live. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel
theorem idleAt2_9 : ∀ t : Fin cfg2.N, ¬cond2_1 (grid2.coords t) → cfg2.idle 9 (grid2.coords t) = true := by decide +kernel
theorem noFlush2_9 : ∀ t : Fin cfg2.N, ¬cond2_1 (grid2.coords t) → (cfg2.win 9).flush t = false := by decide +kernel
theorem liveAt2_9 : ∀ t : Fin cfg2.N, cond2_1 (grid2.coords t) → cfg2.idle 9 (grid2.coords t) = false := by decide +kernel

/-! ## The inputs' buffers hold their blocks at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## The invariant at the region's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 40 := N_2; omega)

end Cert.Kernel.Hand

end
-- ==== Proof.K.PoolBody.lean ====
import proofs.«403875_j79474074845433_2_alg».proof.Proof.K.Pool
import Idealize.ShloMosaic.Lib.Pipeline.Value

/-! # The pooling call's body, point by point

Three runs of the kernel body over whole staging memrefs — at the first grid point (the scratch is zeroed, then
accumulated into), at a middle point (accumulated into), at the last point (accumulated into, read back, and the two
heads computed into the two output windows) — each with the contents it leaves stated in closed form; then the body
obligation of the proof data `dat2`, by cases on the point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem off2 : (![0, 0] : Fin 2 → Nat) = fun _ => 0 := funext fun a => by fin_cases a <;> rfl

/-! ## The first point -/

set_option maxHeartbeats 1000000 in
/-- At the first point (the reset taken, the heads not): the body zeroes the scratch, whatever it held, reads the
    zeros back, adds the block's contribution and stores the sum; the two input buffers are left as found, the
    other buffers untouched. -/
theorem sound_first2 (c : Dev nD) (E : Set ℕ) (i : grid2.Coords) (hc0 : cond2_0 i) (hc1 : ¬cond2_1 i)
    (arg1 : Memref sig .tc .vmem S5000x64 .f32) (harg1 : arg1.IsWhole) (arg2 : Memref sig .tc .vmem S5000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S64x24 .f32) (harg7 : arg7.IsWhole) (arg8 : Memref sig .tc .vmem S1x24 .f32) (harg8 : arg8.IsWhole) (arg9 : Memref sig .tc .vmem S256x8 .f32) (harg9 : arg9.IsWhole) (arg10 : Memref sig .tc .vmem S256x24 .f32) (harg10 : arg10.IsWhole) (arg11 : Memref sig .tc .vmem S256x64 .f32) (harg11 : arg11.IsWhole)
    (x0 : Vec F S5000x64 .f32) (x1 : Vec F S5000x1 .i32) (K : PUnit → sProp 𝕄) :
    iprop(owns (c : Thread nD τ) arg1 fullShare x0 ∗ owns (c : Thread nD τ) arg2 fullShare x1 ∗ (∃ d, owns (c : Thread nD τ) arg11 fullShare d)
        ∗ (iprop(owns (c : Thread nD τ) arg1 fullShare x0 ∗ owns (c : Thread nD τ) arg2 fullShare x1
            ∗ owns (c : Thread nD τ) arg11 fullShare (accStep2 x0 x1 acc0_2)) -∗ K ⟨⟩))
      ⊢ wp frame (wpE (defs₀ (F := F)) Variants.none c none) E (cc2_pool_heads_kernel i arg1 harg1 arg2 harg2 arg3 harg3 arg4 harg4 arg5 harg5 arg6 harg6 arg7 harg7 arg8 harg8 arg9 harg9 arg10 harg10 arg11 harg11) K := by
  simp only [cc2_pool_heads_kernel_eq_skeleton]; unfold cc2_pool_heads_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.mem_cons_self, View.mem_set_unit_zero off2 inb_S256x64_S256x64_0_0 y⟩),
    View.canon_cons_unit_zero off2, View.readCov_unit_zero _ off2]
  unfold accStep2 acc0_2
  rw [View.canon_unit_zero off2, View.canon_unit_zero off2, View.ld_unit_zero (S := S256x64) off2]
  rfl

/-! ## A middle point -/

set_option maxHeartbeats 1000000 in
/-- At a point that is neither the first nor the last (neither `scf.if` taken): the body reads the scratch at what it
    found, `a`, adds the block's contribution and stores the sum. -/
theorem sound_mid2 (c : Dev nD) (E : Set ℕ) (i : grid2.Coords) (hc0 : ¬cond2_0 i) (hc1 : ¬cond2_1 i)
    (arg1 : Memref sig .tc .vmem S5000x64 .f32) (harg1 : arg1.IsWhole) (arg2 : Memref sig .tc .vmem S5000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S64x24 .f32) (harg7 : arg7.IsWhole) (arg8 : Memref sig .tc .vmem S1x24 .f32) (harg8 : arg8.IsWhole) (arg9 : Memref sig .tc .vmem S256x8 .f32) (harg9 : arg9.IsWhole) (arg10 : Memref sig .tc .vmem S256x24 .f32) (harg10 : arg10.IsWhole) (arg11 : Memref sig .tc .vmem S256x64 .f32) (harg11 : arg11.IsWhole)
    (x0 : Vec F S5000x64 .f32) (x1 : Vec F S5000x1 .i32) (a : Vec F S256x64 .f32) (K : PUnit → sProp 𝕄) :
    iprop(owns (c : Thread nD τ) arg1 fullShare x0 ∗ owns (c : Thread nD τ) arg2 fullShare x1 ∗ owns (c : Thread nD τ) arg11 fullShare a
        ∗ (iprop(owns (c : Thread nD τ) arg1 fullShare x0 ∗ owns (c : Thread nD τ) arg2 fullShare x1
            ∗ owns (c : Thread nD τ) arg11 fullShare (accStep2 x0 x1 a)) -∗ K ⟨⟩))
      ⊢ wp frame (wpE (defs₀ (F := F)) Variants.none c none) E (cc2_pool_heads_kernel i arg1 harg1 arg2 harg2 arg3 harg3 arg4 harg4 arg5 harg5 arg6 harg6 arg7 harg7 arg8 harg8 arg9 harg9 arg10 harg10 arg11 harg11) K := by
  simp only [cc2_pool_heads_kernel_eq_skeleton]; unfold cc2_pool_heads_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_cons_self, View.mem_set_unit_zero off2 inb_S256x64_S256x64_0_0 y⟩),
    View.canon_cons_unit_zero off2]
  unfold accStep2
  rw [View.canon_unit_zero off2]
  rfl

/-! ## The last point -/

set_option maxHeartbeats 2000000 in
/-- At the last point (the reset not taken, the heads taken): the body accumulates as at a middle point, reads the
    total back, and stores the two heads of it and of the weight blocks into the two output buffers, whatever they
    held; every input buffer is left as found. -/
theorem sound_last2 (c : Dev nD) (E : Set ℕ) (i : grid2.Coords) (hc0 : ¬cond2_0 i) (hc1 : cond2_1 i)
    (arg1 : Memref sig .tc .vmem S5000x64 .f32) (harg1 : arg1.IsWhole) (arg2 : Memref sig .tc .vmem S5000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S64x24 .f32) (harg7 : arg7.IsWhole) (arg8 : Memref sig .tc .vmem S1x24 .f32) (harg8 : arg8.IsWhole) (arg9 : Memref sig .tc .vmem S256x8 .f32) (harg9 : arg9.IsWhole) (arg10 : Memref sig .tc .vmem S256x24 .f32) (harg10 : arg10.IsWhole) (arg11 : Memref sig .tc .vmem S256x64 .f32) (harg11 : arg11.IsWhole)
    (x0 : Vec F S5000x64 .f32) (x1 : Vec F S5000x1 .i32) (x2 : Vec F S64x32 .f32) (x3 : Vec F S1x32 .f32)
    (x4 : Vec F S32x8 .f32) (x5 : Vec F S1x8 .f32) (x6 : Vec F S64x24 .f32) (x7 : Vec F S1x24 .f32)
    (a : Vec F S256x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ owns (c : Thread nD τ) arg11 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 (accStep2 x0 x1 a) x2 x3 x4 x5)
            ∗ owns (c : Thread nD τ) arg10 fullShare (out2_9 (accStep2 x0 x1 a) x6 x7)
            ∗ owns (c : Thread nD τ) arg11 fullShare (accStep2 x0 x1 a)) -∗ K ⟨⟩))
      ⊢ wp frame (wpE (defs₀ (F := F)) Variants.none c none) E (cc2_pool_heads_kernel i arg1 harg1 arg2 harg2 arg3 harg3 arg4 harg4 arg5 harg5 arg6 harg6 arg7 harg7 arg8 harg8 arg9 harg9 arg10 harg10 arg11 harg11) K := by
  simp only [cc2_pool_heads_kernel_eq_skeleton]; unfold cc2_pool_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (fun y => ⟨_, List.mem_cons_self, View.mem_set_unit_zero off2 inb_S256x8_S256x8_0_0 y⟩),
      View.canon_unit_zero off2, View.readCov_unit_zero _ off2]
    unfold out2_8 accStep2
    rw [View.canon_unit_zero off2, View.canon_unit_zero off2, View.ld_unit_zero (S := S256x64) off2]
    rfl
  isplitl [H9]
  · iexists _; isplitr
    swap; · iexact H9
    ipureintro
    sl_unfold_words
    rw [View.read_writes_eq_canon _ _ _ (fun y => ⟨_, List.mem_cons_self, View.mem_set_unit_zero off2 inb_S256x24_S256x24_0_0 y⟩),
      View.canon_unit_zero off2, View.readCov_unit_zero _ off2]
    unfold out2_9 accStep2
    rw [View.canon_unit_zero off2, View.canon_unit_zero off2, View.ld_unit_zero (S := S256x64) off2]
    rfl
  iexists _; isplitr
  swap; · iexact HS
  ipureintro
  sl_unfold_words
  rw [View.read_writes_eq_canon _ _ _ (fun y => ⟨_, List.mem_cons_self, View.mem_set_unit_zero off2 inb_S256x64_S256x64_0_0 y⟩),
    View.canon_cons_unit_zero off2]
  unfold accStep2
  rw [View.canon_unit_zero off2]
  rfl

/-! ## The body obligation -/

-- the TensorCore's buffer contents when the region is entered
variable (V : (c : Dev nD) → (b : Ref sig .tc) → Buf (Elt F) ((c : Thread nD τ).loc b))

/-- The running sum after the first point: the step over the zeros the reset has just stored. -/
theorem accAt2_first (c : Dev nD) (t : Fin cfg2.N) (ht : t.val = 0) :
    accAt2 V c t.val t.isLt = accStep2 (iblk2 V c 0 t) (iblk2 V c 1 t) acc0_2 := by
  obtain ⟨n, hn⟩ := t
  cases n with
  | zero => rfl
  | succ n => exact absurd ht (Nat.succ_ne_zero n)

/-- An input window's buffer is left at its block (no input window is ever idle). -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (st2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (st2_5 t) fullShare (iblk2 V c 5 t) := by
  unfold Dat.leavesExact; rw [liveAt2_5 t, after2_5]
theorem leaves2_6 (c : Dev nD) (t : Fin cfg2.N) :
    (dat2 V c).leavesExact 6 t = owns (c : Thread nD τ) (st2_6 t) fullShare (iblk2 V c 6 t) := by
  unfold Dat.leavesExact; rw [liveAt2_6 t, after2_6]
theorem leaves2_7 (c : Dev nD) (t : Fin cfg2.N) :
    (dat2 V c).leavesExact 7 t = owns (c : Thread nD τ) (st2_7 t) fullShare (iblk2 V c 7 t) := by
  unfold Dat.leavesExact; rw [liveAt2_7 t, after2_7]

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4000000 in
/-- The body at any point, by cases on the point. The inputs' memrefs hold their blocks; the invariant hands the body the
    scratch — at anything before the first point, at the running sum the point before left afterwards — and takes it back
    at this point's running sum; before the last point the two outputs are idle and not written back, so their buffers go
    back as found; at the last point they are live and are left at the heads of the total. The other scoped buffers, the
    generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6, leaves2_7]
  have hN : t.val < 40 := lt_of_lt_of_eq t.isLt (show cfg2.N = 40 from N_2)
  by_cases h1 : t.val = 39
  · -- the last point
    have hc1 : cond2_1 (grid2.coords t) := (hcond2_1 t).mpr h1
    have hc0 : ¬cond2_0 (grid2.coords t) := fun h => by have := (hcond2_0 t).mp h; omega
    have hz : t.val ≠ 0 := by omega
    rw [show (dat2 V c).leavesExact 8 t = owns (c : Thread nD τ) (st2_8 t) fullShare ((dat2 V c).after 8 t) from by
      unfold Dat.leavesExact; rw [liveAt2_8 t hc1], after2_8]
    rw [show (dat2 V c).leavesExact 9 t = owns (c : Thread nD τ) (st2_9 t) fullShare ((dat2 V c).after 9 t) from by
      unfold Dat.leavesExact; rw [liveAt2_9 t hc1], after2_9]
    rw [PhiS2_castSucc V c t, PhiS2_pos V c _ _ hz, accAt2_pos V c t hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_last2 c Set.univ (grid2.coords t) hc0 hc1 _ _ _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t) (iblk2 V c 7 t)
      (accAt2 V c (t.val - 1) _) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · -- before the last point the heads are not taken: the two outputs are idle and not written back
    have hc1 : ¬cond2_1 (grid2.coords t) := fun h => h1 ((hcond2_1 t).mp h)
    rw [Dat.leavesExact_idle (dat2 V c) 8 t (idleAt2_8 t hc1) (noFlush2_8 t hc1),
      Dat.leavesExact_idle (dat2 V c) 9 t (idleAt2_9 t hc1) (noFlush2_9 t hc1)]
    by_cases h0 : t.val = 0
    · -- the first point
      have hc0 : cond2_0 (grid2.coords t) := (hcond2_0 t).mpr h0
      rw [PhiS2_castSucc V c t, PhiS2_zero V c _ _ h0, PhiA2_eq, accAt2_first V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_first2 c Set.univ (grid2.coords t) hc0 hc1 _ _ _ _ _ _ _ _ _ _ _ _ _ _ _ _ _ _ _ _ _ _ (iblk2 V c 0 t) (iblk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · -- a middle point
      have hc0 : ¬cond2_0 (grid2.coords t) := fun h => h0 ((hcond2_0 t).mp h)
      rw [PhiS2_castSucc V c t, PhiS2_pos V c _ _ h0, accAt2_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_mid2 c Set.univ (grid2.coords t) hc0 hc1 _ _ _ _ _ _ _ _ _ _ _ _ _ _ _ _ _ _ _ _ _ _ (iblk2 V c 0 t) (iblk2 V c 1 t)
        (accAt2 V c (t.val - 1) _) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«403875_j79474074845433_2_alg».proof.Proof.K.RunCond
import proofs.«403875_j79474074845433_2_alg».proof.Proof.K.Conv0
import proofs.«403875_j79474074845433_2_alg».proof.Proof.K.Conv1
import proofs.«403875_j79474074845433_2_alg».proof.Proof.K.Pool
import proofs.«403875_j79474074845433_2_alg».proof.Proof.K.PoolBody
import proofs.«403875_j79474074845433_2_alg».proof.Proof.Gen.Kernel.Launch
import proofs.«403875_j79474074845433_2_alg».proof.Proof.Gen.Kernel.Skeleton
import proofs.«403875_j79474074845433_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main's three kernel regions as segments, and the run with every final buffer named

The regions module writes the buffers' contents between @main's items over unknowns `outs`: what each region
leaves in its output arrays.  Here the unknowns are given their values, region by region: region K's output
arrays end at what its pipeline's write-backs leave (`Dat.arrAt … N`) from the entry contents, which are the
contents after the earlier regions.  Each stage is a `match` on the item number whose other arms are the
stage before, so the earlier valuations stay what they were.

## The contents the regions leave -/

/-- Region 0's entry contents, read at the TensorCore's references. -/
abbrev Vr0 : (c : Dev nD) → (b : Ref sig .tc) → Buf (Elt F) ((c : Thread nD τ).loc b) := fun c b => V3 m c (Proc.devRef .tc b)
/-- At region 0's exit: its arrays at what the pipeline leaves, every other buffer as entered. -/
def W4 (c : Dev nD) : Valuation τ sig (Elt F) :=
  Pipeline.withArrays spec0 c (V3 m c) fun w => (dat0 (Vr0 m) c).arrAt w cfg0.N
/-- The unknowns with region 0's output named. -/
def outs0 : Outs (F := F) := fun J r c => match J with
  | 4 => W4 m c (Proc.devRef .tc r)
  | _ => V0 m c (Proc.devRef .tc r)

/-- Region 1's entry contents. -/
abbrev Vr1 : (c : Dev nD) → (b : Ref sig .tc) → Buf (Elt F) ((c : Thread nD τ).loc b) := fun c b => V6 m (outs0 m) c (Proc.devRef .tc b)
/-- At region 1's exit. -/
def W7 (c : Dev nD) : Valuation τ sig (Elt F) :=
  Pipeline.withArrays spec1 c (V6 m (outs0 m) c) fun w => (dat1 (Vr1 m) c).arrAt w cfg1.N
/-- The unknowns with the outputs of regions 0 and 1 named. -/
def outs1 : Outs (F := F) := fun J r c => match J with
  | 7 => W7 m c (Proc.devRef .tc r)
  | _ => outs0 m J r c

/-- Region 2's entry contents. -/
abbrev Vr2 : (c : Dev nD) → (b : Ref sig .tc) → Buf (Elt F) ((c : Thread nD τ).loc b) := fun c b => V8 m (outs1 m) c (Proc.devRef .tc b)
/-- At region 2's exit. -/
def W9 (c : Dev nD) : Valuation τ sig (Elt F) :=
  Pipeline.withArrays spec2 c (V8 m (outs1 m) c) fun w => (dat2 (Vr2 m) c).arrAt w cfg2.N
/-- What every region leaves in its output arrays. -/
def outs : Outs (F := F) := fun J r c => match J with
  | 9 => W9 m c (Proc.devRef .tc r)
  | _ => outs1 m J r c

/-! ### The stages agree where an earlier valuation reads them -/

theorem outs_at4 (r : Ref sig .tc) (c : Dev nD) : outs m 4 r c = W4 m c (Proc.devRef .tc r) := rfl
theorem outs_at7 (r : Ref sig .tc) (c : Dev nD) : outs m 7 r c = W7 m c (Proc.devRef .tc r) := rfl
theorem outs_at9 (r : Ref sig .tc) (c : Dev nD) : outs m 9 r c = W9 m c (Proc.devRef .tc r) := rfl
/-- The valuations up to region 1's entry read the unknowns only at region 0's output. -/
theorem V6_outs (c : Dev nD) : V6 m (outs m) c = V6 m (outs0 m) c := rfl
/-- The valuations up to region 2's entry read the unknowns only at the outputs of regions 0 and 1. -/
theorem V8_outs (c : Dev nD) : V8 m (outs m) c = V8 m (outs1 m) c := rfl
theorem Vr1_eq : Vr1 m = fun c b => V6 m (outs m) c (Proc.devRef .tc b) := rfl
theorem Vr2_eq : Vr2 m = fun c b => V8 m (outs m) c (Proc.devRef .tc b) := rfl

/-! ### Each region's output arrays, read off the unknowns -/

/-- Region 0 leaves in `main_v11` what its output window's write-backs make of it. -/
theorem W4_arr (c : Dev nD) (w : Fin 8) : W4 m c (Proc.devRef .tc (Pipeline.arrRef spec0 w)) = (dat0 (Vr0 m) c).arrAt w cfg0.N := by
  unfold W4; exact Pipeline.withArrays_arr spec0 launch0.win.arr_inj c _ _ w
theorem outs_4 (c : Dev nD) : outs m 4 main_v11 c = (dat0 (Vr0 m) c).arrAt 7 cfg0.N := W4_arr m c 7
/-- Region 1 leaves in `main_v19` what its output window's write-backs make of it. -/
theorem W7_arr (c : Dev nD) (w : Fin 8) : W7 m c (Proc.devRef .tc (Pipeline.arrRef spec1 w)) = (dat1 (Vr1 m) c).arrAt w cfg1.N := by
  unfold W7; exact Pipeline.withArrays_arr spec1 launch1.win.arr_inj c _ _ w
theorem outs_7 (c : Dev nD) : outs m 7 main_v19 c = (dat1 (Vr1 m) c).arrAt 7 cfg1.N := W7_arr m c 7
/-- Region 2 leaves in `main_v24_0` and `main_v24_1` what its two output windows' write-backs make of them. -/
theorem W9_arr (c : Dev nD) (w : Fin 10) : W9 m c (Proc.devRef .tc (Pipeline.arrRef spec2 w)) = (dat2 (Vr2 m) c).arrAt w cfg2.N := by
  unfold W9; exact Pipeline.withArrays_arr spec2 launch2.win.arr_inj c _ _ w
theorem outs_9_0 (c : Dev nD) : outs m 9 main_v24_0 c = (dat2 (Vr2 m) c).arrAt 8 cfg2.N := W9_arr m c 8
theorem outs_9_1 (c : Dev nD) : outs m 9 main_v24_1 c = (dat2 (Vr2 m) c).arrAt 9 cfg2.N := W9_arr m c 9

/-! ## The exit contents of each region: its arrays at what the pipeline leaves, the rest as entered -/

/-- The contents after region 0, region 1, region 2, read at the TensorCore's references. -/
abbrev Vx4 : (c : Dev nD) → (b : Ref sig .tc) → Buf (Elt F) ((c : Thread nD τ).loc b) := fun c b => V4 m (outs m) c (Proc.devRef .tc b)
abbrev Vx7 : (c : Dev nD) → (b : Ref sig .tc) → Buf (Elt F) ((c : Thread nD τ).loc b) := fun c b => V7 m (outs m) c (Proc.devRef .tc b)
abbrev Vx9 : (c : Dev nD) → (b : Ref sig .tc) → Buf (Elt F) ((c : Thread nD τ).loc b) := fun c b => V9 m (outs m) c (Proc.devRef .tc b)

/-- An input window's array is never written back, and the region's own update leaves it alone. -/
theorem hF0_in (c : Dev nD) (w : Fin 8) (hin : (cfg0.win w).isOut = false)
    (hne : Pipeline.arrRef spec0 w ∉ ([main_v11] : List (Ref sig .tc))) :
    (dat0 (Vr0 m) c).arrAt w cfg0.N = Vx4 m c (Pipeline.arrRef spec0 w) :=
  ((dat0 (Vr0 m) c).arrAt_in w hin _).trans ((A_eq0 (Vr0 m) c w).trans (V4_of m (outs m) c _ hne).symm)
theorem hF0 (c : Dev nD) : ∀ w : Fin 8, (dat0 (Vr0 m) c).arrAt w cfg0.N = Vx4 m c (Pipeline.arrRef spec0 w)
  | 0 => hF0_in m c 0 rfl (by decide)
  | 1 => hF0_in m c 1 rfl (by decide)
  | 2 => hF0_in m c 2 rfl (by decide)
  | 3 => hF0_in m c 3 rfl (by decide)
  | 4 => hF0_in m c 4 rfl (by decide)
  | 5 => hF0_in m c 5 rfl (by decide)
  | 6 => hF0_in m c 6 rfl (by decide)
  | 7 => ((Function.update_self (Proc.devRef (τ := τ) .tc main_v11) (outs m 4 main_v11 c) (V3 m c)).trans (outs_4 m c)).symm
theorem hrest0 (c : Dev nD) : ∀ b, b ∉ Finset.univ.image (Pipeline.arrRef spec0) → Vx4 m c b = Vr0 m c b :=
  fun b hb => V4_of m (outs m) c b fun h => hb (by
    rw [List.mem_singleton] at h; subst h
    exact Finset.mem_image.mpr ⟨7, Finset.mem_univ _, rfl⟩)

theorem hF1_in (c : Dev nD) (w : Fin 8) (hin : (cfg1.win w).isOut = false)
    (hne : Pipeline.arrRef spec1 w ∉ ([main_v19] : List (Ref sig .tc))) :
    (dat1 (Vr1 m) c).arrAt w cfg1.N = Vx7 m c (Pipeline.arrRef spec1 w) :=
  ((dat1 (Vr1 m) c).arrAt_in w hin _).trans ((A_eq1 (Vr1 m) c w).trans (V7_of m (outs m) c _ hne).symm)
theorem hF1 (c : Dev nD) : ∀ w : Fin 8, (dat1 (Vr1 m) c).arrAt w cfg1.N = Vx7 m c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => hF1_in m c 4 rfl (by decide)
  | 5 => hF1_in m c 5 rfl (by decide)
  | 6 => hF1_in m c 6 rfl (by decide)
  | 7 => ((Function.update_self (Proc.devRef (τ := τ) .tc main_v19) (outs m 7 main_v19 c) (V6 m (outs m) c)).trans (outs_7 m c)).symm
theorem hrest1 (c : Dev nD) : ∀ b, b ∉ Finset.univ.image (Pipeline.arrRef spec1) → Vx7 m c b = Vr1 m c b :=
  fun b hb => V7_of m (outs m) c b fun h => hb (by
    rw [List.mem_singleton] at h; subst h
    exact Finset.mem_image.mpr ⟨7, Finset.mem_univ _, rfl⟩)

theorem hF2_in (c : Dev nD) (w : Fin 10) (hin : (cfg2.win w).isOut = false)
    (hne : Pipeline.arrRef spec2 w ∉ ([main_v24_0, main_v24_1] : List (Ref sig .tc))) :
    (dat2 (Vr2 m) c).arrAt w cfg2.N = Vx9 m c (Pipeline.arrRef spec2 w) :=
  ((dat2 (Vr2 m) c).arrAt_in w hin _).trans ((A_eq2 (Vr2 m) c w).trans (V9_of m (outs m) c _ hne).symm)
theorem hF2 (c : Dev nD) : ∀ w : Fin 10, (dat2 (Vr2 m) c).arrAt w cfg2.N = Vx9 m c (Pipeline.arrRef spec2 w)
  | 0 => hF2_in m c 0 rfl (by decide)
  | 1 => hF2_in m c 1 rfl (by decide)
  | 2 => hF2_in m c 2 rfl (by decide)
  | 3 => hF2_in m c 3 rfl (by decide)
  | 4 => hF2_in m c 4 rfl (by decide)
  | 5 => hF2_in m c 5 rfl (by decide)
  | 6 => hF2_in m c 6 rfl (by decide)
  | 7 => hF2_in m c 7 rfl (by decide)
  | 8 => (((Function.update_of_ne (StableHlo.devRef_ne_of_ne (by decide) : (Proc.devRef .tc main_v24_0 : DevRef τ sig) ≠ Proc.devRef .tc main_v24_1) _ _).trans
      (Function.update_self (Proc.devRef (τ := τ) .tc main_v24_0) (outs m 9 main_v24_0 c) (V8 m (outs m) c))).trans (outs_9_0 m c)).symm
  | 9 => ((Function.update_self (Proc.devRef (τ := τ) .tc main_v24_1) (outs m 9 main_v24_1 c)
      (Function.update (V8 m (outs m) c) (Proc.devRef .tc main_v24_0) (outs m 9 main_v24_0 c))).trans (outs_9_1 m c)).symm
theorem hrest2 (c : Dev nD) : ∀ b, b ∉ Finset.univ.image (Pipeline.arrRef spec2) → Vx9 m c b = Vr2 m c b :=
  fun b hb => V9_of m (outs m) c b fun h => hb (by
    rcases List.mem_cons.mp h with h | h
    · subst h; exact Finset.mem_image.mpr ⟨8, Finset.mem_univ _, rfl⟩
    · rw [List.mem_singleton] at h; subst h; exact Finset.mem_image.mpr ⟨9, Finset.mem_univ _, rfl⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (Vr0 m) c
  | ⟨1, _⟩ => fun c => dat1 (Vr1 m) c
  | ⟨2, _⟩ => fun c => dat2 (Vr2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)

/-- For the two convolution regions the body's invariant IS the class invariant, at every point. -/
theorem ΦA_in0 (V : (c : Dev nD) → (b : Ref sig .tc) → Buf (Elt F) ((c : Thread nD τ).loc b)) (c : Dev nD) :
    (Pipeline.ΦA spec0 c : sProp 𝕄) ⊢ (dat0 V c).Φ 0 := .rfl
theorem ΦA_out0 (V : (c : Dev nD) → (b : Ref sig .tc) → Buf (Elt F) ((c : Thread nD τ).loc b)) (c : Dev nD) :
    (dat0 V c).Φ (Fin.last cfg0.N) ⊢ (Pipeline.ΦA spec0 c : sProp 𝕄) := .rfl
theorem ΦA_in1 (V : (c : Dev nD) → (b : Ref sig .tc) → Buf (Elt F) ((c : Thread nD τ).loc b)) (c : Dev nD) :
    (Pipeline.ΦA spec1 c : sProp 𝕄) ⊢ (dat1 V c).Φ 0 := .rfl
theorem ΦA_out1 (V : (c : Dev nD) → (b : Ref sig .tc) → Buf (Elt F) ((c : Thread nD τ).loc b)) (c : Dev nD) :
    (dat1 V c).Φ (Fin.last cfg1.N) ⊢ (Pipeline.ΦA spec1 c : sProp 𝕄) := .rfl

/-! ## The regions as segments -/

set_option backward.isDefEq.respectTransparency.types false in
/-- REGION 0 of @main as a segment over the thread state: entered with every unscoped buffer at `V3 m`, left
    with them at `V4 m (outs m)`.  Its windows' arrays are split out of the unscoped buffers at the entry and joined
    back at the exit contents; the generator register goes into the body's invariant and comes back; nothing is
    owed at any point, and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (ΦA_in0 (Vr0 m) c)
    unfold Pipeline.ΦA
    iintro ⟨Hp, -, Hr⟩
    isplitl [Hr]; · iexact Hr
    iexact Hp
  hout c := by
    rw [Pipeline.ownSems0_none]
    refine (ΦA_out0 (Vr0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vx4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 of @main as a segment over the thread state: entered with every unscoped buffer at `V6 m (outs m)`, left
    with them at `V7 m (outs m)`.  Its windows' arrays are split out of the unscoped buffers at the entry and joined
    back at the exit contents; the generator register goes into the body's invariant and comes back; nothing is
    owed at any point, and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (V6 m (outs0 m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (ΦA_in1 (Vr1 m) c)
    unfold Pipeline.ΦA
    iintro ⟨Hp, -, Hr⟩
    isplitl [Hr]; · iexact Hr
    iexact Hp
  hout c := by
    rw [Pipeline.ownSems0_none]
    refine (ΦA_out1 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vx7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 of @main as a segment over the thread state: entered with every unscoped buffer at `V8 m (outs m)`, left
    with them at `V9 m (outs m)`.  Its windows' arrays are split out of the unscoped buffers at the entry and joined
    back at the exit contents; the generator register goes into the body's invariant and comes back; nothing is
    owed at any point, and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(StableHlo.held (c : Thread nD τ) (Pipeline.ucRefs τ sig) (V8 m (outs1 m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (Vr2 m) c)
    unfold Pipeline.ΦA
    iintro ⟨Hp, -, Hr⟩
    isplitl [Hr]; · iexact Hr
    iexact Hp
  hout c := by
    rw [Pipeline.ownSems0_none]
    refine (hout2 (Vr2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr2 m c) (Vx9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's own, and no core needs a ghost resource besides. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the rest state from what the launch deals it: its generator register, and its `owes` at nothing. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The rest state owes nothing. -/
theorem hE3 (c : Dev nD) : R c ⊢ (iprop(∃ W, owes (c : Thread nD τ) (0 : CellTallies nD τ sig Unit) W) : sProp 𝕄) := by
  iintro ⟨-, HO⟩; iexact HO

/-! ## The frame, and the run with every final buffer named -/

set_option backward.isDefEq.respectTransparency.types false in
/-- THE FRAME: from any memory with zero counters every weakly fair execution of @main terminates and every final
    memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m (EP := emb₁) (ι := ()) (𝒱₀ := 𝒱₀) (L := L) (lv := lv) (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := hu₀) (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

set_option backward.isDefEq.respectTransparency.types false in
/-- THE RUN, every final buffer named: each core's unscoped buffers end at the last valuation, with the regions'
    outputs at `outs m`. -/
theorem run_vals : θ_run defs (onTc (τ := τ) (main (F := F))) ⟨m, fun _ => 0, ρ⟩ (fun r => ∀ c : Dev nD,
      ∀ b ∈ Pipeline.ucRefs τ sig, r.2.mem ((c : Thread nD τ).1, b) = V10 m (outs m) c b) :=
  run_cond m (EP := emb₁) (ι := ()) (𝒱₀ := 𝒱₀) (L := L) (lv := lv) (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := hu₀) (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.Kernel.Hand

end
-- ==== Proof.KI.RunCond.lean ====
import proofs.«403875_j79474074845433_2_alg».proof.Proof.Gen.KernelIdeal.Regions

/-! # The run of @main with every final buffer named

The conditional frame of the regions module reads only the argument arrays off the last
valuation.  The same run, read at EVERY unscoped buffer: given one segment record per kernel
region, entered and left at the valuations `V3 … V9`, every weakly fair execution of @main
terminates and each core's unscoped buffers end holding `V10 m outs c`. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run, given the regions' records: every unscoped buffer of every core ends at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V10 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, .rfl, hpre1 c, hpost1 c, hpre2 c, hpost2 c, sep_mono .rfl (hE3 c)⟩)
    (hinit := ?_)
    (QY := fun c s => ∀ b ∈ Pipeline.ucRefs τ sig, s.mem ((c : Thread nD τ).1, b) = V10 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.Conv0.lean ====
/- Kernel call 0 of the program (the two-layer perceptron of a graph convolution, on row tiles of 5000): the proof data of its
   pipeline at a parameter `V`, the contents of the core's buffers when the region is entered, and the body's
   obligation. The body loads each of its seven input blocks whole, loads the output block (whose contents are
   unknown and unused), and stores one whole block: the second layer's rectified output as a closed function of the
   seven input blocks. -/
import proofs.«403875_j79474074845433_2_alg».proof.Proof.Gen.KernelIdeal.Launch
import proofs.«403875_j79474074845433_2_alg».proof.Proof.Gen.KernelIdeal.Skeleton
import proofs.«403875_j79474074845433_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (the block index of an
    unfetched point has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (the block index of an
    unfetched point has not moved), for any proof data over the entry contents whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (the block index of an
    unfetched point has not moved), for any proof data over the entry contents whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (the block index of an
    unfetched point has not moved), for any proof data over the entry contents whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (the block index of an
    unfetched point has not moved), for any proof data over the entry contents whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (the block index of an
    unfetched point has not moved), for any proof data over the entry contents whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not (the block index of an
    unfetched point has not moved), for any proof data over the entry contents whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

abbrev r0_S5000x10 : Rect S5000x10 := Rect.unit (s := S5000x10) ![0, 0] S5000x10.size inb_S5000x10_S5000x10_0_0
abbrev r0_S1x1 : Rect S1x1 := Rect.unit (s := S1x1) ![0, 0] S1x1.size inb_S1x1_S1x1_0_0
abbrev r0_S10x64 : Rect S10x64 := Rect.unit (s := S10x64) ![0, 0] S10x64.size inb_S10x64_S10x64_0_0
abbrev r0_S1x64 : Rect S1x64 := Rect.unit (s := S1x64) ![0, 0] S1x64.size inb_S1x64_S1x64_0_0
abbrev r0_S64x64 : Rect S64x64 := Rect.unit (s := S64x64) ![0, 0] S64x64.size inb_S64x64_S64x64_0_0
abbrev r0_S5000x64 : Rect S5000x64 := Rect.unit (s := S5000x64) ![0, 0] S5000x64.size inb_S5000x64_S5000x64_0_0

/-! ## What the body leaves in the output window's buffer -/

/-- The output block after the body, from the seven input blocks (in window order: features, aggregated
    neighbours, epsilon, first weights, first bias, second weights, second bias): the one store's payload over what
    the loads read. -/
def out0_7 (x0 : Vec F S5000x10 .f32) (x1 : Vec F S5000x10 .f32) (x2 : Vec F S1x1 .f32) (x3 : Vec F S10x64 .f32) (x4 : Vec F S1x64 .f32) (x5 : Vec F S64x64 .f32) (x6 : Vec F S1x64 .f32) : Vec F S5000x64 .f32 :=
  View.canon [⟨r0_S5000x64, k0_pay1 (View.ld x2 r0_S1x1) (View.ld x0 r0_S5000x10) (View.ld x1 r0_S5000x10) (View.ld x3 r0_S10x64) (View.ld x4 r0_S1x64) (View.ld x5 r0_S64x64) (View.ld x6 r0_S1x64)⟩]

/-- The one store covers the buffer. -/
theorem cover0_7 (p0 : Vec F S5000x64 .f32) (y : S5000x64.Idx) :
    ∃ pc ∈ ([⟨r0_S5000x64, p0⟩] : List (View.Piece (Elt F) S5000x64 .f32)), y ∈ pc.1.set :=
  View.cover_of_tiled [⟨r0_S5000x64, p0⟩] S5000x64.size (by rfl) y

/-! ## The body's triple -/

set_option maxHeartbeats 4000000 in
/-- The body on whole staging memrefs, the inputs' at read contents `x0 … x6` and the output's at anything, runs to a
    continuation that holds the inputs' as they were and the output's at `out0_7` of them. -/
theorem sound_kernel0 (c : Dev nD) (E : Set ℕ) (i : grid0.Coords) (arg1 : Memref sig .tc .vmem S5000x10 .f32) (harg1 : arg1.IsWhole) (arg2 : Memref sig .tc .vmem S5000x10 .f32) (harg2 : arg2.IsWhole) (arg3 : Memref sig .tc .vmem S1x1 .f32) (harg3 : arg3.IsWhole) (arg4 : Memref sig .tc .vmem S10x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x10 .f32) (x1 : Vec F S5000x10 .f32) (x2 : Vec F S1x1 .f32) (x3 : Vec F S10x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E (cc0_conv_mlp_kernel i arg1 harg1 arg2 harg2 arg3 harg3 arg4 harg4 arg5 harg5 arg6 harg6 arg7 harg7 arg8 harg8) K := by
  simp only [cc0_conv_mlp_kernel_eq_skeleton]; unfold cc0_conv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer at its block and the output's at `out0_7` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Conv1.lean ====
/- Kernel call 1 of the program (the two-layer perceptron of a graph convolution, on row tiles of 5000): the proof data of its
   pipeline at a parameter `V`, the contents of the core's buffers when the region is entered, and the body's
   obligation. The body loads each of its seven input blocks whole, loads the output block (whose contents are
   unknown and unused), and stores one whole block: the second layer's rectified output as a closed function of the
   seven input blocks. -/
import proofs.«403875_j79474074845433_2_alg».proof.Proof.Gen.KernelIdeal.Launch
import proofs.«403875_j79474074845433_2_alg».proof.Proof.Gen.KernelIdeal.Skeleton
import proofs.«403875_j79474074845433_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (the block index of an
    unfetched point has not moved), for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (the block index of an
    unfetched point has not moved), for any proof data over the entry contents whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (the block index of an
    unfetched point has not moved), for any proof data over the entry contents whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (the block index of an
    unfetched point has not moved), for any proof data over the entry contents whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (the block index of an
    unfetched point has not moved), for any proof data over the entry contents whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (the block index of an
    unfetched point has not moved), for any proof data over the entry contents whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not (the block index of an
    unfetched point has not moved), for any proof data over the entry contents whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole block -/

abbrev r1_S5000x64 : Rect S5000x64 := Rect.unit (s := S5000x64) ![0, 0] S5000x64.size inb_S5000x64_S5000x64_0_0
abbrev r1_S1x1 : Rect S1x1 := Rect.unit (s := S1x1) ![0, 0] S1x1.size inb_S1x1_S1x1_0_0
abbrev r1_S64x64 : Rect S64x64 := Rect.unit (s := S64x64) ![0, 0] S64x64.size inb_S64x64_S64x64_0_0
abbrev r1_S1x64 : Rect S1x64 := Rect.unit (s := S1x64) ![0, 0] S1x64.size inb_S1x64_S1x64_0_0

/-! ## What the body leaves in the output window's buffer -/

/-- The output block after the body, from the seven input blocks (in window order: features, aggregated
    neighbours, epsilon, first weights, first bias, second weights, second bias): the one store's payload over what
    the loads read. -/
def out1_7 (x0 : Vec F S5000x64 .f32) (x1 : Vec F S5000x64 .f32) (x2 : Vec F S1x1 .f32) (x3 : Vec F S64x64 .f32) (x4 : Vec F S1x64 .f32) (x5 : Vec F S64x64 .f32) (x6 : Vec F S1x64 .f32) : Vec F S5000x64 .f32 :=
  View.canon [⟨r1_S5000x64, k1_pay1 (View.ld x2 r1_S1x1) (View.ld x0 r1_S5000x64) (View.ld x1 r1_S5000x64) (View.ld x3 r1_S64x64) (View.ld x4 r1_S1x64) (View.ld x5 r1_S64x64) (View.ld x6 r1_S1x64)⟩]

/-- The one store covers the buffer. -/
theorem cover1_7 (p0 : Vec F S5000x64 .f32) (y : S5000x64.Idx) :
    ∃ pc ∈ ([⟨r1_S5000x64, p0⟩] : List (View.Piece (Elt F) S5000x64 .f32)), y ∈ pc.1.set :=
  View.cover_of_tiled [⟨r1_S5000x64, p0⟩] S5000x64.size (by rfl) y

/-! ## The body's triple -/

set_option maxHeartbeats 4000000 in
/-- The body on whole staging memrefs, the inputs' at read contents `x0 … x6` and the output's at anything, runs to a
    continuation that holds the inputs' as they were and the output's at `out1_7` of them. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S5000x64 .f32) (x2 : Vec F S1x1 .f32) (x3 : Vec F S64x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1_conv_mlp_kernel i arg1 harg1 arg2 harg2 arg3 harg3 arg4 harg4 arg5 harg5 arg6 harg6 arg7 harg7 arg8 harg8) K := by
  simp only [cc1_conv_mlp_kernel_eq_skeleton]; unfold cc1_conv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them; after the body at point `t` each
    input's buffer at its block and the output's at `out1_7` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Pool.lean ====
import proofs.«403875_j79474074845433_2_alg».proof.Proof.Gen.KernelIdeal.Launch
import proofs.«403875_j79474074845433_2_alg».proof.Proof.Gen.KernelIdeal.Skeleton
import proofs.«403875_j79474074845433_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The pooling call (the third pallas_call), at a parameter `V`

The kernel keeps a running sum in a VMEM scratch buffer across the 40 grid points: the first point
zeroes it, every point adds its block's one-hot pooled contribution, and the last point reads the
total and computes the two heads into the two output windows, which no other point stores into.
Here: each window's block, what one point leaves in the scratch as a function of what it found,
the running sum point by point, what the last point leaves in the outputs, the region invariant
(the scratch at the running sum), the proof data and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

abbrev rA2 : Rect S256x64 := Rect.unit (s := S256x64) ![0, 0] S256x64.size inb_S256x64_S256x64_0_0
abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S64x32 := Rect.unit (s := S64x32) ![0, 0] S64x32.size inb_S64x32_S64x32_0_0
abbrev r2_3 : Rect S1x32 := Rect.unit (s := S1x32) ![0, 0] S1x32.size inb_S1x32_S1x32_0_0
abbrev r2_4 : Rect S32x8 := Rect.unit (s := S32x8) ![0, 0] S32x8.size inb_S32x8_S32x8_0_0
abbrev r2_5 : Rect S1x8 := Rect.unit (s := S1x8) ![0, 0] S1x8.size inb_S1x8_S1x8_0_0
abbrev r2_6 : Rect S64x24 := Rect.unit (s := S64x24) ![0, 0] S64x24.size inb_S64x24_S64x24_0_0
abbrev r2_7 : Rect S1x24 := Rect.unit (s := S1x24) ![0, 0] S1x24.size inb_S1x24_S1x24_0_0
abbrev r2_8 : Rect S256x8 := Rect.unit (s := S256x8) ![0, 0] S256x8.size inb_S256x8_S256x8_0_0
abbrev r2_9 : Rect S256x24 := Rect.unit (s := S256x24) ![0, 0] S256x24.size inb_S256x24_S256x24_0_0

/-! ## The running sum -/

/-- What the first point's reset leaves in the scratch before the accumulation: its one whole store of zeros. -/
def acc0_2 : Vec F S256x64 .f32 :=
  View.canon [⟨rA2, k2_pay1 (F := F)⟩]

/-- What a point leaves in the scratch, from its block `x` of the features, its block `b` of the graph labels and
    what it found there, `a`: its one whole store of `a` plus the block's pooled contribution. -/
def accStep2 (x : Vec F S5000x64 .f32) (b : Vec F S5000x1 .i32) (a : Vec F S256x64 .f32) : Vec F S256x64 .f32 :=
  View.canon [⟨rA2, k2_pay2 (View.ld x r2_0) (View.ld b r2_1) (View.ld a rA2)⟩]

/-- The scratch after point `n`: the first point accumulates over the zeros it has just stored, every later point
    over what the point before left. -/
def accAt2 (c : Dev nD) : (n : ℕ) → n < cfg2.N → Vec F S256x64 .f32
  | 0, hn => accStep2 (iblk2 V c 0 ⟨0, hn⟩) (iblk2 V c 1 ⟨0, hn⟩) acc0_2
  | n + 1, hn => accStep2 (iblk2 V c 0 ⟨n + 1, hn⟩) (iblk2 V c 1 ⟨n + 1, hn⟩) (accAt2 c n (Nat.lt_of_succ_lt hn))

theorem accAt2_zero (c : Dev nD) (hn : 0 < cfg2.N) :
    accAt2 V c 0 hn = accStep2 (iblk2 V c 0 ⟨0, hn⟩) (iblk2 V c 1 ⟨0, hn⟩) acc0_2 := rfl

theorem accAt2_succ (c : Dev nD) (n : ℕ) (hn : n + 1 < cfg2.N) :
    accAt2 V c (n + 1) hn = accStep2 (iblk2 V c 0 ⟨n + 1, hn⟩) (iblk2 V c 1 ⟨n + 1, hn⟩) (accAt2 V c n (Nat.lt_of_succ_lt hn)) := rfl

/-- At a point that is not the first: the step over what the point before left. -/
theorem accAt2_pos (c : Dev nD) (t : Fin cfg2.N) (ht : t.val ≠ 0) :
    accAt2 V c t.val t.isLt = accStep2 (iblk2 V c 0 t) (iblk2 V c 1 t) (accAt2 V c (t.val - 1) (Nat.lt_of_le_of_lt (Nat.sub_le _ _) t.isLt)) := by
  obtain ⟨n, hn⟩ := t
  cases n with
  | zero => exact absurd rfl ht
  | succ n => rfl

/-! ## What the last point leaves in the two outputs -/

/-- Output window 8 after the last point, from the scratch's total `a` and the first head's weight blocks: its one
    whole store. -/
def out2_8 (a : Vec F S256x64 .f32) (x2 : Vec F S64x32 .f32) (x3 : Vec F S1x32 .f32) (x4 : Vec F S32x8 .f32) (x5 : Vec F S1x8 .f32) : Vec F S256x8 .f32 :=
  View.canon [⟨r2_8, k2_pay4 (View.ld a rA2) (View.ld x2 r2_2) (View.ld x3 r2_3) (View.ld x4 r2_4) (View.ld x5 r2_5)⟩]

/-- Output window 9 after the last point, from the scratch's total `a` and the second head's weight blocks. -/
def out2_9 (a : Vec F S256x64 .f32) (x6 : Vec F S64x24 .f32) (x7 : Vec F S1x24 .f32) : Vec F S256x24 .f32 :=
  View.canon [⟨r2_9, k2_pay5 (View.ld a rA2) (View.ld x6 r2_6) (View.ld x7 r2_7)⟩]

/-! ## The region invariant -/

/-- The scratch operand, a whole scoped buffer of the kernel's own. -/
abbrev scM2 : Memref sig .tc .vmem S256x64 .f32 := Memref.whole cc2_scratch0

/-- The core's scoped buffers that are neither a staging buffer of this call nor its scratch, each at some contents. -/
abbrev restBut2 (c : Dev nD) : sProp 𝕄 :=
  Pipeline.scopedRestBut (Ix := Unit) (Name := ℕ) (U := UR sig nD τ) (Lvl := ℕ) (Val := Elt F) spec2 c [cc2_scratch0]

/-- The invariant before position `n`: before the first point what the launch hands the region (every scoped buffer
    that is no staging buffer of the call at anything, the generator register at some state); afterwards the same with
    the scratch at the running sum the point before left. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ restBut2 c) ∗ (∃ r, prngReg c r)) := by
  cases n with
  | zero => exact absurd rfl hz
  | succ n => rfl

/-! ## The proof data -/

/-- The proof data of the pooling call on core `c`: the arrays as the region finds them; after the body at point `t`
    each input's buffer at its block, the outputs' at the heads of the running sum there (consulted at the last point
    only: elsewhere the outputs are idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (accAt2 V c t.val t.isLt) (iblk2 V c 2 t) (iblk2 V c 3 t) (iblk2 V c 4 t) (iblk2 V c 5 t)
    | ⟨9, _⟩ => out2_9 (accAt2 V c t.val t.isLt) (iblk2 V c 6 t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (accAt2 V c t.val t.isLt) (iblk2 V c 2 t) (iblk2 V c 3 t) (iblk2 V c 4 t) (iblk2 V c 5 t) := by dsimp only [dat2]
theorem after2_9 (c : Dev nD) (t : Fin cfg2.N) : (dat2 V c).after 9 t = out2_9 (accAt2 V c t.val t.isLt) (iblk2 V c 6 t) (iblk2 V c 7 t) := by dsimp only [dat2]

/-! ## The launch's invariant, the scratch apart -/

/-- The call's scoped rest split at its own scratch: the scratch whole at some contents, every other scoped buffer
    that is no staging buffer of the call unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restBut2 c) :=
  Pipeline.scopedRest_split_of_list spec2 c [cc2_scratch0] (by decide) (by decide)

/-- What the launch hands the region, with the scratch as a memref owned at some contents. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA; rw [scopedRest2_split]; simp only [scM2, owns_whole]; rfl

/-! ## The body's two conditions, decided over the grid -/

/-- The first `scf.if`'s condition (the reset), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second `scf.if`'s condition (the heads), from the grid coordinate. -/
abbrev cond2_1 (i : grid2.Coords) : Prop := k2_cond2 i = 1#1
/-- It holds at the last point only. -/
theorem hcond2_1 : ∀ t : Fin cfg2.N, cond2_1 (grid2.coords t) ↔ t.val = 39 :=
  (by decide +kernel : ∀ t : Fin grid2.N, cond2_1 (grid2.coords t) ↔ t.val = 39)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
/-- Before the last point the two outputs are idle and not written back; at the last point they are live. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel
theorem idleAt2_9 : ∀ t : Fin cfg2.N, ¬cond2_1 (grid2.coords t) → cfg2.idle 9 (grid2.coords t) = true := by decide +kernel
theorem noFlush2_9 : ∀ t : Fin cfg2.N, ¬cond2_1 (grid2.coords t) → (cfg2.win 9).flush t = false := by decide +kernel
theorem liveAt2_9 : ∀ t : Fin cfg2.N, cond2_1 (grid2.coords t) → cfg2.idle 9 (grid2.coords t) = false := by decide +kernel

/-! ## The inputs' buffers hold their blocks at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## The invariant at the region's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 40 := N_2; omega)

end Cert.KernelIdeal.Hand

end
-- ==== Proof.KI.PoolBody.lean ====
import proofs.«403875_j79474074845433_2_alg».proof.Proof.KI.Pool
import Idealize.ShloMosaic.Lib.Pipeline.Value

/-! # The pooling call's body, point by point

Three runs of the kernel body over whole staging memrefs — at the first grid point (the scratch is zeroed, then
accumulated into), at a middle point (accumulated into), at the last point (accumulated into, read back, and the two
heads computed into the two output windows) — each with the contents it leaves stated in closed form; then the body
obligation of the proof data `dat2`, by cases on the point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem off2 : (![0, 0] : Fin 2 → Nat) = fun _ => 0 := funext fun a => by fin_cases a <;> rfl

/-! ## The first point -/

set_option maxHeartbeats 1000000 in
/-- At the first point (the reset taken, the heads not): the body zeroes the scratch, whatever it held, reads the
    zeros back, adds the block's contribution and stores the sum; the two input buffers are left as found, the
    other buffers untouched. -/
theorem sound_first2 (c : Dev nD) (E : Set ℕ) (i : grid2.Coords) (hc0 : cond2_0 i) (hc1 : ¬cond2_1 i)
    (arg1 : Memref sig .tc .vmem S5000x64 .f32) (harg1 : arg1.IsWhole) (arg2 : Memref sig .tc .vmem S5000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S64x24 .f32) (harg7 : arg7.IsWhole) (arg8 : Memref sig .tc .vmem S1x24 .f32) (harg8 : arg8.IsWhole) (arg9 : Memref sig .tc .vmem S256x8 .f32) (harg9 : arg9.IsWhole) (arg10 : Memref sig .tc .vmem S256x24 .f32) (harg10 : arg10.IsWhole) (arg11 : Memref sig .tc .vmem S256x64 .f32) (harg11 : arg11.IsWhole)
    (x0 : Vec F S5000x64 .f32) (x1 : Vec F S5000x1 .i32) (K : PUnit → sProp 𝕄) :
    iprop(owns (c : Thread nD τ) arg1 fullShare x0 ∗ owns (c : Thread nD τ) arg2 fullShare x1 ∗ (∃ d, owns (c : Thread nD τ) arg11 fullShare d)
        ∗ (iprop(owns (c : Thread nD τ) arg1 fullShare x0 ∗ owns (c : Thread nD τ) arg2 fullShare x1
            ∗ owns (c : Thread nD τ) arg11 fullShare (accStep2 x0 x1 acc0_2)) -∗ K ⟨⟩))
      ⊢ wp frame (wpE (defs₀ (F := F)) Variants.none c none) E (cc2_pool_heads_kernel i arg1 harg1 arg2 harg2 arg3 harg3 arg4 harg4 arg5 harg5 arg6 harg6 arg7 harg7 arg8 harg8 arg9 harg9 arg10 harg10 arg11 harg11) K := by
  simp only [cc2_pool_heads_kernel_eq_skeleton]; unfold cc2_pool_heads_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.mem_cons_self, View.mem_set_unit_zero off2 inb_S256x64_S256x64_0_0 y⟩),
    View.canon_cons_unit_zero off2, View.readCov_unit_zero _ off2]
  unfold accStep2 acc0_2
  rw [View.canon_unit_zero off2, View.canon_unit_zero off2, View.ld_unit_zero (S := S256x64) off2]
  rfl

/-! ## A middle point -/

set_option maxHeartbeats 1000000 in
/-- At a point that is neither the first nor the last (neither `scf.if` taken): the body reads the scratch at what it
    found, `a`, adds the block's contribution and stores the sum. -/
theorem sound_mid2 (c : Dev nD) (E : Set ℕ) (i : grid2.Coords) (hc0 : ¬cond2_0 i) (hc1 : ¬cond2_1 i)
    (arg1 : Memref sig .tc .vmem S5000x64 .f32) (harg1 : arg1.IsWhole) (arg2 : Memref sig .tc .vmem S5000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S64x24 .f32) (harg7 : arg7.IsWhole) (arg8 : Memref sig .tc .vmem S1x24 .f32) (harg8 : arg8.IsWhole) (arg9 : Memref sig .tc .vmem S256x8 .f32) (harg9 : arg9.IsWhole) (arg10 : Memref sig .tc .vmem S256x24 .f32) (harg10 : arg10.IsWhole) (arg11 : Memref sig .tc .vmem S256x64 .f32) (harg11 : arg11.IsWhole)
    (x0 : Vec F S5000x64 .f32) (x1 : Vec F S5000x1 .i32) (a : Vec F S256x64 .f32) (K : PUnit → sProp 𝕄) :
    iprop(owns (c : Thread nD τ) arg1 fullShare x0 ∗ owns (c : Thread nD τ) arg2 fullShare x1 ∗ owns (c : Thread nD τ) arg11 fullShare a
        ∗ (iprop(owns (c : Thread nD τ) arg1 fullShare x0 ∗ owns (c : Thread nD τ) arg2 fullShare x1
            ∗ owns (c : Thread nD τ) arg11 fullShare (accStep2 x0 x1 a)) -∗ K ⟨⟩))
      ⊢ wp frame (wpE (defs₀ (F := F)) Variants.none c none) E (cc2_pool_heads_kernel i arg1 harg1 arg2 harg2 arg3 harg3 arg4 harg4 arg5 harg5 arg6 harg6 arg7 harg7 arg8 harg8 arg9 harg9 arg10 harg10 arg11 harg11) K := by
  simp only [cc2_pool_heads_kernel_eq_skeleton]; unfold cc2_pool_heads_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_cons_self, View.mem_set_unit_zero off2 inb_S256x64_S256x64_0_0 y⟩),
    View.canon_cons_unit_zero off2]
  unfold accStep2
  rw [View.canon_unit_zero off2]
  rfl

/-! ## The last point -/

set_option maxHeartbeats 2000000 in
/-- At the last point (the reset not taken, the heads taken): the body accumulates as at a middle point, reads the
    total back, and stores the two heads of it and of the weight blocks into the two output buffers, whatever they
    held; every input buffer is left as found. -/
theorem sound_last2 (c : Dev nD) (E : Set ℕ) (i : grid2.Coords) (hc0 : ¬cond2_0 i) (hc1 : cond2_1 i)
    (arg1 : Memref sig .tc .vmem S5000x64 .f32) (harg1 : arg1.IsWhole) (arg2 : Memref sig .tc .vmem S5000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x8 .f32) (harg5 : arg5.IsWhole) (arg6 : Memref sig .tc .vmem S1x8 .f32) (harg6 : arg6.IsWhole) (arg7 : Memref sig .tc .vmem S64x24 .f32) (harg7 : arg7.IsWhole) (arg8 : Memref sig .tc .vmem S1x24 .f32) (harg8 : arg8.IsWhole) (arg9 : Memref sig .tc .vmem S256x8 .f32) (harg9 : arg9.IsWhole) (arg10 : Memref sig .tc .vmem S256x24 .f32) (harg10 : arg10.IsWhole) (arg11 : Memref sig .tc .vmem S256x64 .f32) (harg11 : arg11.IsWhole)
    (x0 : Vec F S5000x64 .f32) (x1 : Vec F S5000x1 .i32) (x2 : Vec F S64x32 .f32) (x3 : Vec F S1x32 .f32)
    (x4 : Vec F S32x8 .f32) (x5 : Vec F S1x8 .f32) (x6 : Vec F S64x24 .f32) (x7 : Vec F S1x24 .f32)
    (a : Vec F S256x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ owns (c : Thread nD τ) arg11 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 (accStep2 x0 x1 a) x2 x3 x4 x5)
            ∗ owns (c : Thread nD τ) arg10 fullShare (out2_9 (accStep2 x0 x1 a) x6 x7)
            ∗ owns (c : Thread nD τ) arg11 fullShare (accStep2 x0 x1 a)) -∗ K ⟨⟩))
      ⊢ wp frame (wpE (defs₀ (F := F)) Variants.none c none) E (cc2_pool_heads_kernel i arg1 harg1 arg2 harg2 arg3 harg3 arg4 harg4 arg5 harg5 arg6 harg6 arg7 harg7 arg8 harg8 arg9 harg9 arg10 harg10 arg11 harg11) K := by
  simp only [cc2_pool_heads_kernel_eq_skeleton]; unfold cc2_pool_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (fun y => ⟨_, List.mem_cons_self, View.mem_set_unit_zero off2 inb_S256x8_S256x8_0_0 y⟩),
      View.canon_unit_zero off2, View.readCov_unit_zero _ off2]
    unfold out2_8 accStep2
    rw [View.canon_unit_zero off2, View.canon_unit_zero off2, View.ld_unit_zero (S := S256x64) off2]
    rfl
  isplitl [H9]
  · iexists _; isplitr
    swap; · iexact H9
    ipureintro
    sl_unfold_words
    rw [View.read_writes_eq_canon _ _ _ (fun y => ⟨_, List.mem_cons_self, View.mem_set_unit_zero off2 inb_S256x24_S256x24_0_0 y⟩),
      View.canon_unit_zero off2, View.readCov_unit_zero _ off2]
    unfold out2_9 accStep2
    rw [View.canon_unit_zero off2, View.canon_unit_zero off2, View.ld_unit_zero (S := S256x64) off2]
    rfl
  iexists _; isplitr
  swap; · iexact HS
  ipureintro
  sl_unfold_words
  rw [View.read_writes_eq_canon _ _ _ (fun y => ⟨_, List.mem_cons_self, View.mem_set_unit_zero off2 inb_S256x64_S256x64_0_0 y⟩),
    View.canon_cons_unit_zero off2]
  unfold accStep2
  rw [View.canon_unit_zero off2]
  rfl

/-! ## The body obligation -/

-- the TensorCore's buffer contents when the region is entered
variable (V : (c : Dev nD) → (b : Ref sig .tc) → Buf (Elt F) ((c : Thread nD τ).loc b))

/-- The running sum after the first point: the step over the zeros the reset has just stored. -/
theorem accAt2_first (c : Dev nD) (t : Fin cfg2.N) (ht : t.val = 0) :
    accAt2 V c t.val t.isLt = accStep2 (iblk2 V c 0 t) (iblk2 V c 1 t) acc0_2 := by
  obtain ⟨n, hn⟩ := t
  cases n with
  | zero => rfl
  | succ n => exact absurd ht (Nat.succ_ne_zero n)

/-- An input window's buffer is left at its block (no input window is ever idle). -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (st2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (st2_5 t) fullShare (iblk2 V c 5 t) := by
  unfold Dat.leavesExact; rw [liveAt2_5 t, after2_5]
theorem leaves2_6 (c : Dev nD) (t : Fin cfg2.N) :
    (dat2 V c).leavesExact 6 t = owns (c : Thread nD τ) (st2_6 t) fullShare (iblk2 V c 6 t) := by
  unfold Dat.leavesExact; rw [liveAt2_6 t, after2_6]
theorem leaves2_7 (c : Dev nD) (t : Fin cfg2.N) :
    (dat2 V c).leavesExact 7 t = owns (c : Thread nD τ) (st2_7 t) fullShare (iblk2 V c 7 t) := by
  unfold Dat.leavesExact; rw [liveAt2_7 t, after2_7]

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4000000 in
/-- The body at any point, by cases on the point. The inputs' memrefs hold their blocks; the invariant hands the body the
    scratch — at anything before the first point, at the running sum the point before left afterwards — and takes it back
    at this point's running sum; before the last point the two outputs are idle and not written back, so their buffers go
    back as found; at the last point they are live and are left at the heads of the total. The other scoped buffers, the
    generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6, leaves2_7]
  have hN : t.val < 40 := lt_of_lt_of_eq t.isLt (show cfg2.N = 40 from N_2)
  by_cases h1 : t.val = 39
  · -- the last point
    have hc1 : cond2_1 (grid2.coords t) := (hcond2_1 t).mpr h1
    have hc0 : ¬cond2_0 (grid2.coords t) := fun h => by have := (hcond2_0 t).mp h; omega
    have hz : t.val ≠ 0 := by omega
    rw [show (dat2 V c).leavesExact 8 t = owns (c : Thread nD τ) (st2_8 t) fullShare ((dat2 V c).after 8 t) from by
      unfold Dat.leavesExact; rw [liveAt2_8 t hc1], after2_8]
    rw [show (dat2 V c).leavesExact 9 t = owns (c : Thread nD τ) (st2_9 t) fullShare ((dat2 V c).after 9 t) from by
      unfold Dat.leavesExact; rw [liveAt2_9 t hc1], after2_9]
    rw [PhiS2_castSucc V c t, PhiS2_pos V c _ _ hz, accAt2_pos V c t hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_last2 c Set.univ (grid2.coords t) hc0 hc1 _ _ _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t) (iblk2 V c 7 t)
      (accAt2 V c (t.val - 1) _) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · -- before the last point the heads are not taken: the two outputs are idle and not written back
    have hc1 : ¬cond2_1 (grid2.coords t) := fun h => h1 ((hcond2_1 t).mp h)
    rw [Dat.leavesExact_idle (dat2 V c) 8 t (idleAt2_8 t hc1) (noFlush2_8 t hc1),
      Dat.leavesExact_idle (dat2 V c) 9 t (idleAt2_9 t hc1) (noFlush2_9 t hc1)]
    by_cases h0 : t.val = 0
    · -- the first point
      have hc0 : cond2_0 (grid2.coords t) := (hcond2_0 t).mpr h0
      rw [PhiS2_castSucc V c t, PhiS2_zero V c _ _ h0, PhiA2_eq, accAt2_first V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_first2 c Set.univ (grid2.coords t) hc0 hc1 _ _ _ _ _ _ _ _ _ _ _ _ _ _ _ _ _ _ _ _ _ _ (iblk2 V c 0 t) (iblk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · -- a middle point
      have hc0 : ¬cond2_0 (grid2.coords t) := fun h => h0 ((hcond2_0 t).mp h)
      rw [PhiS2_castSucc V c t, PhiS2_pos V c _ _ h0, accAt2_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_mid2 c Set.univ (grid2.coords t) hc0 hc1 _ _ _ _ _ _ _ _ _ _ _ _ _ _ _ _ _ _ _ _ _ _ (iblk2 V c 0 t) (iblk2 V c 1 t)
        (accAt2 V c (t.val - 1) _) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«403875_j79474074845433_2_alg».proof.Proof.KI.RunCond
import proofs.«403875_j79474074845433_2_alg».proof.Proof.KI.Conv0
import proofs.«403875_j79474074845433_2_alg».proof.Proof.KI.Conv1
import proofs.«403875_j79474074845433_2_alg».proof.Proof.KI.Pool
import proofs.«403875_j79474074845433_2_alg».proof.Proof.KI.PoolBody
import proofs.«403875_j79474074845433_2_alg».proof.Proof.Gen.KernelIdeal.Launch
import proofs.«403875_j79474074845433_2_alg».proof.Proof.Gen.KernelIdeal.Skeleton
import proofs.«403875_j79474074845433_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main's three kernel regions as segments, and the run with every final buffer named

The regions module writes the buffers' contents between @main's items over unknowns `outs`: what each region
leaves in its output arrays.  Here the unknowns are given their values, region by region: region K's output
arrays end at what its pipeline's write-backs leave (`Dat.arrAt … N`) from the entry contents, which are the
contents after the earlier regions.  Each stage is a `match` on the item number whose other arms are the
stage before, so the earlier valuations stay what they were.

## The contents the regions leave -/

/-- Region 0's entry contents, read at the TensorCore's references. -/
abbrev Vr0 : (c : Dev nD) → (b : Ref sig .tc) → Buf (Elt F) ((c : Thread nD τ).loc b) := fun c b => V3 m c (Proc.devRef .tc b)
/-- At region 0's exit: its arrays at what the pipeline leaves, every other buffer as entered. -/
def W4 (c : Dev nD) : Valuation τ sig (Elt F) :=
  Pipeline.withArrays spec0 c (V3 m c) fun w => (dat0 (Vr0 m) c).arrAt w cfg0.N
/-- The unknowns with region 0's output named. -/
def outs0 : Outs (F := F) := fun J r c => match J with
  | 4 => W4 m c (Proc.devRef .tc r)
  | _ => V0 m c (Proc.devRef .tc r)

/-- Region 1's entry contents. -/
abbrev Vr1 : (c : Dev nD) → (b : Ref sig .tc) → Buf (Elt F) ((c : Thread nD τ).loc b) := fun c b => V6 m (outs0 m) c (Proc.devRef .tc b)
/-- At region 1's exit. -/
def W7 (c : Dev nD) : Valuation τ sig (Elt F) :=
  Pipeline.withArrays spec1 c (V6 m (outs0 m) c) fun w => (dat1 (Vr1 m) c).arrAt w cfg1.N
/-- The unknowns with the outputs of regions 0 and 1 named. -/
def outs1 : Outs (F := F) := fun J r c => match J with
  | 7 => W7 m c (Proc.devRef .tc r)
  | _ => outs0 m J r c

/-- Region 2's entry contents. -/
abbrev Vr2 : (c : Dev nD) → (b : Ref sig .tc) → Buf (Elt F) ((c : Thread nD τ).loc b) := fun c b => V8 m (outs1 m) c (Proc.devRef .tc b)
/-- At region 2's exit. -/
def W9 (c : Dev nD) : Valuation τ sig (Elt F) :=
  Pipeline.withArrays spec2 c (V8 m (outs1 m) c) fun w => (dat2 (Vr2 m) c).arrAt w cfg2.N
/-- What every region leaves in its output arrays. -/
def outs : Outs (F := F) := fun J r c => match J with
  | 9 => W9 m c (Proc.devRef .tc r)
  | _ => outs1 m J r c

/-! ### The stages agree where an earlier valuation reads them -/

theorem outs_at4 (r : Ref sig .tc) (c : Dev nD) : outs m 4 r c = W4 m c (Proc.devRef .tc r) := rfl
theorem outs_at7 (r : Ref sig .tc) (c : Dev nD) : outs m 7 r c = W7 m c (Proc.devRef .tc r) := rfl
theorem outs_at9 (r : Ref sig .tc) (c : Dev nD) : outs m 9 r c = W9 m c (Proc.devRef .tc r) := rfl
/-- The valuations up to region 1's entry read the unknowns only at region 0's output. -/
theorem V6_outs (c : Dev nD) : V6 m (outs m) c = V6 m (outs0 m) c := rfl
/-- The valuations up to region 2's entry read the unknowns only at the outputs of regions 0 and 1. -/
theorem V8_outs (c : Dev nD) : V8 m (outs m) c = V8 m (outs1 m) c := rfl
theorem Vr1_eq : Vr1 m = fun c b => V6 m (outs m) c (Proc.devRef .tc b) := rfl
theorem Vr2_eq : Vr2 m = fun c b => V8 m (outs m) c (Proc.devRef .tc b) := rfl

/-! ### Each region's output arrays, read off the unknowns -/

/-- Region 0 leaves in `main_v11` what its output window's write-backs make of it. -/
theorem W4_arr (c : Dev nD) (w : Fin 8) : W4 m c (Proc.devRef .tc (Pipeline.arrRef spec0 w)) = (dat0 (Vr0 m) c).arrAt w cfg0.N := by
  unfold W4; exact Pipeline.withArrays_arr spec0 launch0.win.arr_inj c _ _ w
theorem outs_4 (c : Dev nD) : outs m 4 main_v11 c = (dat0 (Vr0 m) c).arrAt 7 cfg0.N := W4_arr m c 7
/-- Region 1 leaves in `main_v19` what its output window's write-backs make of it. -/
theorem W7_arr (c : Dev nD) (w : Fin 8) : W7 m c (Proc.devRef .tc (Pipeline.arrRef spec1 w)) = (dat1 (Vr1 m) c).arrAt w cfg1.N := by
  unfold W7; exact Pipeline.withArrays_arr spec1 launch1.win.arr_inj c _ _ w
theorem outs_7 (c : Dev nD) : outs m 7 main_v19 c = (dat1 (Vr1 m) c).arrAt 7 cfg1.N := W7_arr m c 7
/-- Region 2 leaves in `main_v24_0` and `main_v24_1` what its two output windows' write-backs make of them. -/
theorem W9_arr (c : Dev nD) (w : Fin 10) : W9 m c (Proc.devRef .tc (Pipeline.arrRef spec2 w)) = (dat2 (Vr2 m) c).arrAt w cfg2.N := by
  unfold W9; exact Pipeline.withArrays_arr spec2 launch2.win.arr_inj c _ _ w
theorem outs_9_0 (c : Dev nD) : outs m 9 main_v24_0 c = (dat2 (Vr2 m) c).arrAt 8 cfg2.N := W9_arr m c 8
theorem outs_9_1 (c : Dev nD) : outs m 9 main_v24_1 c = (dat2 (Vr2 m) c).arrAt 9 cfg2.N := W9_arr m c 9

/-! ## The exit contents of each region: its arrays at what the pipeline leaves, the rest as entered -/

/-- The contents after region 0, region 1, region 2, read at the TensorCore's references. -/
abbrev Vx4 : (c : Dev nD) → (b : Ref sig .tc) → Buf (Elt F) ((c : Thread nD τ).loc b) := fun c b => V4 m (outs m) c (Proc.devRef .tc b)
abbrev Vx7 : (c : Dev nD) → (b : Ref sig .tc) → Buf (Elt F) ((c : Thread nD τ).loc b) := fun c b => V7 m (outs m) c (Proc.devRef .tc b)
abbrev Vx9 : (c : Dev nD) → (b : Ref sig .tc) → Buf (Elt F) ((c : Thread nD τ).loc b) := fun c b => V9 m (outs m) c (Proc.devRef .tc b)

/-- An input window's array is never written back, and the region's own update leaves it alone. -/
theorem hF0_in (c : Dev nD) (w : Fin 8) (hin : (cfg0.win w).isOut = false)
    (hne : Pipeline.arrRef spec0 w ∉ ([main_v11] : List (Ref sig .tc))) :
    (dat0 (Vr0 m) c).arrAt w cfg0.N = Vx4 m c (Pipeline.arrRef spec0 w) :=
  ((dat0 (Vr0 m) c).arrAt_in w hin _).trans ((A_eq0 (Vr0 m) c w).trans (V4_of m (outs m) c _ hne).symm)
theorem hF0 (c : Dev nD) : ∀ w : Fin 8, (dat0 (Vr0 m) c).arrAt w cfg0.N = Vx4 m c (Pipeline.arrRef spec0 w)
  | 0 => hF0_in m c 0 rfl (by decide)
  | 1 => hF0_in m c 1 rfl (by decide)
  | 2 => hF0_in m c 2 rfl (by decide)
  | 3 => hF0_in m c 3 rfl (by decide)
  | 4 => hF0_in m c 4 rfl (by decide)
  | 5 => hF0_in m c 5 rfl (by decide)
  | 6 => hF0_in m c 6 rfl (by decide)
  | 7 => ((Function.update_self (Proc.devRef (τ := τ) .tc main_v11) (outs m 4 main_v11 c) (V3 m c)).trans (outs_4 m c)).symm
theorem hrest0 (c : Dev nD) : ∀ b, b ∉ Finset.univ.image (Pipeline.arrRef spec0) → Vx4 m c b = Vr0 m c b :=
  fun b hb => V4_of m (outs m) c b fun h => hb (by
    rw [List.mem_singleton] at h; subst h
    exact Finset.mem_image.mpr ⟨7, Finset.mem_univ _, rfl⟩)

theorem hF1_in (c : Dev nD) (w : Fin 8) (hin : (cfg1.win w).isOut = false)
    (hne : Pipeline.arrRef spec1 w ∉ ([main_v19] : List (Ref sig .tc))) :
    (dat1 (Vr1 m) c).arrAt w cfg1.N = Vx7 m c (Pipeline.arrRef spec1 w) :=
  ((dat1 (Vr1 m) c).arrAt_in w hin _).trans ((A_eq1 (Vr1 m) c w).trans (V7_of m (outs m) c _ hne).symm)
theorem hF1 (c : Dev nD) : ∀ w : Fin 8, (dat1 (Vr1 m) c).arrAt w cfg1.N = Vx7 m c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => hF1_in m c 4 rfl (by decide)
  | 5 => hF1_in m c 5 rfl (by decide)
  | 6 => hF1_in m c 6 rfl (by decide)
  | 7 => ((Function.update_self (Proc.devRef (τ := τ) .tc main_v19) (outs m 7 main_v19 c) (V6 m (outs m) c)).trans (outs_7 m c)).symm
theorem hrest1 (c : Dev nD) : ∀ b, b ∉ Finset.univ.image (Pipeline.arrRef spec1) → Vx7 m c b = Vr1 m c b :=
  fun b hb => V7_of m (outs m) c b fun h => hb (by
    rw [List.mem_singleton] at h; subst h
    exact Finset.mem_image.mpr ⟨7, Finset.mem_univ _, rfl⟩)

theorem hF2_in (c : Dev nD) (w : Fin 10) (hin : (cfg2.win w).isOut = false)
    (hne : Pipeline.arrRef spec2 w ∉ ([main_v24_0, main_v24_1] : List (Ref sig .tc))) :
    (dat2 (Vr2 m) c).arrAt w cfg2.N = Vx9 m c (Pipeline.arrRef spec2 w) :=
  ((dat2 (Vr2 m) c).arrAt_in w hin _).trans ((A_eq2 (Vr2 m) c w).trans (V9_of m (outs m) c _ hne).symm)
theorem hF2 (c : Dev nD) : ∀ w : Fin 10, (dat2 (Vr2 m) c).arrAt w cfg2.N = Vx9 m c (Pipeline.arrRef spec2 w)
  | 0 => hF2_in m c 0 rfl (by decide)
  | 1 => hF2_in m c 1 rfl (by decide)
  | 2 => hF2_in m c 2 rfl (by decide)
  | 3 => hF2_in m c 3 rfl (by decide)
  | 4 => hF2_in m c 4 rfl (by decide)
  | 5 => hF2_in m c 5 rfl (by decide)
  | 6 => hF2_in m c 6 rfl (by decide)
  | 7 => hF2_in m c 7 rfl (by decide)
  | 8 => (((Function.update_of_ne (StableHlo.devRef_ne_of_ne (by decide) : (Proc.devRef .tc main_v24_0 : DevRef τ sig) ≠ Proc.devRef .tc main_v24_1) _ _).trans
      (Function.update_self (Proc.devRef (τ := τ) .tc main_v24_0) (outs m 9 main_v24_0 c) (V8 m (outs m) c))).trans (outs_9_0 m c)).symm
  | 9 => ((Function.update_self (Proc.devRef (τ := τ) .tc main_v24_1) (outs m 9 main_v24_1 c)
      (Function.update (V8 m (outs m) c) (Proc.devRef .tc main_v24_0) (outs m 9 main_v24_0 c))).trans (outs_9_1 m c)).symm
theorem hrest2 (c : Dev nD) : ∀ b, b ∉ Finset.univ.image (Pipeline.arrRef spec2) → Vx9 m c b = Vr2 m c b :=
  fun b hb => V9_of m (outs m) c b fun h => hb (by
    rcases List.mem_cons.mp h with h | h
    · subst h; exact Finset.mem_image.mpr ⟨8, Finset.mem_univ _, rfl⟩
    · rw [List.mem_singleton] at h; subst h; exact Finset.mem_image.mpr ⟨9, Finset.mem_univ _, rfl⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (Vr0 m) c
  | ⟨1, _⟩ => fun c => dat1 (Vr1 m) c
  | ⟨2, _⟩ => fun c => dat2 (Vr2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)

/-- For the two convolution regions the body's invariant IS the class invariant, at every point. -/
theorem ΦA_in0 (V : (c : Dev nD) → (b : Ref sig .tc) → Buf (Elt F) ((c : Thread nD τ).loc b)) (c : Dev nD) :
    (Pipeline.ΦA spec0 c : sProp 𝕄) ⊢ (dat0 V c).Φ 0 := .rfl
theorem ΦA_out0 (V : (c : Dev nD) → (b : Ref sig .tc) → Buf (Elt F) ((c : Thread nD τ).loc b)) (c : Dev nD) :
    (dat0 V c).Φ (Fin.last cfg0.N) ⊢ (Pipeline.ΦA spec0 c : sProp 𝕄) := .rfl
theorem ΦA_in1 (V : (c : Dev nD) → (b : Ref sig .tc) → Buf (Elt F) ((c : Thread nD τ).loc b)) (c : Dev nD) :
    (Pipeline.ΦA spec1 c : sProp 𝕄) ⊢ (dat1 V c).Φ 0 := .rfl
theorem ΦA_out1 (V : (c : Dev nD) → (b : Ref sig .tc) → Buf (Elt F) ((c : Thread nD τ).loc b)) (c : Dev nD) :
    (dat1 V c).Φ (Fin.last cfg1.N) ⊢ (Pipeline.ΦA spec1 c : sProp 𝕄) := .rfl

/-! ## The regions as segments -/

set_option backward.isDefEq.respectTransparency.types false in
/-- REGION 0 of @main as a segment over the thread state: entered with every unscoped buffer at `V3 m`, left
    with them at `V4 m (outs m)`.  Its windows' arrays are split out of the unscoped buffers at the entry and joined
    back at the exit contents; the generator register goes into the body's invariant and comes back; nothing is
    owed at any point, and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (ΦA_in0 (Vr0 m) c)
    unfold Pipeline.ΦA
    iintro ⟨Hp, -, Hr⟩
    isplitl [Hr]; · iexact Hr
    iexact Hp
  hout c := by
    rw [Pipeline.ownSems0_none]
    refine (ΦA_out0 (Vr0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vx4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 of @main as a segment over the thread state: entered with every unscoped buffer at `V6 m (outs m)`, left
    with them at `V7 m (outs m)`.  Its windows' arrays are split out of the unscoped buffers at the entry and joined
    back at the exit contents; the generator register goes into the body's invariant and comes back; nothing is
    owed at any point, and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (V6 m (outs0 m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (ΦA_in1 (Vr1 m) c)
    unfold Pipeline.ΦA
    iintro ⟨Hp, -, Hr⟩
    isplitl [Hr]; · iexact Hr
    iexact Hp
  hout c := by
    rw [Pipeline.ownSems0_none]
    refine (ΦA_out1 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vx7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 of @main as a segment over the thread state: entered with every unscoped buffer at `V8 m (outs m)`, left
    with them at `V9 m (outs m)`.  Its windows' arrays are split out of the unscoped buffers at the entry and joined
    back at the exit contents; the generator register goes into the body's invariant and comes back; nothing is
    owed at any point, and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(StableHlo.held (c : Thread nD τ) (Pipeline.ucRefs τ sig) (V8 m (outs1 m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (Vr2 m) c)
    unfold Pipeline.ΦA
    iintro ⟨Hp, -, Hr⟩
    isplitl [Hr]; · iexact Hr
    iexact Hp
  hout c := by
    rw [Pipeline.ownSems0_none]
    refine (hout2 (Vr2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr2 m c) (Vx9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's own, and no core needs a ghost resource besides. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the rest state from what the launch deals it: its generator register, and its `owes` at nothing. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The rest state owes nothing. -/
theorem hE3 (c : Dev nD) : R c ⊢ (iprop(∃ W, owes (c : Thread nD τ) (0 : CellTallies nD τ sig Unit) W) : sProp 𝕄) := by
  iintro ⟨-, HO⟩; iexact HO

/-! ## The frame, and the run with every final buffer named -/

set_option backward.isDefEq.respectTransparency.types false in
/-- THE FRAME: from any memory with zero counters every weakly fair execution of @main terminates and every final
    memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m (EP := emb₁) (ι := ()) (𝒱₀ := 𝒱₀) (L := L) (lv := lv) (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := hu₀) (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

set_option backward.isDefEq.respectTransparency.types false in
/-- THE RUN, every final buffer named: each core's unscoped buffers end at the last valuation, with the regions'
    outputs at `outs m`. -/
theorem run_vals : θ_run defs (onTc (τ := τ) (main (F := F))) ⟨m, fun _ => 0, ρ⟩ (fun r => ∀ c : Dev nD,
      ∀ b ∈ Pipeline.ucRefs τ sig, r.2.mem ((c : Thread nD τ).1, b) = V10 m (outs m) c b) :=
  run_cond m (EP := emb₁) (ι := ()) (𝒱₀ := 𝒱₀) (L := L) (lv := lv) (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := hu₀) (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Hand

end
-- ==== Proof.Spec.lean ====
import Idealize.ShloMosaic.PureOps.Ideal

/-!
  The network as plain functions of row and feature indices over the extended reals: what both programs compute,
  stage by stage.  One layer adds to each node's features, scaled by `1 + ε`, the sum of its in-neighbours' features
  and passes the row through two affine maps, each followed by a maximum with zero; the pool sums, per graph, the rows
  of the nodes labelled with that graph; the two heads are affine maps of a pooled row, one through a further
  rectified layer and the logistic function.  The two float words kept as words are `1.0` and `0.0`: both programs
  carry the same words, so they are never evaluated.
-/

noncomputable section

namespace Cert.Spec

open Idealize.ShloMosaic

/-- The word of `1.0` and of `0.0` at `f32`, as both programs print them. -/
abbrev one : EReal := Ideal.ofBits .f32 0x3F800000#32
abbrev zero : EReal := Ideal.ofBits .f32 0x00000000#32

/-- The combined input of a layer at node `n`, feature `j`: `(1 + ε) · h + agg`. -/
def zAt {D : Nat} (e : EReal) (h agg : Fin 200000 → Fin D → EReal) (n : Fin 200000) (j : Fin D) : EReal :=
  (one + e) * h n j + agg n j

/-- The hidden row of a layer: `max (z · Wa + ba) 0`. -/
def hidAt {D : Nat} (e : EReal) (h agg : Fin 200000 → Fin D → EReal) (Wa : Fin D → Fin 64 → EReal) (ba : Fin 64 → EReal)
    (n : Fin 200000) (k : Fin 64) : EReal :=
  max ((∑ j : Fin D, zAt e h agg n j * Wa j k) + ba k) zero

/-- A layer's output row: `max (hid · Wb + bb) 0`. -/
def convAt {D : Nat} (e : EReal) (h agg : Fin 200000 → Fin D → EReal) (Wa : Fin D → Fin 64 → EReal) (ba : Fin 64 → EReal)
    (Wb : Fin 64 → Fin 64 → EReal) (bb : Fin 64 → EReal) (n : Fin 200000) (d : Fin 64) : EReal :=
  max ((∑ k : Fin 64, hidAt e h agg Wa ba n k * Wb k d) + bb d) zero

/-- The pooled features of graph `g`: the sum over the nodes whose label is the word of `g`. -/
def poolAt (h : Fin 200000 → Fin 64 → EReal) (lab : Fin 200000 → BitVec 32) (g : Fin 256) (d : Fin 64) : EReal :=
  ∑ n : Fin 200000, if lab n = BitVec.ofNat 32 g.val then h n d else 0

/-- The first head: a rectified layer, an affine map and the logistic function. -/
def presAt (p : Fin 256 → Fin 64 → EReal) (W1 : Fin 64 → Fin 32 → EReal) (b1 : Fin 32 → EReal) (W2 : Fin 32 → Fin 8 → EReal)
    (b2 : Fin 8 → EReal) (g : Fin 256) (o : Fin 8) : EReal :=
  Ideal.logistic ((∑ k : Fin 32, max ((∑ j : Fin 64, p g j * W1 j k) + b1 k) zero * W2 k o) + b2 o)

/-- The second head: one affine map. -/
def ordAt (p : Fin 256 → Fin 64 → EReal) (Wo : Fin 64 → Fin 24 → EReal) (bo : Fin 24 → EReal) (g : Fin 256) (q : Fin 24) : EReal :=
  (∑ j : Fin 64, p g j * Wo j q) + bo q

end Cert.Spec

end
-- ==== Proof.KI.ConvRow.lean ====
/- The stored block of the two graph-convolution calls, read at one entry: row `p`, column `q` of the block is the
   specification's layer applied to row `p` of the two row blocks the body loads (features and aggregated neighbours) and
   to the whole parameter blocks. Each block product into the zero block is a finite sum over the shared coordinate; the
   narrowing conversions are the identity on extended reals; the broadcasts read the one row or the one entry. -/
import proofs.«403875_j79474074845433_2_alg».proof.Proof.Gen.KernelIdeal.Skeleton
import proofs.«403875_j79474074845433_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen
open Idealize.ShloMosaic Idealize.ShloMosaic.ValueIdx

/-! ## The two block products at an index -/

theorem lhs_d10_0 (i : S5000x64.Idx) (q : dot_S5000x10_S10x64_S5000x64_1_0_0_1_n_n.contr.Idx) :
    (dot_S5000x10_S10x64_S5000x64_1_0_0_1_n_n.lhsIdx i q 0).val = (i 0).val := by
  unfold DotDims.lhsIdx
  rw [dif_neg (show ¬(0 : Fin S5000x10.rank) ∈ dot_S5000x10_S10x64_S5000x64_1_0_0_1_n_n.lhsBatch by decide), dif_pos (show (0 : Fin S5000x10.rank) ∈ dot_S5000x10_S10x64_S5000x64_1_0_0_1_n_n.lhsNonContracting by decide)]
  rfl
theorem lhs_d10_1 (i : S5000x64.Idx) (q : dot_S5000x10_S10x64_S5000x64_1_0_0_1_n_n.contr.Idx) :
    (dot_S5000x10_S10x64_S5000x64_1_0_0_1_n_n.lhsIdx i q 1).val = (q ⟨0, by decide⟩).val :=
  dot_S5000x10_S10x64_S5000x64_1_0_0_1_n_n.lhsIdx_val_of_single rfl i q
theorem rhs_d10_0 (i : S5000x64.Idx) (q : dot_S5000x10_S10x64_S5000x64_1_0_0_1_n_n.contr.Idx) :
    (dot_S5000x10_S10x64_S5000x64_1_0_0_1_n_n.rhsIdx i q 0).val = (q ⟨0, by decide⟩).val :=
  dot_S5000x10_S10x64_S5000x64_1_0_0_1_n_n.rhsIdx_val_of_single rfl i q
theorem rhs_d10_1 (i : S5000x64.Idx) (q : dot_S5000x10_S10x64_S5000x64_1_0_0_1_n_n.contr.Idx) :
    (dot_S5000x10_S10x64_S5000x64_1_0_0_1_n_n.rhsIdx i q 1).val = (i 1).val := by
  unfold DotDims.rhsIdx
  rw [dif_neg (show ¬(1 : Fin S10x64.rank) ∈ dot_S5000x10_S10x64_S5000x64_1_0_0_1_n_n.rhsBatch by decide), dif_pos (show (1 : Fin S10x64.rank) ∈ dot_S5000x10_S10x64_S5000x64_1_0_0_1_n_n.rhsNonContracting by decide)]
  rfl

/-- A 5000×10 block times a 10×64 matrix into the zero block, at row `p`, column `q`: the sum over the ten shared
    coordinates. -/
theorem mm10_at (L : FVec Ideal S5000x10 .bf16) (R : FVec Ideal S10x64 .bf16) (p : Fin 5000) (q : Fin 64) :
    matmul dot_S5000x10_S10x64_S5000x64_1_0_0_1_n_n none L R (constant (F := Ideal) S5000x64 .f32 0x00000000#32) (ix2 p q)
      = ∑ k : Fin 10, L (ix2 p k) * R (ix2 k q) := by
  refine (Ideal.matmul_constant_zero_apply dot_S5000x10_S10x64_S5000x64_1_0_0_1_n_n none L R (ix2 p q)).trans ?_
  rw [← Equiv.sum_comp (contrEquiv1 dot_S5000x10_S10x64_S5000x64_1_0_0_1_n_n 10 rfl rfl).symm]
  refine Finset.sum_congr rfl fun k _ => ?_
  have hk := contrEquiv1_symm_val dot_S5000x10_S10x64_S5000x64_1_0_0_1_n_n 10 rfl rfl k
  have el : dot_S5000x10_S10x64_S5000x64_1_0_0_1_n_n.lhsIdx (ix2 p q) ((contrEquiv1 dot_S5000x10_S10x64_S5000x64_1_0_0_1_n_n 10 rfl rfl).symm k) = ix2 p k := funext fun a => Fin.ext (by
    match a with
    | ⟨0, _⟩ => exact lhs_d10_0 _ _
    | ⟨1, _⟩ => exact (lhs_d10_1 _ _).trans hk)
  have er : dot_S5000x10_S10x64_S5000x64_1_0_0_1_n_n.rhsIdx (ix2 p q) ((contrEquiv1 dot_S5000x10_S10x64_S5000x64_1_0_0_1_n_n 10 rfl rfl).symm k) = ix2 k q := funext fun a => Fin.ext (by
    match a with
    | ⟨0, _⟩ => exact (rhs_d10_0 _ _).trans hk
    | ⟨1, _⟩ => exact rhs_d10_1 _ _)
  rw [el, er]

theorem lhs_d64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_d64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_d64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_d64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000×64 block times a 64×64 matrix into the zero block, at row `p`, column `q`: the sum over the sixty-four shared
    coordinates. -/
theorem mm64_at (L : FVec Ideal S5000x64 .bf16) (R : FVec Ideal S64x64 .bf16) (p : Fin 5000) (q : Fin 64) :
    matmul dot_S5000x64_S64x64_S5000x64_1_0_0_1_n_n none L R (constant (F := Ideal) S5000x64 .f32 0x00000000#32) (ix2 p q)
      = ∑ k : Fin 64, L (ix2 p k) * R (ix2 k q) := by
  refine (Ideal.matmul_constant_zero_apply dot_S5000x64_S64x64_S5000x64_1_0_0_1_n_n none L R (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_d64_0 _ _
    | ⟨1, _⟩ => exact (lhs_d64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_d64_0 _ _).trans hk
    | ⟨1, _⟩ => exact rhs_d64_1 _ _)
  rw [el, er]

/-- The one-entry factor broadcast over a block reads its one entry everywhere. -/
theorem bc11_at {a b : ℕ} (v : (⟨2, ![1, 1]⟩ : Shape).Idx → EReal) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## One output row of a layer, from the rows it reads -/

/-- One node's output row: its features and aggregated neighbours, the two affine maps and the two maxima with zero. -/
def rowOut {D : Nat} (e : EReal) (hr ar : Fin D → EReal) (Wa : Fin D → Fin 64 → EReal) (ba : Fin 64 → EReal)
    (Wb : Fin 64 → Fin 64 → EReal) (bb : Fin 64 → EReal) (d : Fin 64) : EReal :=
  max ((∑ k : Fin 64, max ((∑ j : Fin D, ((Cert.Spec.one + e) * hr j + ar j) * Wa j k) + ba k) Cert.Spec.zero * Wb k d) + bb d) Cert.Spec.zero

/-- The layer of the specification at node `n` is that row function of node `n`'s two rows. -/
theorem convAt_eq_rowOut {D : Nat} (e : EReal) (h agg : Fin 200000 → Fin D → EReal) (Wa : Fin D → Fin 64 → EReal) (ba : Fin 64 → EReal)
    (Wb : Fin 64 → Fin 64 → EReal) (bb : Fin 64 → EReal) (n : Fin 200000) (d : Fin 64) :
    Cert.Spec.convAt e h agg Wa ba Wb bb n d = rowOut e (h n) (agg n) Wa ba Wb bb d := rfl

/-! ## The stored block of call 0 at an index -/

theorem pay0_at (e : Vec Ideal S1x1 .f32) (h a : Vec Ideal S5000x10 .f32) (Wa : Vec Ideal S10x64 .f32) (ba : Vec Ideal S1x64 .f32)
    (Wb : Vec Ideal S64x64 .f32) (bb : Vec Ideal S1x64 .f32) (p : Fin 5000) (q : Fin 64) :
    k0_pay1 (F := Ideal) e h a Wa ba Wb bb (ix2 p q)
      = rowOut (e (ix2 (0 : Fin 1) (0 : Fin 1))) (fun j => h (ix2 p j)) (fun j => a (ix2 p j)) (fun j k => Wa (ix2 j k))
          (fun k => ba (ix2 (0 : Fin 1) k)) (fun k d => Wb (ix2 k d)) (fun d => bb (ix2 (0 : Fin 1) d)) q := by
  unfold k0_pay1 rowOut
  simp only [maximumf_apply, addf_apply, mulf_apply, broadcast_apply, truncf_apply, shapeCast_self, mm64_at, mm10_at,
    broadcastTo_1b_ab_apply, bc11_at]
  rfl

/-! ## The stored block of call 1 at an index -/

theorem pay1_at (e : Vec Ideal S1x1 .f32) (h a : Vec Ideal S5000x64 .f32) (Wa : Vec Ideal S64x64 .f32) (ba : Vec Ideal S1x64 .f32)
    (Wb : Vec Ideal S64x64 .f32) (bb : Vec Ideal S1x64 .f32) (p : Fin 5000) (q : Fin 64) :
    k1_pay1 (F := Ideal) e h a Wa ba Wb bb (ix2 p q)
      = rowOut (e (ix2 (0 : Fin 1) (0 : Fin 1))) (fun j => h (ix2 p j)) (fun j => a (ix2 p j)) (fun j k => Wa (ix2 j k))
          (fun k => ba (ix2 (0 : Fin 1) k)) (fun k d => Wb (ix2 k d)) (fun d => bb (ix2 (0 : Fin 1) d)) q := by
  unfold k1_pay1 rowOut
  simp only [maximumf_apply, addf_apply, mulf_apply, broadcast_apply, truncf_apply, shapeCast_self, mm64_at,
    broadcastTo_1b_ab_apply, bc11_at]
  rfl

end Cert.KernelIdeal.HandV

end
-- ==== Proof.KI.ConvVal0.lean ====
/- What pallas call 0 leaves in its output array: entry (n, d) is the specification's first layer at node n, feature
   d, of the arrays the region finds (node features, aggregated neighbours, epsilon, the two weight matrices and the
   two bias rows). Point t of the grid stores rows 5000·t … 5000·t + 4999; its row blocks are those rows of the two
   node arrays and its parameter blocks are the whole parameter arrays; the forty blocks cover the array. -/
import proofs.«403875_j79474074845433_2_alg».proof.Proof.KI.Conv0
import proofs.«403875_j79474074845433_2_alg».proof.Proof.KI.ConvRow
import Idealize.ShloMosaic.Lib.Pipeline.Value
import Idealize.ShloMosaic.Lib.ValueIdx

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

theorem zero_off0 : (![0, 0] : Fin 2 → Nat) = fun _ => 0 := funext fun a => by fin_cases a <;> rfl

/-! ## The layer as one function of the output array's index -/

/-- The first layer over the arrays the region finds, at an index of the 200000×64 output array. -/
def conv0G (c : Dev nD) : S200000x64.Idx → EReal := fun i =>
  Cert.Spec.convAt ((V c main_v8 : S1x1.Idx → EReal) (ix2 0 0))
    (fun n j => (V c main_arg0 : S200000x10.Idx → EReal) (ix2 n j))
    (fun n j => (V c main_v7 : S200000x10.Idx → EReal) (ix2 n j))
    (fun j k => (V c main_arg3 : S10x64.Idx → EReal) (ix2 j k))
    (fun k => (V c main_v9 : S1x64.Idx → EReal) (ix2 0 k))
    (fun k d => (V c main_arg5 : S64x64.Idx → EReal) (ix2 k d))
    (fun d => (V c main_v10 : S1x64.Idx → EReal) (ix2 0 d))
    ⟨(i 0).val, idx2_lt0 i⟩ ⟨(i 1).val, idx2_lt1 i⟩

/-! ## The printed index maps, decided over the grid -/

/-- The two row windows and the output window move one block of rows per point; the parameter windows stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of point `t`'s block is row `5000·t + p` of the array. -/
def rowOf0 (t : Fin cfg0.N) (p : Fin 5000) : Fin 200000 :=
  ⟨5000 * t.val + p.val, by have := t.isLt; have hN : cfg0.N = 40 := N_0; have := p.isLt; omega⟩

/-! ## The input blocks at a point, entry by entry -/

theorem hblk0_at (c : Dev nD) (t : Fin cfg0.N) (p : Fin 5000) (j : Fin 10) :
    (iblk0 V c 0 t : Vec Ideal S5000x10 .f32) (ix2 p j) = (V c main_arg0 : S200000x10.Idx → EReal) (ix2 (rowOf0 t p) j) := by
  obtain ⟨e0, e1, -⟩ := idx_facts0 t
  unfold iblk0
  rw [View.read_apply]
  refine congrArg (V c main_arg0 : S200000x10.Idx → EReal) (funext fun a => Fin.ext ?_)
  match a with
  | ⟨0, _⟩ => show win0_0.index t (0 : Fin 2) * 5000 + 1 * p.val = 5000 * t.val + p.val; omega
  | ⟨1, _⟩ => show win0_0.index t (1 : Fin 2) * 10 + 1 * j.val = j.val; omega

theorem aggblk0_at (c : Dev nD) (t : Fin cfg0.N) (p : Fin 5000) (j : Fin 10) :
    (iblk0 V c 1 t : Vec Ideal S5000x10 .f32) (ix2 p j) = (V c main_v7 : S200000x10.Idx → EReal) (ix2 (rowOf0 t p) j) := by
  obtain ⟨-, -, e0, e1, -⟩ := idx_facts0 t
  unfold iblk0
  rw [View.read_apply]
  refine congrArg (V c main_v7 : S200000x10.Idx → EReal) (funext fun a => Fin.ext ?_)
  match a with
  | ⟨0, _⟩ => show win0_1.index t (0 : Fin 2) * 5000 + 1 * p.val = 5000 * t.val + p.val; omega
  | ⟨1, _⟩ => show win0_1.index t (1 : Fin 2) * 10 + 1 * j.val = j.val; omega

theorem epsblk0_at (c : Dev nD) (t : Fin cfg0.N) (u v : Fin 1) :
    (iblk0 V c 2 t : Vec Ideal S1x1 .f32) (ix2 u v) = (V c main_v8 : S1x1.Idx → EReal) (ix2 u v) := by
  obtain ⟨-, -, -, -, e0, e1, -⟩ := idx_facts0 t
  unfold iblk0
  rw [View.read_apply]
  refine congrArg (V c main_v8 : S1x1.Idx → EReal) (funext fun a => Fin.ext ?_)
  match a with
  | ⟨0, _⟩ => show win0_2.index t (0 : Fin 2) * 1 + 1 * u.val = u.val; omega
  | ⟨1, _⟩ => show win0_2.index t (1 : Fin 2) * 1 + 1 * v.val = v.val; omega

theorem wablk0_at (c : Dev nD) (t : Fin cfg0.N) (j : Fin 10) (k : Fin 64) :
    (iblk0 V c 3 t : Vec Ideal S10x64 .f32) (ix2 j k) = (V c main_arg3 : S10x64.Idx → EReal) (ix2 j k) := by
  obtain ⟨-, -, -, -, -, -, e0, e1, -⟩ := idx_facts0 t
  unfold iblk0
  rw [View.read_apply]
  refine congrArg (V c main_arg3 : S10x64.Idx → EReal) (funext fun a => Fin.ext ?_)
  match a with
  | ⟨0, _⟩ => show win0_3.index t (0 : Fin 2) * 10 + 1 * j.val = j.val; omega
  | ⟨1, _⟩ => show win0_3.index t (1 : Fin 2) * 64 + 1 * k.val = k.val; omega

theorem bablk0_at (c : Dev nD) (t : Fin cfg0.N) (u : Fin 1) (k : Fin 64) :
    (iblk0 V c 4 t : Vec Ideal S1x64 .f32) (ix2 u k) = (V c main_v9 : S1x64.Idx → EReal) (ix2 u k) := by
  obtain ⟨-, -, -, -, -, -, -, -, e0, e1, -⟩ := idx_facts0 t
  unfold iblk0
  rw [View.read_apply]
  refine congrArg (V c main_v9 : S1x64.Idx → EReal) (funext fun a => Fin.ext ?_)
  match a with
  | ⟨0, _⟩ => show win0_4.index t (0 : Fin 2) * 1 + 1 * u.val = u.val; omega
  | ⟨1, _⟩ => show win0_4.index t (1 : Fin 2) * 64 + 1 * k.val = k.val; omega

theorem wbblk0_at (c : Dev nD) (t : Fin cfg0.N) (k : Fin 64) (d : Fin 64) :
    (iblk0 V c 5 t : Vec Ideal S64x64 .f32) (ix2 k d) = (V c main_arg5 : S64x64.Idx → EReal) (ix2 k d) := by
  obtain ⟨-, -, -, -, -, -, -, -, -, -, e0, e1, -⟩ := idx_facts0 t
  unfold iblk0
  rw [View.read_apply]
  refine congrArg (V c main_arg5 : S64x64.Idx → EReal) (funext fun a => Fin.ext ?_)
  match a with
  | ⟨0, _⟩ => show win0_5.index t (0 : Fin 2) * 64 + 1 * k.val = k.val; omega
  | ⟨1, _⟩ => show win0_5.index t (1 : Fin 2) * 64 + 1 * d.val = d.val; omega

theorem bbblk0_at (c : Dev nD) (t : Fin cfg0.N) (u : Fin 1) (d : Fin 64) :
    (iblk0 V c 6 t : Vec Ideal S1x64 .f32) (ix2 u d) = (V c main_v10 : S1x64.Idx → EReal) (ix2 u d) := by
  obtain ⟨-, -, -, -, -, -, -, -, -, -, -, -, e0, e1, -⟩ := idx_facts0 t
  unfold iblk0
  rw [View.read_apply]
  refine congrArg (V c main_v10 : S1x64.Idx → EReal) (funext fun a => Fin.ext ?_)
  match a with
  | ⟨0, _⟩ => show win0_6.index t (0 : Fin 2) * 1 + 1 * u.val = u.val; omega
  | ⟨1, _⟩ => show win0_6.index t (1 : Fin 2) * 64 + 1 * d.val = d.val; omega

/-! ## The stored block, entry by entry -/

/-- The output block from seven input blocks, at row `p`, column `q`: the layer's row function of row `p` of the two
    row blocks and of the parameter blocks. -/
theorem out0_7_at (x0 x1 : Vec Ideal S5000x10 .f32) (x2 : Vec Ideal S1x1 .f32) (x3 : Vec Ideal S10x64 .f32) (x4 : Vec Ideal S1x64 .f32)
    (x5 : Vec Ideal S64x64 .f32) (x6 : Vec Ideal S1x64 .f32) (p : Fin 5000) (q : Fin 64) :
    out0_7 (F := Ideal) x0 x1 x2 x3 x4 x5 x6 (ix2 p q)
      = rowOut (x2 (ix2 (0 : Fin 1) (0 : Fin 1))) (fun j => x0 (ix2 p j)) (fun j => x1 (ix2 p j)) (fun j k => x3 (ix2 j k))
          (fun k => x4 (ix2 (0 : Fin 1) k)) (fun k d => x5 (ix2 k d)) (fun d => x6 (ix2 (0 : Fin 1) d)) q := by
  unfold out0_7
  rw [View.canon_unit_zero zero_off0]
  simp only [View.ld_unit_zero (S := S5000x10) zero_off0, View.ld_unit_zero (S := S1x1) zero_off0, View.ld_unit_zero (S := S10x64) zero_off0,
    View.ld_unit_zero (S := S1x64) zero_off0, View.ld_unit_zero (S := S64x64) zero_off0]
  exact pay0_at x2 x0 x1 x3 x4 x5 x6 p q

/-! ## What a point writes back -/

/-- Point `t` writes back block `t` of the layer over the arrays the region finds. -/
theorem flushed0_eq (c : Dev nD) (t : Fin cfg0.N) :
    (dat0 V c).flushed 7 t = ((cfg0.win 7).blk t).view.read (Elt Ideal) (conv0G V c) := by
  show (cfg0.win 7).cut (grid0.coords t) ((dat0 V c).after 7 t) = _
  rw [after0_7]
  funext y
  rw [View.read_apply]
  obtain ⟨-, -, -, -, -, -, -, -, -, -, -, -, -, -, e0, e1⟩ := idx_facts0 t
  have hy0 : (y 0).val < 5000 := (y 0).isLt
  have hy1 : (y 1).val < 64 := (y 1).isLt
  have hin : (cfg0.win 7).xinj (grid0.coords t) y = ix2 (⟨(y 0).val, hy0⟩ : Fin 5000) (⟨(y 1).val, hy1⟩ : Fin 64) :=
    funext fun a => by match a with | ⟨0, _⟩ => rfl | ⟨1, _⟩ => rfl
  have hemb : ((cfg0.win 7).blk t).view.emb y = ix2 (rowOf0 t ⟨(y 0).val, hy0⟩) (⟨(y 1).val, hy1⟩ : Fin 64) :=
    funext fun a => Fin.ext (by
      match a with
      | ⟨0, _⟩ => show win0_7.index t (0 : Fin 2) * 5000 + 1 * (y 0).val = 5000 * t.val + (y 0).val; omega
      | ⟨1, _⟩ => show win0_7.index t (1 : Fin 2) * 64 + 1 * (y 1).val = (y 1).val; omega)
  refine (congrArg (out0_7 (F := Ideal) (iblk0 V c 0 t) (iblk0 V c 1 t) (iblk0 V c 2 t) (iblk0 V c 3 t) (iblk0 V c 4 t) (iblk0 V c 5 t) (iblk0 V c 6 t)) hin).trans ?_
  refine (out0_7_at (iblk0 V c 0 t) (iblk0 V c 1 t) (iblk0 V c 2 t) (iblk0 V c 3 t) (iblk0 V c 4 t) (iblk0 V c 5 t) (iblk0 V c 6 t) _ _).trans ?_
  refine Eq.trans ?_ (congrArg (conv0G V c) hemb).symm
  unfold conv0G
  rw [convAt_eq_rowOut]
  simp only [hblk0_at, aggblk0_at, epsblk0_at, wablk0_at, bablk0_at, wbblk0_at, bbblk0_at]

/-! ## The cover, and the array after the run -/

/-- An index of the array is in point `t`'s block iff each coordinate is in the block's range on its axis. -/
theorem mem_blk0 (t : Fin cfg0.N) (i : S200000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v11).slice (win0_7.rect t)).set ↔ _
  rw [View.set_slice_whole, Rect.mem_set_unit]
  exact Iff.rfl

/-- Row `r` is in the block of point `r / 5000`. -/
theorem cover0 (i : S200000x64.Idx) : ∃ t : Fin cfg0.N, (cfg0.win 7).flush t = true ∧ i ∈ ((cfg0.win 7).blk t).view.set := by
  have hN : cfg0.N = 40 := N_0
  have hi0 : (i 0).val < 200000 := (i 0).isLt
  have hi1 : (i 1).val < 64 := (i 1).isLt
  refine ⟨⟨(i 0).val / 5000, by omega⟩, flush0_7 _, ?_⟩
  rw [mem_blk0]
  obtain ⟨-, -, -, -, -, -, -, -, -, -, -, -, -, -, e0, e1⟩ := idx_facts0 ⟨(i 0).val / 5000, by omega⟩
  intro a
  match a with
  | ⟨0, _⟩ => show win0_7.index _ (0 : Fin 2) * 5000 ≤ (i 0).val ∧ (i 0).val < win0_7.index _ (0 : Fin 2) * 5000 + 5000; rw [e0]; show (i 0).val / 5000 * 5000 ≤ (i 0).val ∧ (i 0).val < (i 0).val / 5000 * 5000 + 5000; omega
  | ⟨1, _⟩ => show win0_7.index _ (1 : Fin 2) * 64 ≤ (i 1).val ∧ (i 1).val < win0_7.index _ (1 : Fin 2) * 64 + 64; rw [e1]; omega

/-- The output array after the forty points is the layer over the arrays the region finds. -/
theorem conv0_final (c : Dev nD) : (dat0 V c).arrAt 7 cfg0.N = conv0G V c :=
  (dat0 V c).arrAt_eq_of_cover 7 (conv0G V c) (fun t _ => flushed0_eq V c t) cover0

/-- The output array of call 0, entry by entry: the specification's first layer. -/
theorem conv0_arr (c : Dev nD) (n : Fin 200000) (d : Fin 64) :
    ((dat0 V c).arrAt 7 cfg0.N : S200000x64.Idx → EReal) (ix2 n d)
      = Cert.Spec.convAt ((V c main_v8 : S1x1.Idx → EReal) (ix2 0 0))
          (fun n j => (V c main_arg0 : S200000x10.Idx → EReal) (ix2 n j))
          (fun n j => (V c main_v7 : S200000x10.Idx → EReal) (ix2 n j))
          (fun j k => (V c main_arg3 : S10x64.Idx → EReal) (ix2 j k))
          (fun k => (V c main_v9 : S1x64.Idx → EReal) (ix2 0 k))
          (fun k d => (V c main_arg5 : S64x64.Idx → EReal) (ix2 k d))
          (fun d => (V c main_v10 : S1x64.Idx → EReal) (ix2 0 d)) n d := by
  rw [conv0_final]
  rfl

end Cert.KernelIdeal.HandV

end
-- ==== Proof.KI.ConvVal1.lean ====
/- What pallas call 1 leaves in its output array: entry (n, d) is the specification's second layer at node n, feature
   d, of the arrays the region finds (node features, aggregated neighbours, epsilon, the two weight matrices and the
   two bias rows). Point t of the grid stores rows 5000·t … 5000·t + 4999; its row blocks are those rows of the two
   node arrays and its parameter blocks are the whole parameter arrays; the forty blocks cover the array. -/
import proofs.«403875_j79474074845433_2_alg».proof.Proof.KI.Conv1
import proofs.«403875_j79474074845433_2_alg».proof.Proof.KI.ConvRow
import Idealize.ShloMosaic.Lib.Pipeline.Value
import Idealize.ShloMosaic.Lib.ValueIdx

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

theorem zero_off1 : (![0, 0] : Fin 2 → Nat) = fun _ => 0 := funext fun a => by fin_cases a <;> rfl

/-! ## The layer as one function of the output array's index -/

/-- The second layer over the arrays the region finds, at an index of the 200000×64 output array. -/
def conv1G (c : Dev nD) : S200000x64.Idx → EReal := fun i =>
  Cert.Spec.convAt ((V c main_v16 : S1x1.Idx → EReal) (ix2 0 0))
    (fun n j => (V c main_v11 : S200000x64.Idx → EReal) (ix2 n j))
    (fun n j => (V c main_v15 : S200000x64.Idx → EReal) (ix2 n j))
    (fun j k => (V c main_arg8 : S64x64.Idx → EReal) (ix2 j k))
    (fun k => (V c main_v17 : S1x64.Idx → EReal) (ix2 0 k))
    (fun k d => (V c main_arg10 : S64x64.Idx → EReal) (ix2 k d))
    (fun d => (V c main_v18 : S1x64.Idx → EReal) (ix2 0 d))
    ⟨(i 0).val, idx2_lt0 i⟩ ⟨(i 1).val, idx2_lt1 i⟩

/-! ## The printed index maps, decided over the grid -/

/-- The two row windows and the output window move one block of rows per point; the parameter windows stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of point `t`'s block is row `5000·t + p` of the array. -/
def rowOf1 (t : Fin cfg1.N) (p : Fin 5000) : Fin 200000 :=
  ⟨5000 * t.val + p.val, by have := t.isLt; have hN : cfg1.N = 40 := N_1; have := p.isLt; omega⟩

/-! ## The input blocks at a point, entry by entry -/

theorem hblk1_at (c : Dev nD) (t : Fin cfg1.N) (p : Fin 5000) (j : Fin 64) :
    (iblk1 V c 0 t : Vec Ideal S5000x64 .f32) (ix2 p j) = (V c main_v11 : S200000x64.Idx → EReal) (ix2 (rowOf1 t p) j) := by
  obtain ⟨e0, e1, -⟩ := idx_facts1 t
  unfold iblk1
  rw [View.read_apply]
  refine congrArg (V c main_v11 : S200000x64.Idx → EReal) (funext fun a => Fin.ext ?_)
  match a with
  | ⟨0, _⟩ => show win1_0.index t (0 : Fin 2) * 5000 + 1 * p.val = 5000 * t.val + p.val; omega
  | ⟨1, _⟩ => show win1_0.index t (1 : Fin 2) * 64 + 1 * j.val = j.val; omega

theorem aggblk1_at (c : Dev nD) (t : Fin cfg1.N) (p : Fin 5000) (j : Fin 64) :
    (iblk1 V c 1 t : Vec Ideal S5000x64 .f32) (ix2 p j) = (V c main_v15 : S200000x64.Idx → EReal) (ix2 (rowOf1 t p) j) := by
  obtain ⟨-, -, e0, e1, -⟩ := idx_facts1 t
  unfold iblk1
  rw [View.read_apply]
  refine congrArg (V c main_v15 : S200000x64.Idx → EReal) (funext fun a => Fin.ext ?_)
  match a with
  | ⟨0, _⟩ => show win1_1.index t (0 : Fin 2) * 5000 + 1 * p.val = 5000 * t.val + p.val; omega
  | ⟨1, _⟩ => show win1_1.index t (1 : Fin 2) * 64 + 1 * j.val = j.val; omega

theorem epsblk1_at (c : Dev nD) (t : Fin cfg1.N) (u v : Fin 1) :
    (iblk1 V c 2 t : Vec Ideal S1x1 .f32) (ix2 u v) = (V c main_v16 : S1x1.Idx → EReal) (ix2 u v) := by
  obtain ⟨-, -, -, -, e0, e1, -⟩ := idx_facts1 t
  unfold iblk1
  rw [View.read_apply]
  refine congrArg (V c main_v16 : S1x1.Idx → EReal) (funext fun a => Fin.ext ?_)
  match a with
  | ⟨0, _⟩ => show win1_2.index t (0 : Fin 2) * 1 + 1 * u.val = u.val; omega
  | ⟨1, _⟩ => show win1_2.index t (1 : Fin 2) * 1 + 1 * v.val = v.val; omega

theorem wablk1_at (c : Dev nD) (t : Fin cfg1.N) (j : Fin 64) (k : Fin 64) :
    (iblk1 V c 3 t : Vec Ideal S64x64 .f32) (ix2 j k) = (V c main_arg8 : S64x64.Idx → EReal) (ix2 j k) := by
  obtain ⟨-, -, -, -, -, -, e0, e1, -⟩ := idx_facts1 t
  unfold iblk1
  rw [View.read_apply]
  refine congrArg (V c main_arg8 : S64x64.Idx → EReal) (funext fun a => Fin.ext ?_)
  match a with
  | ⟨0, _⟩ => show win1_3.index t (0 : Fin 2) * 64 + 1 * j.val = j.val; omega
  | ⟨1, _⟩ => show win1_3.index t (1 : Fin 2) * 64 + 1 * k.val = k.val; omega

theorem bablk1_at (c : Dev nD) (t : Fin cfg1.N) (u : Fin 1) (k : Fin 64) :
    (iblk1 V c 4 t : Vec Ideal S1x64 .f32) (ix2 u k) = (V c main_v17 : S1x64.Idx → EReal) (ix2 u k) := by
  obtain ⟨-, -, -, -, -, -, -, -, e0, e1, -⟩ := idx_facts1 t
  unfold iblk1
  rw [View.read_apply]
  refine congrArg (V c main_v17 : S1x64.Idx → EReal) (funext fun a => Fin.ext ?_)
  match a with
  | ⟨0, _⟩ => show win1_4.index t (0 : Fin 2) * 1 + 1 * u.val = u.val; omega
  | ⟨1, _⟩ => show win1_4.index t (1 : Fin 2) * 64 + 1 * k.val = k.val; omega

theorem wbblk1_at (c : Dev nD) (t : Fin cfg1.N) (k : Fin 64) (d : Fin 64) :
    (iblk1 V c 5 t : Vec Ideal S64x64 .f32) (ix2 k d) = (V c main_arg10 : S64x64.Idx → EReal) (ix2 k d) := by
  obtain ⟨-, -, -, -, -, -, -, -, -, -, e0, e1, -⟩ := idx_facts1 t
  unfold iblk1
  rw [View.read_apply]
  refine congrArg (V c main_arg10 : S64x64.Idx → EReal) (funext fun a => Fin.ext ?_)
  match a with
  | ⟨0, _⟩ => show win1_5.index t (0 : Fin 2) * 64 + 1 * k.val = k.val; omega
  | ⟨1, _⟩ => show win1_5.index t (1 : Fin 2) * 64 + 1 * d.val = d.val; omega

theorem bbblk1_at (c : Dev nD) (t : Fin cfg1.N) (u : Fin 1) (d : Fin 64) :
    (iblk1 V c 6 t : Vec Ideal S1x64 .f32) (ix2 u d) = (V c main_v18 : S1x64.Idx → EReal) (ix2 u d) := by
  obtain ⟨-, -, -, -, -, -, -, -, -, -, -, -, e0, e1, -⟩ := idx_facts1 t
  unfold iblk1
  rw [View.read_apply]
  refine congrArg (V c main_v18 : S1x64.Idx → EReal) (funext fun a => Fin.ext ?_)
  match a with
  | ⟨0, _⟩ => show win1_6.index t (0 : Fin 2) * 1 + 1 * u.val = u.val; omega
  | ⟨1, _⟩ => show win1_6.index t (1 : Fin 2) * 64 + 1 * d.val = d.val; omega

/-! ## The stored block, entry by entry -/

/-- The output block from seven input blocks, at row `p`, column `q`: the layer's row function of row `p` of the two
    row blocks and of the parameter blocks. -/
theorem out1_7_at (x0 x1 : Vec Ideal S5000x64 .f32) (x2 : Vec Ideal S1x1 .f32) (x3 : Vec Ideal S64x64 .f32) (x4 : Vec Ideal S1x64 .f32)
    (x5 : Vec Ideal S64x64 .f32) (x6 : Vec Ideal S1x64 .f32) (p : Fin 5000) (q : Fin 64) :
    out1_7 (F := Ideal) x0 x1 x2 x3 x4 x5 x6 (ix2 p q)
      = rowOut (x2 (ix2 (0 : Fin 1) (0 : Fin 1))) (fun j => x0 (ix2 p j)) (fun j => x1 (ix2 p j)) (fun j k => x3 (ix2 j k))
          (fun k => x4 (ix2 (0 : Fin 1) k)) (fun k d => x5 (ix2 k d)) (fun d => x6 (ix2 (0 : Fin 1) d)) q := by
  unfold out1_7
  rw [View.canon_unit_zero zero_off1]
  simp only [View.ld_unit_zero (S := S5000x64) zero_off1, View.ld_unit_zero (S := S1x1) zero_off1, View.ld_unit_zero (S := S64x64) zero_off1,
    View.ld_unit_zero (S := S1x64) zero_off1, View.ld_unit_zero (S := S64x64) zero_off1]
  exact pay1_at x2 x0 x1 x3 x4 x5 x6 p q

/-! ## What a point writes back -/

/-- Point `t` writes back block `t` of the layer over the arrays the region finds. -/
theorem flushed1_eq (c : Dev nD) (t : Fin cfg1.N) :
    (dat1 V c).flushed 7 t = ((cfg1.win 7).blk t).view.read (Elt Ideal) (conv1G V c) := by
  show (cfg1.win 7).cut (grid1.coords t) ((dat1 V c).after 7 t) = _
  rw [after1_7]
  funext y
  rw [View.read_apply]
  obtain ⟨-, -, -, -, -, -, -, -, -, -, -, -, -, -, e0, e1⟩ := idx_facts1 t
  have hy0 : (y 0).val < 5000 := (y 0).isLt
  have hy1 : (y 1).val < 64 := (y 1).isLt
  have hin : (cfg1.win 7).xinj (grid1.coords t) y = ix2 (⟨(y 0).val, hy0⟩ : Fin 5000) (⟨(y 1).val, hy1⟩ : Fin 64) :=
    funext fun a => by match a with | ⟨0, _⟩ => rfl | ⟨1, _⟩ => rfl
  have hemb : ((cfg1.win 7).blk t).view.emb y = ix2 (rowOf1 t ⟨(y 0).val, hy0⟩) (⟨(y 1).val, hy1⟩ : Fin 64) :=
    funext fun a => Fin.ext (by
      match a with
      | ⟨0, _⟩ => show win1_7.index t (0 : Fin 2) * 5000 + 1 * (y 0).val = 5000 * t.val + (y 0).val; omega
      | ⟨1, _⟩ => show win1_7.index t (1 : Fin 2) * 64 + 1 * (y 1).val = (y 1).val; omega)
  refine (congrArg (out1_7 (F := Ideal) (iblk1 V c 0 t) (iblk1 V c 1 t) (iblk1 V c 2 t) (iblk1 V c 3 t) (iblk1 V c 4 t) (iblk1 V c 5 t) (iblk1 V c 6 t)) hin).trans ?_
  refine (out1_7_at (iblk1 V c 0 t) (iblk1 V c 1 t) (iblk1 V c 2 t) (iblk1 V c 3 t) (iblk1 V c 4 t) (iblk1 V c 5 t) (iblk1 V c 6 t) _ _).trans ?_
  refine Eq.trans ?_ (congrArg (conv1G V c) hemb).symm
  unfold conv1G
  rw [convAt_eq_rowOut]
  simp only [hblk1_at, aggblk1_at, epsblk1_at, wablk1_at, bablk1_at, wbblk1_at, bbblk1_at]

/-! ## The cover, and the array after the run -/

/-- An index of the array is in point `t`'s block iff each coordinate is in the block's range on its axis. -/
theorem mem_blk1 (t : Fin cfg1.N) (i : S200000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v19).slice (win1_7.rect t)).set ↔ _
  rw [View.set_slice_whole, Rect.mem_set_unit]
  exact Iff.rfl

/-- Row `r` is in the block of point `r / 5000`. -/
theorem cover1 (i : S200000x64.Idx) : ∃ t : Fin cfg1.N, (cfg1.win 7).flush t = true ∧ i ∈ ((cfg1.win 7).blk t).view.set := by
  have hN : cfg1.N = 40 := N_1
  have hi0 : (i 0).val < 200000 := (i 0).isLt
  have hi1 : (i 1).val < 64 := (i 1).isLt
  refine ⟨⟨(i 0).val / 5000, by omega⟩, flush1_7 _, ?_⟩
  rw [mem_blk1]
  obtain ⟨-, -, -, -, -, -, -, -, -, -, -, -, -, -, e0, e1⟩ := idx_facts1 ⟨(i 0).val / 5000, by omega⟩
  intro a
  match a with
  | ⟨0, _⟩ => show win1_7.index _ (0 : Fin 2) * 5000 ≤ (i 0).val ∧ (i 0).val < win1_7.index _ (0 : Fin 2) * 5000 + 5000; rw [e0]; show (i 0).val / 5000 * 5000 ≤ (i 0).val ∧ (i 0).val < (i 0).val / 5000 * 5000 + 5000; omega
  | ⟨1, _⟩ => show win1_7.index _ (1 : Fin 2) * 64 ≤ (i 1).val ∧ (i 1).val < win1_7.index _ (1 : Fin 2) * 64 + 64; rw [e1]; omega

/-- The output array after the forty points is the layer over the arrays the region finds. -/
theorem conv1_final (c : Dev nD) : (dat1 V c).arrAt 7 cfg1.N = conv1G V c :=
  (dat1 V c).arrAt_eq_of_cover 7 (conv1G V c) (fun t _ => flushed1_eq V c t) cover1

/-- The output array of call 1, entry by entry: the specification's second layer. -/
theorem conv1_arr (c : Dev nD) (n : Fin 200000) (d : Fin 64) :
    ((dat1 V c).arrAt 7 cfg1.N : S200000x64.Idx → EReal) (ix2 n d)
      = Cert.Spec.convAt ((V c main_v16 : S1x1.Idx → EReal) (ix2 0 0))
          (fun n j => (V c main_v11 : S200000x64.Idx → EReal) (ix2 n j))
          (fun n j => (V c main_v15 : S200000x64.Idx → EReal) (ix2 n j))
          (fun j k => (V c main_arg8 : S64x64.Idx → EReal) (ix2 j k))
          (fun k => (V c main_v17 : S1x64.Idx → EReal) (ix2 0 k))
          (fun k d => (V c main_arg10 : S64x64.Idx → EReal) (ix2 k d))
          (fun d => (V c main_v18 : S1x64.Idx → EReal) (ix2 0 d)) n d := by
  rw [conv1_final]
  rfl

end Cert.KernelIdeal.HandV

end
-- ==== Proof.KI.PoolVal.lean ====
/- The pooling call's values at the ideal numbers: what a grid point adds to the carried sums (the rows of its tile
   labelled with each graph, summed feature by feature), the carried sums after the last point as the pool of the whole
   node array, and the two output arrays as the two heads of the pooled rows, index by index. -/
import proofs.«403875_j79474074845433_2_alg».proof.Proof.KI.Pool
import proofs.«403875_j79474074845433_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The pooling product's operand indices -/

theorem lhs_pool_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_pool_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_pool_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_pool_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The pooling product at `(g, d)`: the sum over the tile's rows of the indicator's column `g` times the rows' feature `d`. -/
theorem pool_dot_apply (l : FVec Ideal S5000x256 .bf16) (r : FVec Ideal S5000x64 .bf16) (g : Fin 256) (d : Fin 64) :
    FloatOps.matmul dot_S5000x256_S5000x64_S256x64_0_0_1_1_n_n none l r (constant S256x64 .f32 0x00000000#32) (ix2 g d)
      = ∑ k : Fin 5000, l (ix2 k g) * r (ix2 k d) := by
  rw [Ideal.matmul_constant_zero_apply, ← Equiv.sum_comp (ValueIdx.contrEquiv1 dot_S5000x256_S5000x64_S256x64_0_0_1_1_n_n 5000 rfl rfl).symm]
  refine Finset.sum_congr rfl fun k _ => ?_
  have hk := ValueIdx.contrEquiv1_symm_val dot_S5000x256_S5000x64_S256x64_0_0_1_1_n_n 5000 rfl rfl k
  have el : dot_S5000x256_S5000x64_S256x64_0_0_1_1_n_n.lhsIdx (ix2 g d) ((ValueIdx.contrEquiv1 dot_S5000x256_S5000x64_S256x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x256_S5000x64_S256x64_0_0_1_1_n_n.rhsIdx (ix2 g d) ((ValueIdx.contrEquiv1 dot_S5000x256_S5000x64_S256x64_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-- A column of labels `[n, 1]` broadcast along the lanes to `[n, m]` reads, at `(k, g)`, the label of row `k`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word `0` or `1` of a comparison, widened to 32 bits and read as a signed integer, is the number `0` or `1`. -/
theorem sitofp_extui_ofBool (c : Bool) :
    (FloatOps.sitofp (F := Ideal) .f32 ((BitVec.ofBool c).setWidth 32) : EReal) = if c = true then 1 else 0 := by
  cases c
  · show (((BitVec.setWidth 32 (BitVec.ofBool false)).toInt : ℝ) : EReal) = _
    simp
  · show (((BitVec.setWidth 32 (BitVec.ofBool true)).toInt : ℝ) : EReal) = _
    simp

/-- The indicator the kernel builds: at `(k, g)` it is `1` when row `k`'s label is the word of `g`, else `0`. -/
theorem onehot_apply (b : Vec Ideal S5000x1 .i32) (hc : S5000x1.ShapeCasts S5000x1) (hi : S5000x256.Iotas .tc 32 [1])
    (hb : S5000x1.Broadcasts S5000x256) (h1 : 1 < 32) (hf : FTy.bits .bf16 < FTy.bits .f32) (k : Fin 5000) (g : Fin 256) :
    (truncf .bf16 (sitofp (F := Ideal) .f32 (extui 32 (cmpi .eq (iota .tc S5000x256 32 [1] hi) (broadcastTo S5000x256 (shapeCast S5000x1 b hc) hb)) h1)) hf : FVec Ideal S5000x256 .bf16) (ix2 k g)
      = if b (ix2 k 0) = BitVec.ofNat 32 g.val then 1 else 0 := by
  show FloatOps.sitofp (F := Ideal) .f32 ((IntOp.cmpi .eq (iota .tc S5000x256 32 [1] hi (ix2 k g)) (broadcastTo S5000x256 (shapeCast S5000x1 b hc) hb (ix2 k g))).setWidth 32) = _
  rw [iota_single_apply, shapeCast_self, broadcastTo_a1_ab_apply]
  show FloatOps.sitofp (F := Ideal) .f32 ((BitVec.ofBool (BitVec.ofNat 32 g.val == b (ix2 k 0))).setWidth 32) = _
  rw [sitofp_extui_ofBool]
  by_cases e : b (ix2 k 0) = BitVec.ofNat 32 g.val
  · rw [if_pos e, if_pos (by rw [e]; exact beq_self_eq_true _)]
  · rw [if_neg e, if_neg (by intro h'; exact e (eq_of_beq h').symm)]

/-- What a point adds to the carried sums: at `(g, d)`, the tile's rows labelled `g`, feature `d`, summed. -/
theorem pay2_at (x : Vec Ideal S5000x64 .f32) (b : Vec Ideal S5000x1 .i32) (a : Vec Ideal S256x64 .f32) (g : Fin 256) (d : Fin 64) :
    k2_pay2 (F := Ideal) x b a (ix2 g d)
      = a (ix2 g d) + ∑ k : Fin 5000, (if b (ix2 k 0) = BitVec.ofNat 32 g.val then x (ix2 k d) else 0) := by
  unfold k2_pay2
  dsimp only
  rw [shapeCast_self]
  show a (ix2 g d) + FloatOps.matmul (F := Ideal) dot_S5000x256_S5000x64_S256x64_0_0_1_1_n_n none _ _ (constant S256x64 .f32 0x00000000#32) (ix2 g d) = _
  rw [pool_dot_apply]
  refine congrArg (a (ix2 g d) + ·) (Finset.sum_congr rfl fun k _ => ?_)
  rw [onehot_apply]
  show _ * (shapeCast S5000x64 x _ (ix2 k d)) = _
  rw [shapeCast_self]
  split
  · exact one_mul _
  · exact zero_mul _

/-! ## The heads' three products -/

theorem lhs_hid_0 (i : S256x32.Idx) (q : dot_S256x64_S64x32_S256x32_1_0_0_1_n_n.contr.Idx) :
    (dot_S256x64_S64x32_S256x32_1_0_0_1_n_n.lhsIdx i q 0).val = (i 0).val := by
  unfold DotDims.lhsIdx
  rw [dif_neg (show ¬(0 : Fin S256x64.rank) ∈ dot_S256x64_S64x32_S256x32_1_0_0_1_n_n.lhsBatch by decide), dif_pos (show (0 : Fin S256x64.rank) ∈ dot_S256x64_S64x32_S256x32_1_0_0_1_n_n.lhsNonContracting by decide)]
  rfl
theorem lhs_hid_1 (i : S256x32.Idx) (q : dot_S256x64_S64x32_S256x32_1_0_0_1_n_n.contr.Idx) :
    (dot_S256x64_S64x32_S256x32_1_0_0_1_n_n.lhsIdx i q 1).val = (q ⟨0, by decide⟩).val :=
  dot_S256x64_S64x32_S256x32_1_0_0_1_n_n.lhsIdx_val_of_single rfl i q
theorem rhs_hid_0 (i : S256x32.Idx) (q : dot_S256x64_S64x32_S256x32_1_0_0_1_n_n.contr.Idx) :
    (dot_S256x64_S64x32_S256x32_1_0_0_1_n_n.rhsIdx i q 0).val = (q ⟨0, by decide⟩).val :=
  dot_S256x64_S64x32_S256x32_1_0_0_1_n_n.rhsIdx_val_of_single rfl i q
theorem rhs_hid_1 (i : S256x32.Idx) (q : dot_S256x64_S64x32_S256x32_1_0_0_1_n_n.contr.Idx) :
    (dot_S256x64_S64x32_S256x32_1_0_0_1_n_n.rhsIdx i q 1).val = (i 1).val := by
  unfold DotDims.rhsIdx
  rw [dif_neg (show ¬(1 : Fin S64x32.rank) ∈ dot_S256x64_S64x32_S256x32_1_0_0_1_n_n.rhsBatch by decide), dif_pos (show (1 : Fin S64x32.rank) ∈ dot_S256x64_S64x32_S256x32_1_0_0_1_n_n.rhsNonContracting by decide)]
  rfl

/-- A row-by-column product into the zero accumulator at `(p, c)`: the sum over the 64 inner positions. -/
theorem hid_dot_apply (l : FVec Ideal S256x64 .bf16) (r : FVec Ideal S64x32 .bf16) (p : Fin 256) (c : Fin 32) :
    FloatOps.matmul dot_S256x64_S64x32_S256x32_1_0_0_1_n_n none l r (constant S256x32 .f32 0x00000000#32) (ix2 p c)
      = ∑ k : Fin 64, l (ix2 p k) * r (ix2 k c) := by
  rw [Ideal.matmul_constant_zero_apply, ← Equiv.sum_comp (ValueIdx.contrEquiv1 dot_S256x64_S64x32_S256x32_1_0_0_1_n_n 64 rfl rfl).symm]
  refine Finset.sum_congr rfl fun k _ => ?_
  have hk := ValueIdx.contrEquiv1_symm_val dot_S256x64_S64x32_S256x32_1_0_0_1_n_n 64 rfl rfl k
  have el : dot_S256x64_S64x32_S256x32_1_0_0_1_n_n.lhsIdx (ix2 p c) ((ValueIdx.contrEquiv1 dot_S256x64_S64x32_S256x32_1_0_0_1_n_n 64 rfl rfl).symm k) = ix2 p k := funext fun a => Fin.ext (by
    match a with
    | ⟨0, _⟩ => exact lhs_hid_0 _ _
    | ⟨1, _⟩ => exact (lhs_hid_1 _ _).trans hk)
  have er : dot_S256x64_S64x32_S256x32_1_0_0_1_n_n.rhsIdx (ix2 p c) ((ValueIdx.contrEquiv1 dot_S256x64_S64x32_S256x32_1_0_0_1_n_n 64 rfl rfl).symm k) = ix2 k c := funext fun a => Fin.ext (by
    match a with
    | ⟨0, _⟩ => exact (rhs_hid_0 _ _).trans hk
    | ⟨1, _⟩ => exact rhs_hid_1 _ _)
  rw [el, er]

theorem lhs_pres_0 (i : S256x8.Idx) (q : dot_S256x32_S32x8_S256x8_1_0_0_1_n_n.contr.Idx) :
    (dot_S256x32_S32x8_S256x8_1_0_0_1_n_n.lhsIdx i q 0).val = (i 0).val := by
  unfold DotDims.lhsIdx
  rw [dif_neg (show ¬(0 : Fin S256x32.rank) ∈ dot_S256x32_S32x8_S256x8_1_0_0_1_n_n.lhsBatch by decide), dif_pos (show (0 : Fin S256x32.rank) ∈ dot_S256x32_S32x8_S256x8_1_0_0_1_n_n.lhsNonContracting by decide)]
  rfl
theorem lhs_pres_1 (i : S256x8.Idx) (q : dot_S256x32_S32x8_S256x8_1_0_0_1_n_n.contr.Idx) :
    (dot_S256x32_S32x8_S256x8_1_0_0_1_n_n.lhsIdx i q 1).val = (q ⟨0, by decide⟩).val :=
  dot_S256x32_S32x8_S256x8_1_0_0_1_n_n.lhsIdx_val_of_single rfl i q
theorem rhs_pres_0 (i : S256x8.Idx) (q : dot_S256x32_S32x8_S256x8_1_0_0_1_n_n.contr.Idx) :
    (dot_S256x32_S32x8_S256x8_1_0_0_1_n_n.rhsIdx i q 0).val = (q ⟨0, by decide⟩).val :=
  dot_S256x32_S32x8_S256x8_1_0_0_1_n_n.rhsIdx_val_of_single rfl i q
theorem rhs_pres_1 (i : S256x8.Idx) (q : dot_S256x32_S32x8_S256x8_1_0_0_1_n_n.contr.Idx) :
    (dot_S256x32_S32x8_S256x8_1_0_0_1_n_n.rhsIdx i q 1).val = (i 1).val := by
  unfold DotDims.rhsIdx
  rw [dif_neg (show ¬(1 : Fin S32x8.rank) ∈ dot_S256x32_S32x8_S256x8_1_0_0_1_n_n.rhsBatch by decide), dif_pos (show (1 : Fin S32x8.rank) ∈ dot_S256x32_S32x8_S256x8_1_0_0_1_n_n.rhsNonContracting by decide)]
  rfl

/-- A row-by-column product into the zero accumulator at `(p, c)`: the sum over the 32 inner positions. -/
theorem pres_dot_apply (l : FVec Ideal S256x32 .bf16) (r : FVec Ideal S32x8 .bf16) (p : Fin 256) (c : Fin 8) :
    FloatOps.matmul dot_S256x32_S32x8_S256x8_1_0_0_1_n_n none l r (constant S256x8 .f32 0x00000000#32) (ix2 p c)
      = ∑ k : Fin 32, l (ix2 p k) * r (ix2 k c) := by
  rw [Ideal.matmul_constant_zero_apply, ← Equiv.sum_comp (ValueIdx.contrEquiv1 dot_S256x32_S32x8_S256x8_1_0_0_1_n_n 32 rfl rfl).symm]
  refine Finset.sum_congr rfl fun k _ => ?_
  have hk := ValueIdx.contrEquiv1_symm_val dot_S256x32_S32x8_S256x8_1_0_0_1_n_n 32 rfl rfl k
  have el : dot_S256x32_S32x8_S256x8_1_0_0_1_n_n.lhsIdx (ix2 p c) ((ValueIdx.contrEquiv1 dot_S256x32_S32x8_S256x8_1_0_0_1_n_n 32 rfl rfl).symm k) = ix2 p k := funext fun a => Fin.ext (by
    match a with
    | ⟨0, _⟩ => exact lhs_pres_0 _ _
    | ⟨1, _⟩ => exact (lhs_pres_1 _ _).trans hk)
  have er : dot_S256x32_S32x8_S256x8_1_0_0_1_n_n.rhsIdx (ix2 p c) ((ValueIdx.contrEquiv1 dot_S256x32_S32x8_S256x8_1_0_0_1_n_n 32 rfl rfl).symm k) = ix2 k c := funext fun a => Fin.ext (by
    match a with
    | ⟨0, _⟩ => exact (rhs_pres_0 _ _).trans hk
    | ⟨1, _⟩ => exact rhs_pres_1 _ _)
  rw [el, er]

theorem lhs_ord_0 (i : S256x24.Idx) (q : dot_S256x64_S64x24_S256x24_1_0_0_1_n_n.contr.Idx) :
    (dot_S256x64_S64x24_S256x24_1_0_0_1_n_n.lhsIdx i q 0).val = (i 0).val := by
  unfold DotDims.lhsIdx
  rw [dif_neg (show ¬(0 : Fin S256x64.rank) ∈ dot_S256x64_S64x24_S256x24_1_0_0_1_n_n.lhsBatch by decide), dif_pos (show (0 : Fin S256x64.rank) ∈ dot_S256x64_S64x24_S256x24_1_0_0_1_n_n.lhsNonContracting by decide)]
  rfl
theorem lhs_ord_1 (i : S256x24.Idx) (q : dot_S256x64_S64x24_S256x24_1_0_0_1_n_n.contr.Idx) :
    (dot_S256x64_S64x24_S256x24_1_0_0_1_n_n.lhsIdx i q 1).val = (q ⟨0, by decide⟩).val :=
  dot_S256x64_S64x24_S256x24_1_0_0_1_n_n.lhsIdx_val_of_single rfl i q
theorem rhs_ord_0 (i : S256x24.Idx) (q : dot_S256x64_S64x24_S256x24_1_0_0_1_n_n.contr.Idx) :
    (dot_S256x64_S64x24_S256x24_1_0_0_1_n_n.rhsIdx i q 0).val = (q ⟨0, by decide⟩).val :=
  dot_S256x64_S64x24_S256x24_1_0_0_1_n_n.rhsIdx_val_of_single rfl i q
theorem rhs_ord_1 (i : S256x24.Idx) (q : dot_S256x64_S64x24_S256x24_1_0_0_1_n_n.contr.Idx) :
    (dot_S256x64_S64x24_S256x24_1_0_0_1_n_n.rhsIdx i q 1).val = (i 1).val := by
  unfold DotDims.rhsIdx
  rw [dif_neg (show ¬(1 : Fin S64x24.rank) ∈ dot_S256x64_S64x24_S256x24_1_0_0_1_n_n.rhsBatch by decide), dif_pos (show (1 : Fin S64x24.rank) ∈ dot_S256x64_S64x24_S256x24_1_0_0_1_n_n.rhsNonContracting by decide)]
  rfl

/-- A row-by-column product into the zero accumulator at `(p, c)`: the sum over the 64 inner positions. -/
theorem ord_dot_apply (l : FVec Ideal S256x64 .bf16) (r : FVec Ideal S64x24 .bf16) (p : Fin 256) (c : Fin 24) :
    FloatOps.matmul dot_S256x64_S64x24_S256x24_1_0_0_1_n_n none l r (constant S256x24 .f32 0x00000000#32) (ix2 p c)
      = ∑ k : Fin 64, l (ix2 p k) * r (ix2 k c) := by
  rw [Ideal.matmul_constant_zero_apply, ← Equiv.sum_comp (ValueIdx.contrEquiv1 dot_S256x64_S64x24_S256x24_1_0_0_1_n_n 64 rfl rfl).symm]
  refine Finset.sum_congr rfl fun k _ => ?_
  have hk := ValueIdx.contrEquiv1_symm_val dot_S256x64_S64x24_S256x24_1_0_0_1_n_n 64 rfl rfl k
  have el : dot_S256x64_S64x24_S256x24_1_0_0_1_n_n.lhsIdx (ix2 p c) ((ValueIdx.contrEquiv1 dot_S256x64_S64x24_S256x24_1_0_0_1_n_n 64 rfl rfl).symm k) = ix2 p k := funext fun a => Fin.ext (by
    match a with
    | ⟨0, _⟩ => exact lhs_ord_0 _ _
    | ⟨1, _⟩ => exact (lhs_ord_1 _ _).trans hk)
  have er : dot_S256x64_S64x24_S256x24_1_0_0_1_n_n.rhsIdx (ix2 p c) ((ValueIdx.contrEquiv1 dot_S256x64_S64x24_S256x24_1_0_0_1_n_n 64 rfl rfl).symm k) = ix2 k c := funext fun a => Fin.ext (by
    match a with
    | ⟨0, _⟩ => exact (rhs_ord_0 _ _).trans hk
    | ⟨1, _⟩ => exact rhs_ord_1 _ _)
  rw [el, er]

/-- The second head at `(g, q)`: the pooled row of graph `g` through one affine map. -/
theorem pay5_at (a : Vec Ideal S256x64 .f32) (w : Vec Ideal S64x24 .f32) (bb : Vec Ideal S1x24 .f32) (g : Fin 256) (q : Fin 24) :
    k2_pay5 (F := Ideal) a w bb (ix2 g q) = (∑ j : Fin 64, a (ix2 g j) * w (ix2 j q)) + bb (ix2 0 q) := by
  unfold k2_pay5 k2_pay3
  dsimp only
  rw [shapeCast_self bb]
  show FloatOps.matmul (F := Ideal) dot_S256x64_S64x24_S256x24_1_0_0_1_n_n none _ _ (constant S256x24 .f32 0x00000000#32) (ix2 g q)
    + broadcastTo S256x24 bb _ (ix2 g q) = _
  rw [ord_dot_apply, broadcastTo_1b_ab_apply]
  rfl

/-- The first head at `(g, o)`: the pooled row through a rectified layer, an affine map and the logistic function. -/
theorem pay4_at (a : Vec Ideal S256x64 .f32) (w1 : Vec Ideal S64x32 .f32) (b1 : Vec Ideal S1x32 .f32) (w2 : Vec Ideal S32x8 .f32)
    (b2 : Vec Ideal S1x8 .f32) (g : Fin 256) (o : Fin 8) :
    k2_pay4 (F := Ideal) a w1 b1 w2 b2 (ix2 g o)
      = Ideal.logistic ((∑ k : Fin 32, max ((∑ j : Fin 64, a (ix2 g j) * w1 (ix2 j k)) + b1 (ix2 0 k)) (Ideal.ofBits .f32 0x00000000#32) * w2 (ix2 k o))
          + b2 (ix2 0 o)) := by
  unfold k2_pay4 k2_pay3
  dsimp only
  rw [shapeCast_self b1, shapeCast_self b2]
  show Ideal.logistic (FloatOps.matmul (F := Ideal) dot_S256x32_S32x8_S256x8_1_0_0_1_n_n none _ _ (constant S256x8 .f32 0x00000000#32) (ix2 g o)
    + broadcastTo S256x8 b2 _ (ix2 g o)) = _
  rw [pres_dot_apply, broadcastTo_1b_ab_apply]
  refine congrArg (fun z => Ideal.logistic (z + b2 (ix2 0 o))) (Finset.sum_congr rfl fun k _ => ?_)
  refine congrArg (· * w2 (ix2 k o)) ?_
  show max (FloatOps.matmul (F := Ideal) dot_S256x64_S64x32_S256x32_1_0_0_1_n_n none _ _ (constant S256x32 .f32 0x00000000#32) (ix2 g k)
    + broadcastTo S256x32 b1 _ (ix2 g k)) (Ideal.ofBits .f32 0x00000000#32) = _
  rw [hid_dot_apply, broadcastTo_1b_ab_apply]
  rfl

/-! ## Each store is of a whole buffer: what it leaves is its payload -/

theorem hz2 : (![0, 0] : Fin 2 → Nat) = fun _ => 0 := funext fun a => by fin_cases a <;> rfl

theorem accStep2_eq (x : Vec Ideal S5000x64 .f32) (b : Vec Ideal S5000x1 .i32) (a : Vec Ideal S256x64 .f32) :
    accStep2 (F := Ideal) x b a = k2_pay2 x b a := by
  unfold accStep2
  rw [View.canon_unit_zero hz2]
  simp only [View.ld_unit_zero (S := S5000x64) hz2, View.ld_unit_zero (S := S5000x1) hz2, View.ld_unit_zero (S := S256x64) hz2]

theorem acc0_2_apply (g : Fin 256) (d : Fin 64) : acc0_2 (F := Ideal) (ix2 g d) = 0 := by
  unfold acc0_2
  rw [View.canon_unit_zero hz2]
  unfold k2_pay1
  rw [shapeCast_self]
  exact Ideal.ofBits_zero_f32

theorem out2_8_eq (a : Vec Ideal S256x64 .f32) (x2 : Vec Ideal S64x32 .f32) (x3 : Vec Ideal S1x32 .f32) (x4 : Vec Ideal S32x8 .f32)
    (x5 : Vec Ideal S1x8 .f32) : out2_8 (F := Ideal) a x2 x3 x4 x5 = k2_pay4 a x2 x3 x4 x5 := by
  unfold out2_8
  rw [View.canon_unit_zero hz2]
  simp only [View.ld_unit_zero (S := S256x64) hz2, View.ld_unit_zero (S := S64x32) hz2, View.ld_unit_zero (S := S1x32) hz2,
    View.ld_unit_zero (S := S32x8) hz2, View.ld_unit_zero (S := S1x8) hz2]

theorem out2_9_eq (a : Vec Ideal S256x64 .f32) (x6 : Vec Ideal S64x24 .f32) (x7 : Vec Ideal S1x24 .f32) :
    out2_9 (F := Ideal) a x6 x7 = k2_pay5 a x6 x7 := by
  unfold out2_9
  rw [View.canon_unit_zero hz2]
  simp only [View.ld_unit_zero (S := S256x64) hz2, View.ld_unit_zero (S := S64x24) hz2, View.ld_unit_zero (S := S1x24) hz2]

-- the TensorCore's buffer contents when the region is entered
variable (V : (c : Dev nD) → (b : Ref sig .tc) → Buf (Elt Ideal) ((c : Thread nD τ).loc b))

theorem last_lt : 39 < cfg2.N := by decide

/-! ## The windows' blocks as entries of their arrays -/

/-- The windows' index maps over the grid: the two tiled windows step down the rows with the point, every other
    window stays on its one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

/-- Point `t`'s block of the node features is rows `5000 t … 5000 t + 4999` of the array. -/
theorem iblk2_0_apply (c : Dev nD) (t : Fin cfg2.N) (k : Fin 5000) (d : Fin 64) (r : Fin 200000) (hr : r.val = 5000 * t.val + k.val) :
    (iblk2 V c 0 t : Vec Ideal S5000x64 .f32) (ix2 k d) = (V c main_v19 : S200000x64.Idx → EReal) (ix2 r d) := by
  have hi := idx_facts t
  unfold iblk2
  rw [View.read_apply]
  show (V c main_v19 : S200000x64.Idx → EReal) _ = V c main_v19 _
  congr 1
  funext a
  apply Fin.ext
  match a with
  | ⟨0, _⟩ => show win2_0.index t (0 : Fin 2) * 5000 + 1 * k.val = r.val; rw [hi.1, hr]; omega
  | ⟨1, _⟩ => show win2_0.index t (1 : Fin 2) * 64 + 1 * d.val = d.val; rw [hi.2.1]; omega

/-- Point `t`'s block of the labels is the same rows of the label column. -/
theorem iblk2_1_apply (c : Dev nD) (t : Fin cfg2.N) (k : Fin 5000) (r : Fin 200000) (hr : r.val = 5000 * t.val + k.val) :
    (iblk2 V c 1 t : Vec Ideal S5000x1 .i32) (ix2 k 0) = (V c main_v20 : S200000x1.Idx → BitVec 32) (ix2 r 0) := by
  have hi := idx_facts t
  unfold iblk2
  rw [View.read_apply]
  show (V c main_v20 : S200000x1.Idx → BitVec 32) _ = V c main_v20 _
  congr 1
  funext a
  apply Fin.ext
  match a with
  | ⟨0, _⟩ => show win2_1.index t (0 : Fin 2) * 5000 + 1 * k.val = r.val; rw [hi.2.2.1, hr]; omega
  | ⟨1, _⟩ => show win2_1.index t (1 : Fin 2) * 1 + 1 * 0 = 0; rw [hi.2.2.2.1]

/-- The heads' weight windows have one block, the whole array, at every point. -/
theorem iblk2_2_eq (c : Dev nD) (t : Fin cfg2.N) : (iblk2 V c 2 t : Vec Ideal S64x32 .f32) = (V c main_arg13 : S64x32.Idx → EReal) := by
  obtain ⟨e00, e01, e10, e11, e20, e21, e30, e31, e40, e41, e50, e51, e60, e61, e70, e71, e80, e81, e90, e91⟩ := idx_facts t
  unfold iblk2
  funext y
  rw [View.read_apply]
  show (V c main_arg13 : S64x32.Idx → EReal) _ = V c main_arg13 y
  congr 1
  funext a
  apply Fin.ext
  match a with
  | ⟨0, _⟩ => show win2_2.index t (0 : Fin 2) * 64 + 1 * (y 0).val = (y 0).val; rw [e20]; omega
  | ⟨1, _⟩ => show win2_2.index t (1 : Fin 2) * 32 + 1 * (y 1).val = (y 1).val; rw [e21]; omega

theorem iblk2_3_eq (c : Dev nD) (t : Fin cfg2.N) : (iblk2 V c 3 t : Vec Ideal S1x32 .f32) = (V c main_v21 : S1x32.Idx → EReal) := by
  obtain ⟨e00, e01, e10, e11, e20, e21, e30, e31, e40, e41, e50, e51, e60, e61, e70, e71, e80, e81, e90, e91⟩ := idx_facts t
  unfold iblk2
  funext y
  rw [View.read_apply]
  show (V c main_v21 : S1x32.Idx → EReal) _ = V c main_v21 y
  congr 1
  funext a
  apply Fin.ext
  match a with
  | ⟨0, _⟩ => show win2_3.index t (0 : Fin 2) * 1 + 1 * (y 0).val = (y 0).val; rw [e30]; omega
  | ⟨1, _⟩ => show win2_3.index t (1 : Fin 2) * 32 + 1 * (y 1).val = (y 1).val; rw [e31]; omega

theorem iblk2_4_eq (c : Dev nD) (t : Fin cfg2.N) : (iblk2 V c 4 t : Vec Ideal S32x8 .f32) = (V c main_arg15 : S32x8.Idx → EReal) := by
  obtain ⟨e00, e01, e10, e11, e20, e21, e30, e31, e40, e41, e50, e51, e60, e61, e70, e71, e80, e81, e90, e91⟩ := idx_facts t
  unfold iblk2
  funext y
  rw [View.read_apply]
  show (V c main_arg15 : S32x8.Idx → EReal) _ = V c main_arg15 y
  congr 1
  funext a
  apply Fin.ext
  match a with
  | ⟨0, _⟩ => show win2_4.index t (0 : Fin 2) * 32 + 1 * (y 0).val = (y 0).val; rw [e40]; omega
  | ⟨1, _⟩ => show win2_4.index t (1 : Fin 2) * 8 + 1 * (y 1).val = (y 1).val; rw [e41]; omega

theorem iblk2_5_eq (c : Dev nD) (t : Fin cfg2.N) : (iblk2 V c 5 t : Vec Ideal S1x8 .f32) = (V c main_v22 : S1x8.Idx → EReal) := by
  obtain ⟨e00, e01, e10, e11, e20, e21, e30, e31, e40, e41, e50, e51, e60, e61, e70, e71, e80, e81, e90, e91⟩ := idx_facts t
  unfold iblk2
  funext y
  rw [View.read_apply]
  show (V c main_v22 : S1x8.Idx → EReal) _ = V c main_v22 y
  congr 1
  funext a
  apply Fin.ext
  match a with
  | ⟨0, _⟩ => show win2_5.index t (0 : Fin 2) * 1 + 1 * (y 0).val = (y 0).val; rw [e50]; omega
  | ⟨1, _⟩ => show win2_5.index t (1 : Fin 2) * 8 + 1 * (y 1).val = (y 1).val; rw [e51]; omega

theorem iblk2_6_eq (c : Dev nD) (t : Fin cfg2.N) : (iblk2 V c 6 t : Vec Ideal S64x24 .f32) = (V c main_arg17 : S64x24.Idx → EReal) := by
  obtain ⟨e00, e01, e10, e11, e20, e21, e30, e31, e40, e41, e50, e51, e60, e61, e70, e71, e80, e81, e90, e91⟩ := idx_facts t
  unfold iblk2
  funext y
  rw [View.read_apply]
  show (V c main_arg17 : S64x24.Idx → EReal) _ = V c main_arg17 y
  congr 1
  funext a
  apply Fin.ext
  match a with
  | ⟨0, _⟩ => show win2_6.index t (0 : Fin 2) * 64 + 1 * (y 0).val = (y 0).val; rw [e60]; omega
  | ⟨1, _⟩ => show win2_6.index t (1 : Fin 2) * 24 + 1 * (y 1).val = (y 1).val; rw [e61]; omega

theorem iblk2_7_eq (c : Dev nD) (t : Fin cfg2.N) : (iblk2 V c 7 t : Vec Ideal S1x24 .f32) = (V c main_v23 : S1x24.Idx → EReal) := by
  obtain ⟨e00, e01, e10, e11, e20, e21, e30, e31, e40, e41, e50, e51, e60, e61, e70, e71, e80, e81, e90, e91⟩ := idx_facts t
  unfold iblk2
  funext y
  rw [View.read_apply]
  show (V c main_v23 : S1x24.Idx → EReal) _ = V c main_v23 y
  congr 1
  funext a
  apply Fin.ext
  match a with
  | ⟨0, _⟩ => show win2_7.index t (0 : Fin 2) * 1 + 1 * (y 0).val = (y 0).val; rw [e70]; omega
  | ⟨1, _⟩ => show win2_7.index t (1 : Fin 2) * 24 + 1 * (y 1).val = (y 1).val; rw [e71]; omega

/-! ## The carried sums, point by point -/

/-- Row `r`'s share of graph `g`'s pooled feature `d`: the row's feature if the row is labelled `g`, else nothing
    (and nothing past the array's last row). -/
def share (c : Dev nD) (g : Fin 256) (d : Fin 64) (r : ℕ) : EReal :=
  if hr : r < 200000 then
    (if (V c main_v20 : S200000x1.Idx → BitVec 32) (ix2 ⟨r, hr⟩ 0) = BitVec.ofNat 32 g.val
      then (V c main_v19 : S200000x64.Idx → EReal) (ix2 ⟨r, hr⟩ d) else 0)
  else 0

/-- A point adds, onto what it found, the shares of its own 5000 rows. -/
theorem step_apply (c : Dev nD) (t : Fin cfg2.N) (a : Vec Ideal S256x64 .f32) (g : Fin 256) (d : Fin 64) :
    accStep2 (iblk2 V c 0 t) (iblk2 V c 1 t) a (ix2 g d)
      = a (ix2 g d) + ∑ k ∈ Finset.range 5000, share V c g d (5000 * t.val + k) := by
  have ht : t.val < 40 := Nat.lt_of_lt_of_eq t.isLt N_2
  refine (congrFun (accStep2_eq _ _ a) (ix2 g d)).trans ?_
  refine (pay2_at _ _ a g d).trans ?_
  refine congrArg (a (ix2 g d) + ·) ?_
  rw [← Fin.sum_univ_eq_sum_range (fun k => share V c g d (5000 * t.val + k)) 5000]
  refine Finset.sum_congr rfl fun k _ => ?_
  have hr : 5000 * t.val + k.val < 200000 := by have := k.isLt; omega
  unfold share
  rw [dif_pos hr, iblk2_0_apply V c t k d ⟨_, hr⟩ rfl, iblk2_1_apply V c t k ⟨_, hr⟩ rfl]

/-- After point `n` the carried sums hold the shares of the first `5000 (n + 1)` rows: the sum is commutative and
    associative on the extended reals, so the tiles' sums add up to the sum over the rows. -/
theorem acc_sum (c : Dev nD) (g : Fin 256) (d : Fin 64) : ∀ (n : ℕ) (hn : n < cfg2.N),
    accAt2 V c n hn (ix2 g d) = ∑ r ∈ Finset.range (5000 * (n + 1)), share V c g d r := by
  intro n
  induction n with
  | zero =>
    intro hn
    refine (congrFun (accAt2_zero V c hn) (ix2 g d)).trans ?_
    refine (step_apply V c ⟨0, hn⟩ acc0_2 g d).trans ?_
    rw [acc0_2_apply, zero_add]
    show ∑ k ∈ Finset.range 5000, share V c g d (5000 * 0 + k) = ∑ r ∈ Finset.range 5000, share V c g d r
    refine Finset.sum_congr rfl fun k _ => ?_
    rw [Nat.mul_zero, Nat.zero_add]
  | succ n ih =>
    intro hn
    refine (congrFun (accAt2_succ V c n hn) (ix2 g d)).trans ?_
    refine (step_apply V c ⟨n + 1, hn⟩ _ g d).trans ?_
    rw [ih, show 5000 * (n + 1 + 1) = 5000 * (n + 1) + 5000 from by ring, Finset.sum_range_add]

/-- After the last point the carried sums are the pool of the whole node array. -/
theorem pool_acc (c : Dev nD) (g : Fin 256) (d : Fin 64) :
    accAt2 V c 39 last_lt (ix2 g d)
      = Cert.Spec.poolAt (fun n j => (V c main_v19 : S200000x64.Idx → EReal) (ix2 n j))
          (fun n => (V c main_v20 : S200000x1.Idx → BitVec 32) (ix2 n 0)) g d := by
  rw [acc_sum V c g d 39 last_lt]
  show ∑ r ∈ Finset.range 200000, share V c g d r = _
  rw [← Fin.sum_univ_eq_sum_range (share V c g d) 200000]
  unfold Cert.Spec.poolAt
  refine Finset.sum_congr rfl fun n _ => ?_
  unfold share
  rw [dif_pos n.isLt]

/-! ## The two output arrays -/

/-- The last grid point. -/
abbrev t39 : Fin cfg2.N := ⟨39, last_lt⟩

/-- What the last point stores into output window 8's one block. -/
abbrev result8 (c : Dev nD) : Buf (Elt Ideal) ((c : Thread nD τ).loc main_v24_0) :=
  out2_8 (accAt2 V c 39 last_lt) (iblk2 V c 2 t39) (iblk2 V c 3 t39) (iblk2 V c 4 t39) (iblk2 V c 5 t39)

/-- The one write-back of window 8, at the last point, writes it: the block at zero offsets is the whole array. -/
theorem flushed8_eq (c : Dev nD) (t : Fin cfg2.N) (hf : (cfg2.win 8).flush t = true) :
    (dat2 V c).flushed 8 t = ((cfg2.win 8).blk t).view.read (Elt Ideal) (result8 V c) := by
  have h1 : t.val = 39 := by
    have h := (flush2_8 t).mp hf; have h' : t.val < 40 := Nat.lt_of_lt_of_eq t.isLt N_2; omega
  obtain rfl : t = t39 := Fin.ext h1
  show (cfg2.win 8).cut (grid2.coords t39) ((dat2 V c).after 8 t39) = _
  rw [after2_8]
  have hz' : (fun a => win2_8.index t39 a * main_v24_0.ty.shape.size a) = fun _ => 0 := funext fun a => by fin_cases a <;> decide +kernel
  exact (Memref.read_access_unit_zero (Elt Ideal) main_v24_0 hz' (fun a => by rw [congrFun hz' a]; simp) (result8 V c)).symm

/-- So the array ends holding it: the last point's block covers the array. -/
theorem final8 (c : Dev nD) : (dat2 V c).arrAt 8 cfg2.N = result8 V c :=
  (dat2 V c).arrAt_eq_of_cover 8 (result8 V c) (flushed8_eq V c) fun i =>
    ⟨t39, (flush2_8 t39).mpr rfl, by
      show i ∈ ((View.whole main_v24_0).slice (win2_8.rect t39)).set
      rw [View.set_slice_whole, Rect.mem_set_unit]
      intro a
      have h0 : (i 0 : Nat) < 256 := (i 0).isLt
      have h1 : (i 1 : Nat) < 8 := (i 1).isLt
      match a with
      | ⟨0, _⟩ => show win2_8.index t39 0 * win2_8.size 0 ≤ (i 0 : Nat) ∧ (i 0 : Nat) < win2_8.index t39 0 * win2_8.size 0 + win2_8.xsize (grid2.coords t39) 0
                  rw [show win2_8.index t39 0 * win2_8.size 0 = 0 from by decide +kernel, show win2_8.xsize (grid2.coords t39) 0 = 256 from by decide +kernel]; omega
      | ⟨1, _⟩ => show win2_8.index t39 1 * win2_8.size 1 ≤ (i 1 : Nat) ∧ (i 1 : Nat) < win2_8.index t39 1 * win2_8.size 1 + win2_8.xsize (grid2.coords t39) 1
                  rw [show win2_8.index t39 1 * win2_8.size 1 = 0 from by decide +kernel, show win2_8.xsize (grid2.coords t39) 1 = 8 from by decide +kernel]; omega⟩

/-- What the last point stores into output window 9's one block. -/
abbrev result9 (c : Dev nD) : Buf (Elt Ideal) ((c : Thread nD τ).loc main_v24_1) :=
  out2_9 (accAt2 V c 39 last_lt) (iblk2 V c 6 t39) (iblk2 V c 7 t39)

/-- The one write-back of window 9, at the last point, writes it: the block at zero offsets is the whole array. -/
theorem flushed9_eq (c : Dev nD) (t : Fin cfg2.N) (hf : (cfg2.win 9).flush t = true) :
    (dat2 V c).flushed 9 t = ((cfg2.win 9).blk t).view.read (Elt Ideal) (result9 V c) := by
  have h1 : t.val = 39 := by
    have h := (flush2_9 t).mp hf; have h' : t.val < 40 := Nat.lt_of_lt_of_eq t.isLt N_2; omega
  obtain rfl : t = t39 := Fin.ext h1
  show (cfg2.win 9).cut (grid2.coords t39) ((dat2 V c).after 9 t39) = _
  rw [after2_9]
  have hz' : (fun a => win2_9.index t39 a * main_v24_1.ty.shape.size a) = fun _ => 0 := funext fun a => by fin_cases a <;> decide +kernel
  exact (Memref.read_access_unit_zero (Elt Ideal) main_v24_1 hz' (fun a => by rw [congrFun hz' a]; simp) (result9 V c)).symm

/-- So the array ends holding it: the last point's block covers the array. -/
theorem final9 (c : Dev nD) : (dat2 V c).arrAt 9 cfg2.N = result9 V c :=
  (dat2 V c).arrAt_eq_of_cover 9 (result9 V c) (flushed9_eq V c) fun i =>
    ⟨t39, (flush2_9 t39).mpr rfl, by
      show i ∈ ((View.whole main_v24_1).slice (win2_9.rect t39)).set
      rw [View.set_slice_whole, Rect.mem_set_unit]
      intro a
      have h0 : (i 0 : Nat) < 256 := (i 0).isLt
      have h1 : (i 1 : Nat) < 24 := (i 1).isLt
      match a with
      | ⟨0, _⟩ => show win2_9.index t39 0 * win2_9.size 0 ≤ (i 0 : Nat) ∧ (i 0 : Nat) < win2_9.index t39 0 * win2_9.size 0 + win2_9.xsize (grid2.coords t39) 0
                  rw [show win2_9.index t39 0 * win2_9.size 0 = 0 from by decide +kernel, show win2_9.xsize (grid2.coords t39) 0 = 256 from by decide +kernel]; omega
      | ⟨1, _⟩ => show win2_9.index t39 1 * win2_9.size 1 ≤ (i 1 : Nat) ∧ (i 1 : Nat) < win2_9.index t39 1 * win2_9.size 1 + win2_9.xsize (grid2.coords t39) 1
                  rw [show win2_9.index t39 1 * win2_9.size 1 = 0 from by decide +kernel, show win2_9.xsize (grid2.coords t39) 1 = 24 from by decide +kernel]; omega⟩

/-- The first output array after the call: the first head of the pooled rows. -/
theorem pool_pres (c : Dev nD) (g : Fin 256) (o : Fin 8) :
    ((dat2 V c).arrAt 8 cfg2.N : S256x8.Idx → EReal) (ix2 g o)
      = Cert.Spec.presAt (fun g j => accAt2 V c 39 last_lt (ix2 g j))
          (fun j k => (V c main_arg13 : S64x32.Idx → EReal) (ix2 j k)) (fun k => (V c main_v21 : S1x32.Idx → EReal) (ix2 0 k))
          (fun k o => (V c main_arg15 : S32x8.Idx → EReal) (ix2 k o)) (fun o => (V c main_v22 : S1x8.Idx → EReal) (ix2 0 o)) g o := by
  rw [final8 V c]
  refine (congrFun (out2_8_eq _ _ _ _ _) (ix2 g o)).trans ?_
  refine (pay4_at _ _ _ _ _ g o).trans ?_
  rw [iblk2_2_eq, iblk2_3_eq, iblk2_4_eq, iblk2_5_eq]
  rfl

/-- The second output array after the call: the second head of the pooled rows. -/
theorem pool_ord (c : Dev nD) (g : Fin 256) (q : Fin 24) :
    ((dat2 V c).arrAt 9 cfg2.N : S256x24.Idx → EReal) (ix2 g q)
      = Cert.Spec.ordAt (fun g j => accAt2 V c 39 last_lt (ix2 g j))
          (fun j q => (V c main_arg17 : S64x24.Idx → EReal) (ix2 j q)) (fun q => (V c main_v23 : S1x24.Idx → EReal) (ix2 0 q)) g q := by
  rw [final9 V c]
  refine (congrFun (out2_9_eq _ _ _) (ix2 g q)).trans ?_
  refine (pay5_at _ _ _ g q).trans ?_
  rw [iblk2_6_eq, iblk2_7_eq]
  rfl

end Cert.KernelIdeal.HandV

end
-- ==== Proof.KI.Args.lean ====
import proofs.«403875_j79474074845433_2_alg».proof.Proof.Gen.KernelIdeal.Regions
import Idealize.ShloMosaic.PureOps.Ideal

/-! The argument arrays of the kernel program at the extended reals, each at its literal type: the names the value
    lemmas about the host stretches are stated over. -/

noncomputable section

namespace Cert.KernelIdeal.HandV

open Cert.KernelIdeal Cert.KernelIdeal.Gen
open Idealize.ShloMosaic Idealize.ShloMosaic.TcCoe
open Idealize.SL.Sem

variable (m : (ℓ : Loc nD τ sig) → Buf (Elt Ideal) ℓ) (c : Dev nD)

abbrev x0 : (⟨S200000x10, .f32⟩ : BufTy).Contents (Elt Ideal) := m ((c.tc : Thread nD τ).loc main_arg0)
abbrev x1 : (⟨S2x1000000, .i32⟩ : BufTy).Contents (Elt Ideal) := m ((c.tc : Thread nD τ).loc main_arg1)
abbrev x2 : (⟨S200000, .i32⟩ : BufTy).Contents (Elt Ideal) := m ((c.tc : Thread nD τ).loc main_arg2)
abbrev x3 : (⟨S10x64, .f32⟩ : BufTy).Contents (Elt Ideal) := m ((c.tc : Thread nD τ).loc main_arg3)
abbrev x4 : (⟨S64, .f32⟩ : BufTy).Contents (Elt Ideal) := m ((c.tc : Thread nD τ).loc main_arg4)
abbrev x5 : (⟨S64x64, .f32⟩ : BufTy).Contents (Elt Ideal) := m ((c.tc : Thread nD τ).loc main_arg5)
abbrev x6 : (⟨S64, .f32⟩ : BufTy).Contents (Elt Ideal) := m ((c.tc : Thread nD τ).loc main_arg6)
abbrev x7 : (⟨S_, .f32⟩ : BufTy).Contents (Elt Ideal) := m ((c.tc : Thread nD τ).loc main_arg7)
abbrev x8 : (⟨S64x64, .f32⟩ : BufTy).Contents (Elt Ideal) := m ((c.tc : Thread nD τ).loc main_arg8)
abbrev x9 : (⟨S64, .f32⟩ : BufTy).Contents (Elt Ideal) := m ((c.tc : Thread nD τ).loc main_arg9)
abbrev x10 : (⟨S64x64, .f32⟩ : BufTy).Contents (Elt Ideal) := m ((c.tc : Thread nD τ).loc main_arg10)
abbrev x11 : (⟨S64, .f32⟩ : BufTy).Contents (Elt Ideal) := m ((c.tc : Thread nD τ).loc main_arg11)
abbrev x12 : (⟨S_, .f32⟩ : BufTy).Contents (Elt Ideal) := m ((c.tc : Thread nD τ).loc main_arg12)
abbrev x13 : (⟨S64x32, .f32⟩ : BufTy).Contents (Elt Ideal) := m ((c.tc : Thread nD τ).loc main_arg13)
abbrev x14 : (⟨S32, .f32⟩ : BufTy).Contents (Elt Ideal) := m ((c.tc : Thread nD τ).loc main_arg14)
abbrev x15 : (⟨S32x8, .f32⟩ : BufTy).Contents (Elt Ideal) := m ((c.tc : Thread nD τ).loc main_arg15)
abbrev x16 : (⟨S8, .f32⟩ : BufTy).Contents (Elt Ideal) := m ((c.tc : Thread nD τ).loc main_arg16)
abbrev x17 : (⟨S64x24, .f32⟩ : BufTy).Contents (Elt Ideal) := m ((c.tc : Thread nD τ).loc main_arg17)
abbrev x18 : (⟨S24, .f32⟩ : BufTy).Contents (Elt Ideal) := m ((c.tc : Thread nD τ).loc main_arg18)

end Cert.KernelIdeal.HandV

end
-- ==== Proof.KI.HostVal.lean ====
import proofs.«403875_j79474074845433_2_alg».proof.Defs
import proofs.«403875_j79474074845433_2_alg».proof.Proof.Gen.KernelIdeal.Regions
import proofs.«403875_j79474074845433_2_alg».proof.Proof.Gen.ReferenceIdeal.Read
import proofs.«403875_j79474074845433_2_alg».proof.Proof.Gen.Pre_finite_inputs
import proofs.«403875_j79474074845433_2_alg».proof.Proof.KI.Args
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.ReduceAll

/-! # What the host stretches of the kernel program compute

Between its three kernel regions the program gathers, for every edge, the features of the edge's source node, sums
them into the edge's target node, and re-lays small vectors as rows.  Its gather guards every row by the test
`0 ≤ index ≤ 199999` and writes a filler word where the test fails; the reference gathers without the guard.  Under
the precondition every source index lies in `[0, 200000)`, so the guard passes on every row and the two gathers are
the same function.  Everything else here is a buffer read back off the chain of valuations. -/

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (outs : Outs (F := Ideal)) (c : Dev nD)

open Cert.ReferenceIdeal.Read in
/-- The flat source column at edge `e` is row 0, column `e` of the edge array. -/
theorem src_apply (x : (⟨S2x1000000, .i32⟩ : BufTy).Contents (Elt Ideal)) (e : Fin 1000000) :
    Cert.ReferenceIdeal.Read.val_main_v1 (F := Ideal) x (ix1 e) = x (ix2 (0 : Fin 2) e) := by
  rw [val_main_v1_apply, val_main_v0_apply]
  refine congrArg x (funext fun a => Fin.ext ?_)
  match a with
  | ⟨0, _⟩ => rfl
  | ⟨1, _⟩ => show (e.val % 1000000) = e.val; exact Nat.mod_eq_of_lt e.isLt

instance : Subsingleton Cert.Pre_finite_inputs.S_.Idx := ⟨fun a b => funext fun d => d.elim0⟩

/-! ## The precondition, decoded -/

/-- Every source index is a node: read signed, it lies in `[0, 200000)`.  The precondition is a conjunction of
    `all`-reductions; its last two say `0 ≤ src` and `src < 200000` of the flat source column. -/
theorem pre_src (hpre : Cert.Pre_KernelIdeal m) (e : Fin 1000000) :
    0 ≤ (x1 m c (ix2 (0 : Fin 2) e)).toInt ∧ (x1 m c (ix2 (0 : Fin 2) e)).toInt < 200000 := by
  have h := congrFun (hpre c) ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5] at h
  obtain ⟨h12, h3⟩ := IntOp.andi_eq_one.1 (h : IntOp.andi _ _ = 1#1)
  obtain ⟨-, h2⟩ := IntOp.andi_eq_one.1 (h12 : IntOp.andi _ _ = 1#1)
  clear h h12
  have k2 := IntOp.cmpi_sge.1 (Host.reduce_andi_all _ _ _ _ _ h2 (ix1 e))
  have k3 := IntOp.cmpi_slt.1 (Host.reduce_andi_all _ _ _ _ _ h3 (ix1 e))
  clear h2 h3
  change (0#32 : BitVec 32).toInt ≤ (Cert.ReferenceIdeal.Read.val_main_v1 (F := Ideal) (x1 m c) (ix1 e)).toInt at k2
  change (Cert.ReferenceIdeal.Read.val_main_v1 (F := Ideal) (x1 m c) (ix1 e)).toInt < (200000#32 : BitVec 32).toInt at k3
  rw [src_apply] at k2 k3
  exact ⟨k2, k3⟩

/-! ## The guard of the program's gather -/

section Guard

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- An `and`-reduction from 1 of an array of ones is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-- A broadcast of a constant array is that constant everywhere. -/
theorem bcast_all {α : Type} {s t : Shape} (dims : Fin s.rank → Fin t.rank) (h : s.BroadcastsInDim t dims) (x : s.Idx → α) (v : α)
    (hx : ∀ k, x k = v) (j : t.Idx) : broadcastInDim t dims h x j = v := by
  unfold broadcastInDim
  exact hx _

/-- The source column with negative entries wrapped by the node count, as both programs compute it. -/
def wrap (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 200000#32))) idx

/-- The wrapped column as the one-column table of start indices the gather takes. -/
def col (idx : IVec S1000000 32) : IVec S1000000x1 32 :=
  broadcastInDim S1000000x1 ![0] bcast_S1000000_S1000000x1_0 (wrap idx)

/-- The guard of a table of start indices: `0 ≤ entry ≤ 199999` on every row, reduced over the unit axis. -/
def guardOf (cl : IVec S1000000x1 32) : IVec S1000000 1 :=
  Host.reduce IntOp.andi
    (andi (cmpi .sge cl (broadcastInDim S1000000x1 ![] bcast_S_S1000000x1 (constantI S_ 32 0#32)))
      (cmpi .sle cl (broadcastInDim S1000000x1 ![0, 1] bcast_S1x1_S1000000x1_0_1
        (broadcastInDim S1x1 ![1] bcast_S1_S1x1_1 (constantI S1 32 199999#32)))))
    (constantI S_ 1 1#1) reducesTo_S1000000x1_S1000000_d1 h_S_

/-- The guard of the wrapped source column. -/
def guard (idx : IVec S1000000 32) : IVec S1000000 1 := guardOf (col idx)

variable (idx : IVec S1000000 32) (hidx : ∀ e : Fin 1000000, 0 ≤ (idx (ix1 e)).toInt ∧ (idx (ix1 e)).toInt < 200000)
include hidx

/-- A nonnegative index is not wrapped. -/
theorem wrap_apply (e : Fin 1000000) : wrap idx (ix1 e) = idx (ix1 e) := by
  have hz : IntOp.cmpi .slt (idx (ix1 e)) 0#32 = 0#1 := eq_zero_of_ne_one fun h => by
    have := IntOp.cmpi_slt.1 h
    have z : (0#32 : BitVec 32).toInt = 0 := by decide
    have := (hidx e).1
    omega
  show Scalar.select (IntOp.cmpi .slt (idx (ix1 e)) 0#32) _ _ = _
  rw [hz, select_zero]

theorem col_apply (i : S1000000x1.Idx) : col idx i = idx (ix1 ⟨(i 0).val, (i 0).isLt⟩) := by
  unfold col
  rw [broadcastInDim_apply _ bcast_S1000000_S1000000x1_0 (wrap idx) i (ix1 ⟨(i 0).val, (i 0).isLt⟩) (fun a => match a with
    | ⟨0, _⟩ => by show (i 0).val = if (1000000 : Nat) = 1 then 0 else (i 0).val; rw [if_neg (by decide)])]
  exact wrap_apply idx hidx _

/-- Every row passes the guard. -/
theorem guard_one (j : S1000000.Idx) : guard idx j = 1#1 := by
  unfold guard guardOf
  refine reduce_andi_one _ _ _ _ (fun i => ?_) (fun _ => rfl) j
  refine IntOp.andi_eq_one.2 ⟨IntOp.cmpi_sge.2 ?_, IntOp.cmpi_sle.2 ?_⟩
  · show (0#32 : BitVec 32).toInt ≤ (col idx i).toInt
    rw [col_apply idx hidx]
    have z : (0#32 : BitVec 32).toInt = 0 := by decide
    have := (hidx ⟨(i 0).val, (i 0).isLt⟩).1
    omega
  · show (col idx i).toInt ≤ (199999#32 : BitVec 32).toInt
    rw [col_apply idx hidx]
    have z : (199999#32 : BitVec 32).toInt = 199999 := by decide
    have := (hidx ⟨(i 0).val, (i 0).isLt⟩).2
    omega

/-- A selection by the broadcast guard keeps its first operand. -/
theorem select_guard {α : Type} {t : Shape} (dims : Fin S1000000.rank → Fin t.rank) (hb : S1000000.BroadcastsInDim t dims)
    (g f : t.Idx → α) : select (broadcastInDim t dims hb (guard idx)) g f = g := by
  funext i
  rw [select_apply, bcast_all dims hb (guard idx) 1#1 (guard_one idx hidx) i, select_one]

end Guard

/-! ## The host stretches, from any valuation -/

section Stretches

variable (W : Valuation τ sig (Elt Ideal))

/-! ### The guarded gather of layer 1, in three pieces -/

/-- Its first eight operations: the wrapped source column as a one-column table of start indices. -/
abbrev takeA1 : List (HloOp τ sig (Elt Ideal)) := hostOps0_1.take 8
/-- The next ten: the guard of every row. -/
abbrev takeB1 : List (HloOp τ sig (Elt Ideal)) := (hostOps0_1.drop 8).take 10
/-- The last five: the rows gathered, and the filler word put where the guard fails. -/
abbrev takeC1 : List (HloOp τ sig (Elt Ideal)) := hostOps0_1.drop 18

theorem take1_split : (hostOps0_1 : List (HloOp τ sig (Elt Ideal))) = takeA1 ++ (takeB1 ++ takeC1) := rfl

theorem takeA1_col :
    (StableHlo.after takeA1 W (Proc.devRef .tc main_call0_v5) : IVec S1000000x1 32) = col (W main_v1 : IVec S1000000 32) := by
  unfold col wrap
  simp only [takeA1, hostOps0_1, List.take_succ_cons, List.take_zero]
  after_results_simp
  rfl

theorem takeA1_feat : StableHlo.after takeA1 W (Proc.devRef .tc main_arg0) = W main_arg0 := by
  simp only [takeA1, hostOps0_1, List.take_succ_cons, List.take_zero]
  after_results_simp

theorem takeB1_guard :
    (StableHlo.after takeB1 W (Proc.devRef .tc main_call0_v12) : IVec S1000000 1) = guardOf (W main_call0_v5 : IVec S1000000x1 32) := by
  unfold guardOf
  simp only [takeB1, hostOps0_1, List.drop_succ_cons, List.drop_zero, List.take_succ_cons, List.take_zero]
  after_results_simp
  simp only [StableHlo.TRef.ofBuf, StableHlo.TRef.toBuf, cast_eq]

theorem takeB1_col : StableHlo.after takeB1 W (Proc.devRef .tc main_call0_v5) = W main_call0_v5 := by
  simp only [takeB1, hostOps0_1, List.drop_succ_cons, List.drop_zero, List.take_succ_cons, List.take_zero]
  after_results_simp

theorem takeB1_feat : StableHlo.after takeB1 W (Proc.devRef .tc main_arg0) = W main_arg0 := by
  simp only [takeB1, hostOps0_1, List.drop_succ_cons, List.drop_zero, List.take_succ_cons, List.take_zero]
  after_results_simp

theorem takeC1_sel :
    (StableHlo.after takeC1 W (Proc.devRef .tc main_v4) : S1000000x10.Idx → EReal)
      = select (broadcastInDim S1000000x10 ![0] bcast_S1000000_S1000000x10_0 (W main_call0_v12 : IVec S1000000 1))
          (Host.gather gather_S200000x10_S1000000x1_S1000000x10_1_0_n_n_0_1_110 (W main_arg0 : S200000x10.Idx → EReal)
            (W main_call0_v5 : IVec S1000000x1 32))
          (broadcastInDim S1000000x10 ![] bcast_S_S1000000x10 (constant (F := Ideal) S_ .f32 0x7FC00000#32)) := by
  simp only [takeC1, hostOps0_1, List.drop_succ_cons, List.drop_zero]
  after_results_simp
  rfl

/-- Layer 1's guarded gather of the node features along the source column. -/
theorem take1_after :
    (StableHlo.after hostOps0_1 W (Proc.devRef .tc main_v4) : S1000000x10.Idx → EReal)
      = select (broadcastInDim S1000000x10 ![0] bcast_S1000000_S1000000x10_0 (guard (W main_v1 : IVec S1000000 32)))
          (Host.gather gather_S200000x10_S1000000x1_S1000000x10_1_0_n_n_0_1_110 (W main_arg0 : S200000x10.Idx → EReal)
            (col (W main_v1 : IVec S1000000 32)))
          (broadcastInDim S1000000x10 ![] bcast_S_S1000000x10 (constant (F := Ideal) S_ .f32 0x7FC00000#32)) := by
  rw [take1_split, StableHlo.after_append, StableHlo.after_append, takeC1_sel, takeB1_guard, takeB1_col, takeB1_feat,
    takeA1_col, takeA1_feat]
  rfl

/-! ### The guarded gather of layer 2, in three pieces -/

/-- Its first eight operations: the wrapped source column as a one-column table of start indices. -/
abbrev takeA2 : List (HloOp τ sig (Elt Ideal)) := hostOps1.take 8
/-- The next ten: the guard of every row. -/
abbrev takeB2 : List (HloOp τ sig (Elt Ideal)) := (hostOps1.drop 8).take 10
/-- The last five: the rows gathered, and the filler word put where the guard fails. -/
abbrev takeC2 : List (HloOp τ sig (Elt Ideal)) := hostOps1.drop 18

theorem take2_split : (hostOps1 : List (HloOp τ sig (Elt Ideal))) = takeA2 ++ (takeB2 ++ takeC2) := rfl

theorem takeA2_col :
    (StableHlo.after takeA2 W (Proc.devRef .tc main_call1_v5) : IVec S1000000x1 32) = col (W main_v1 : IVec S1000000 32) := by
  unfold col wrap
  simp only [takeA2, hostOps1, List.take_succ_cons, List.take_zero]
  after_results_simp
  rfl

theorem takeA2_feat : StableHlo.after takeA2 W (Proc.devRef .tc main_v11) = W main_v11 := by
  simp only [takeA2, hostOps1, List.take_succ_cons, List.take_zero]
  after_results_simp

theorem takeB2_guard :
    (StableHlo.after takeB2 W (Proc.devRef .tc main_call1_v12) : IVec S1000000 1) = guardOf (W main_call1_v5 : IVec S1000000x1 32) := by
  unfold guardOf
  simp only [takeB2, hostOps1, List.drop_succ_cons, List.drop_zero, List.take_succ_cons, List.take_zero]
  after_results_simp
  simp only [StableHlo.TRef.ofBuf, StableHlo.TRef.toBuf, cast_eq]

theorem takeB2_col : StableHlo.after takeB2 W (Proc.devRef .tc main_call1_v5) = W main_call1_v5 := by
  simp only [takeB2, hostOps1, List.drop_succ_cons, List.drop_zero, List.take_succ_cons, List.take_zero]
  after_results_simp

theorem takeB2_feat : StableHlo.after takeB2 W (Proc.devRef .tc main_v11) = W main_v11 := by
  simp only [takeB2, hostOps1, List.drop_succ_cons, List.drop_zero, List.take_succ_cons, List.take_zero]
  after_results_simp

theorem takeC2_sel :
    (StableHlo.after takeC2 W (Proc.devRef .tc main_v12) : S1000000x64.Idx → EReal)
      = select (broadcastInDim S1000000x64 ![0] bcast_S1000000_S1000000x64_0 (W main_call1_v12 : IVec S1000000 1))
          (Host.gather gather_S200000x64_S1000000x1_S1000000x64_1_0_n_n_0_1_164 (W main_v11 : S200000x64.Idx → EReal)
            (W main_call1_v5 : IVec S1000000x1 32))
          (broadcastInDim S1000000x64 ![] bcast_S_S1000000x64 (constant (F := Ideal) S_ .f32 0x7FC00000#32)) := by
  simp only [takeC2, hostOps1, List.drop_succ_cons, List.drop_zero]
  after_results_simp
  rfl

/-- Layer 2's guarded gather of the node features along the source column. -/
theorem take2_after :
    (StableHlo.after hostOps1 W (Proc.devRef .tc main_v12) : S1000000x64.Idx → EReal)
      = select (broadcastInDim S1000000x64 ![0] bcast_S1000000_S1000000x64_0 (guard (W main_v1 : IVec S1000000 32)))
          (Host.gather gather_S200000x64_S1000000x1_S1000000x64_1_0_n_n_0_1_164 (W main_v11 : S200000x64.Idx → EReal)
            (col (W main_v1 : IVec S1000000 32)))
          (broadcastInDim S1000000x64 ![] bcast_S_S1000000x64 (constant (F := Ideal) S_ .f32 0x7FC00000#32)) := by
  rw [take2_split, StableHlo.after_append, StableHlo.after_append, takeC2_sel, takeB2_guard, takeB2_col, takeB2_feat,
    takeA2_col, takeA2_feat]
  rfl

/-- The sum of layer 1's gathered rows into their target nodes. -/
theorem agg1_after :
    (StableHlo.after hostOps0_2 W (Proc.devRef .tc main_v7) : S200000x10.Idx → EReal)
      = Host.scatterAdd (F := Ideal) scatter_S200000x10_S1000000x1_S1000000x10_1_0_0_1
          (broadcastInDim S200000x10 ![] bcast_S_S200000x10 (constant (F := Ideal) S_ .f32 0x00000000#32))
          (broadcastInDim S1000000x1 ![0] bcast_S1000000_S1000000x1_0 (W main_v3 : IVec S1000000 32))
          (W main_v4 : S1000000x10.Idx → EReal) := by
  after_results

/-- The sum of layer 2's gathered rows into their target nodes. -/
theorem agg2_after :
    (StableHlo.after hostOps1_1 W (Proc.devRef .tc main_v15) : S200000x64.Idx → EReal)
      = Host.scatterAdd (F := Ideal) scatter_S200000x64_S1000000x1_S1000000x64_1_0_0_1
          (broadcastInDim S200000x64 ![] bcast_S_S200000x64 (constant (F := Ideal) S_ .f32 0x00000000#32))
          (broadcastInDim S1000000x1 ![0] bcast_S1000000_S1000000x1_0 (W main_v3 : IVec S1000000 32))
          (W main_v12 : S1000000x64.Idx → EReal) := by
  after_results

/-- The flat source column: row 0 of the edge array. -/
theorem ops0_src :
    (StableHlo.after hostOps0 W (Proc.devRef .tc main_v1) : IVec S1000000 32)
      = Cert.ReferenceIdeal.Read.val_main_v1 (F := Ideal) (W main_arg1 : IVec S2x1000000 32) := by
  after_results
  rfl

/-- The flat target column: row 1 of the edge array. -/
theorem ops0_dst :
    (StableHlo.after hostOps0 W (Proc.devRef .tc main_v3) : IVec S1000000 32)
      = Cert.ReferenceIdeal.Read.val_main_v3 (F := Ideal) (W main_arg1 : IVec S2x1000000 32) := by
  after_results
  rfl

end Stretches

/-! ## The two neighbour sums -/

/-- The source column after the first stretch. -/
theorem V1_src : (V1 m c main_v1 : IVec S1000000 32) = Cert.ReferenceIdeal.Read.val_main_v1 (F := Ideal) (x1 m c) :=
  ops0_src (V0 m c)
/-- The target column after the first stretch. -/
theorem V1_dst : (V1 m c main_v3 : IVec S1000000 32) = Cert.ReferenceIdeal.Read.val_main_v3 (F := Ideal) (x1 m c) :=
  ops0_dst (V0 m c)

/-- Under the precondition every entry of the source column is a node. -/
theorem src_bounds (hpre : Cert.Pre_KernelIdeal m) (e : Fin 1000000) :
    0 ≤ (Cert.ReferenceIdeal.Read.val_main_v1 (F := Ideal) (x1 m c) (ix1 e)).toInt
      ∧ (Cert.ReferenceIdeal.Read.val_main_v1 (F := Ideal) (x1 m c) (ix1 e)).toInt < 200000 := by
  rw [src_apply]
  exact pre_src m c hpre e

/-- Layer 1: the program's sum over in-neighbours is the reference's. -/
theorem host_agg1 (hpre : Cert.Pre_KernelIdeal m) :
    (V3 m c main_v7 : S200000x10.Idx → EReal) = Cert.ReferenceIdeal.Read.val_main_v13 (F := Ideal) (x0 m c) (x1 m c) := by
  have e7 := agg1_after (V2 m c)
  have e4 := take1_after (V1 m c)
  have e3 : (V2 m c main_v3 : IVec S1000000 32) = Cert.ReferenceIdeal.Read.val_main_v3 (F := Ideal) (x1 m c) :=
    (V2_of m c main_v3 (by decide)).trans (V1_dst m c)
  have e0 : (V1 m c main_arg0 : S200000x10.Idx → EReal) = x0 m c := V1_of m c main_arg0 (by decide)
  rw [e3, show (V2 m c main_v4 : S1000000x10.Idx → EReal) = StableHlo.after hostOps0_1 (V1 m c) (Proc.devRef .tc main_v4) from rfl,
    e4, V1_src m c, e0, select_guard _ (src_bounds m c hpre)] at e7
  exact e7.trans rfl

/-- Layer 2: likewise, over whatever the first region left as the node features. -/
theorem host_agg2 (hpre : Cert.Pre_KernelIdeal m) (h : S200000x64.Idx → EReal) (hh : (outs 4 main_v11 c : S200000x64.Idx → EReal) = h) :
    (V6 m outs c main_v15 : S200000x64.Idx → EReal)
      = Host.scatterAdd (F := Ideal) (φ := .f32) Cert.ReferenceIdeal.scatter_S200000x64_S1000000x1_S1000000x64_1_0_0_1
          (Cert.ReferenceIdeal.Read.val_main_v37 (F := Ideal)) (Cert.ReferenceIdeal.Read.val_main_v38 (F := Ideal) (x1 m c))
          (Host.gather Cert.ReferenceIdeal.gather_S200000x64_S1000000x1_S1000000x64_1_0_n_n_0_1_164 h
            (Cert.ReferenceIdeal.Read.val_main_v35 (F := Ideal) (x1 m c))) := by
  have e15 := agg2_after (V5 m outs c)
  have e12 := take2_after (V4 m outs c)
  have e3 : (V5 m outs c main_v3 : IVec S1000000 32) = Cert.ReferenceIdeal.Read.val_main_v3 (F := Ideal) (x1 m c) :=
    (V5_of m outs c main_v3 (by decide)).trans <| (V4_of m outs c main_v3 (by decide)).trans <|
      (V3_of m c main_v3 (by decide)).trans <| (V2_of m c main_v3 (by decide)).trans (V1_dst m c)
  have e1 : (V4 m outs c main_v1 : IVec S1000000 32) = Cert.ReferenceIdeal.Read.val_main_v1 (F := Ideal) (x1 m c) :=
    (V4_of m outs c main_v1 (by decide)).trans <| (V3_of m c main_v1 (by decide)).trans <|
      (V2_of m c main_v1 (by decide)).trans (V1_src m c)
  have e11 : (V4 m outs c main_v11 : S200000x64.Idx → EReal) = h := by
    show Function.update (V3 m c) (Proc.devRef .tc main_v11) (outs 4 main_v11 c) (Proc.devRef .tc main_v11) = h
    rw [Function.update_self]; exact hh
  rw [e3, show (V5 m outs c main_v12 : S1000000x64.Idx → EReal) = StableHlo.after hostOps1 (V4 m outs c) (Proc.devRef .tc main_v12) from rfl,
    e12, e1, e11, select_guard _ (src_bounds m c hpre)] at e15
  exact e15.trans rfl

end Cert.KernelIdeal.HandV

end
-- ==== Proof.KI.HostRead.lean ====
import proofs.«403875_j79474074845433_2_alg».proof.Defs
import proofs.«403875_j79474074845433_2_alg».proof.Proof.Gen.KernelIdeal.Regions
import proofs.«403875_j79474074845433_2_alg».proof.Proof.KI.Args
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.ReduceAll

/-! # What the host stretches of the kernel program leave in the small buffers

Between its three kernel regions the program re-lays a scalar as a 1x1 array, a vector of length n as a row 1xn,
the label vector as a column, and the second result 256x24 as 256x3x8.  A re-laying keeps the row-major order, so
each entry of the new array is the entry of the old one at the same row-major position.  Every other buffer a
region reads is left alone by the stretches before it, and is read back off the chain of valuations unchanged. -/

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (outs : Outs (F := Ideal)) (c : Dev nD)

/-! ## Re-layings read at an index

A re-laying keeps the row-major position.  For a scalar made a 1x1 array both positions are 0; for a vector made a
column the position of `(i, 0)` is `i * 1 + 0`; for a 256x24 array made 256x3x8 the position of `(g, a, b)` is
`(g * 3 + a) * 8 + b = g * 24 + (8 * a + b)`. -/

/-- A scalar made a 1x1 array holds the scalar. -/
theorem cast_scalar {α : Type} (x : S_.Idx → α) (h : S_.ShapeCasts S1x1) :
    shapeCast S1x1 x h (ix2 (0 : Fin 1) (0 : Fin 1)) = x ix0 :=
  shapeCast_apply x h _ _ (by
    rw [Shape.rowMajor_val_two]
    have h0 : (S_.rowMajor ix0).val < 1 := (S_.rowMajor ix0).isLt
    show (S_.rowMajor ix0).val = 0 * 1 + 0
    omega)

/-- A vector made a column reads, at `(i, u)`, the vector at `i`. -/
theorem cast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A 256x24 array made 256x3x8 reads, at `(g, a, b)`, the array at `(g, 8 * a + b)`. -/
theorem cast_split {α : Type} (x : (⟨2, ![256, 24]⟩ : Shape).Idx → α)
    (h : (⟨2, ![256, 24]⟩ : Shape).ShapeCasts ⟨3, ![256, 3, 8]⟩) (g : Fin 256) (a : Fin 3) (b : Fin 8) :
    shapeCast ⟨3, ![256, 3, 8]⟩ x h (ix3 g a b) = x (ix2 g (⟨8 * a.val + b.val, by omega⟩ : Fin 24)) :=
  shapeCast_apply x h _ _ (by
    rw [Shape.rowMajor_val_two, Shape.rowMajor_val_three]
    show g.val * 24 + (8 * a.val + b.val) = (g.val * 3 + a.val) * 8 + b.val
    omega)

/-! ## A buffer no stretch writes and no region may change keeps its launch contents -/

theorem back2 (r : Ref sig .tc) (h0 : r ∉ hostOps0_W) (h1 : r ∉ hostOps0_1_W) : V2 m c r = V0 m c r :=
  (V2_of m c r h1).trans (V1_of m c r h0)

theorem back3 (r : Ref sig .tc) (h0 : r ∉ hostOps0_W) (h1 : r ∉ hostOps0_1_W) (h2 : r ∉ hostOps0_2_W) :
    V3 m c r = V0 m c r :=
  (V3_of m c r h2).trans (back2 m c r h0 h1)

theorem back5 (r : Ref sig .tc) (h0 : r ∉ hostOps0_W) (h1 : r ∉ hostOps0_1_W) (h2 : r ∉ hostOps0_2_W)
    (h3 : r ∉ ([main_v11] : List (Ref sig .tc))) (h4 : r ∉ hostOps1_W) : V5 m outs c r = V0 m c r :=
  (V5_of m outs c r h4).trans <| (V4_of m outs c r h3).trans (back3 m c r h0 h1 h2)

theorem back6 (r : Ref sig .tc) (h0 : r ∉ hostOps0_W) (h1 : r ∉ hostOps0_1_W) (h2 : r ∉ hostOps0_2_W)
    (h3 : r ∉ ([main_v11] : List (Ref sig .tc))) (h4 : r ∉ hostOps1_W) (h5 : r ∉ hostOps1_1_W) :
    V6 m outs c r = V0 m c r :=
  (V6_of m outs c r h5).trans (back5 m outs c r h0 h1 h2 h3 h4)

theorem back7 (r : Ref sig .tc) (h0 : r ∉ hostOps0_W) (h1 : r ∉ hostOps0_1_W) (h2 : r ∉ hostOps0_2_W)
    (h3 : r ∉ ([main_v11] : List (Ref sig .tc))) (h4 : r ∉ hostOps1_W) (h5 : r ∉ hostOps1_1_W)
    (h6 : r ∉ ([main_v19] : List (Ref sig .tc))) : V7 m outs c r = V0 m c r :=
  (V7_of m outs c r h6).trans (back6 m outs c r h0 h1 h2 h3 h4 h5)

theorem back8 (r : Ref sig .tc) (h0 : r ∉ hostOps0_W) (h1 : r ∉ hostOps0_1_W) (h2 : r ∉ hostOps0_2_W)
    (h3 : r ∉ ([main_v11] : List (Ref sig .tc))) (h4 : r ∉ hostOps1_W) (h5 : r ∉ hostOps1_1_W)
    (h6 : r ∉ ([main_v19] : List (Ref sig .tc))) (h7 : r ∉ hostOps2_W) : V8 m outs c r = V0 m c r :=
  (V8_of m outs c r h7).trans (back7 m outs c r h0 h1 h2 h3 h4 h5 h6)

/-! ## What a region has just written, read at its own buffer -/

theorem V4_v11 : (V4 m outs c main_v11 : S200000x64.Idx → EReal) = outs 4 main_v11 c := by
  show Function.update (V3 m c) (Proc.devRef .tc main_v11) (outs 4 main_v11 c) (Proc.devRef .tc main_v11) = _
  rw [Function.update_self]

theorem V7_v19 : (V7 m outs c main_v19 : S200000x64.Idx → EReal) = outs 7 main_v19 c := by
  show Function.update (V6 m outs c) (Proc.devRef .tc main_v19) (outs 7 main_v19 c) (Proc.devRef .tc main_v19) = _
  rw [Function.update_self]

theorem V9_v24_0 : (V9 m outs c main_v24_0 : S256x8.Idx → EReal) = outs 9 main_v24_0 c := by
  show Function.update (Function.update (V8 m outs c) (Proc.devRef .tc main_v24_0) (outs 9 main_v24_0 c))
      (Proc.devRef .tc main_v24_1) (outs 9 main_v24_1 c) (Proc.devRef .tc main_v24_0) = _
  rw [Function.update_of_ne (StableHlo.devRef_ne_of_ne (by decide)), Function.update_self]

theorem V9_v24_1 : (V9 m outs c main_v24_1 : S256x24.Idx → EReal) = outs 9 main_v24_1 c := by
  show Function.update (Function.update (V8 m outs c) (Proc.devRef .tc main_v24_0) (outs 9 main_v24_0 c))
      (Proc.devRef .tc main_v24_1) (outs 9 main_v24_1 c) (Proc.devRef .tc main_v24_1) = _
  rw [Function.update_self]

/-! ## The re-laid buffers as functions of what was re-laid -/

theorem v8_fn : (V3 m c main_v8 : S1x1.Idx → EReal)
    = shapeCast S1x1 (V2 m c main_arg7 : S_.Idx → EReal) shapeCasts_S_S1x1 := by
  show StableHlo.after hostOps0_2 _ (Proc.devRef .tc main_v8) = _
  after_results
  rfl
theorem v9_fn : (V3 m c main_v9 : S1x64.Idx → EReal)
    = shapeCast S1x64 (V2 m c main_arg4 : S64.Idx → EReal) shapeCasts_S64_S1x64 := by
  show StableHlo.after hostOps0_2 _ (Proc.devRef .tc main_v9) = _
  after_results
  rfl
theorem v10_fn : (V3 m c main_v10 : S1x64.Idx → EReal)
    = shapeCast S1x64 (V2 m c main_arg6 : S64.Idx → EReal) shapeCasts_S64_S1x64 := by
  show StableHlo.after hostOps0_2 _ (Proc.devRef .tc main_v10) = _
  after_results
  rfl
theorem v16_fn : (V6 m outs c main_v16 : S1x1.Idx → EReal)
    = shapeCast S1x1 (V5 m outs c main_arg12 : S_.Idx → EReal) shapeCasts_S_S1x1 := by
  show StableHlo.after hostOps1_1 _ (Proc.devRef .tc main_v16) = _
  after_results
  rfl
theorem v17_fn : (V6 m outs c main_v17 : S1x64.Idx → EReal)
    = shapeCast S1x64 (V5 m outs c main_arg9 : S64.Idx → EReal) shapeCasts_S64_S1x64 := by
  show StableHlo.after hostOps1_1 _ (Proc.devRef .tc main_v17) = _
  after_results
  rfl
theorem v18_fn : (V6 m outs c main_v18 : S1x64.Idx → EReal)
    = shapeCast S1x64 (V5 m outs c main_arg11 : S64.Idx → EReal) shapeCasts_S64_S1x64 := by
  show StableHlo.after hostOps1_1 _ (Proc.devRef .tc main_v18) = _
  after_results
  rfl
theorem v20_fn : (V8 m outs c main_v20 : S200000x1.Idx → BitVec 32)
    = shapeCast S200000x1 (V7 m outs c main_arg2 : S200000.Idx → BitVec 32) shapeCasts_S200000_S200000x1 := by
  show StableHlo.after hostOps2 _ (Proc.devRef .tc main_v20) = _
  after_results
  rfl
theorem v21_fn : (V8 m outs c main_v21 : S1x32.Idx → EReal)
    = shapeCast S1x32 (V7 m outs c main_arg14 : S32.Idx → EReal) shapeCasts_S32_S1x32 := by
  show StableHlo.after hostOps2 _ (Proc.devRef .tc main_v21) = _
  after_results
  rfl
theorem v22_fn : (V8 m outs c main_v22 : S1x8.Idx → EReal)
    = shapeCast S1x8 (V7 m outs c main_arg16 : S8.Idx → EReal) shapeCasts_S8_S1x8 := by
  show StableHlo.after hostOps2 _ (Proc.devRef .tc main_v22) = _
  after_results
  rfl
theorem v23_fn : (V8 m outs c main_v23 : S1x24.Idx → EReal)
    = shapeCast S1x24 (V7 m outs c main_arg18 : S24.Idx → EReal) shapeCasts_S24_S1x24 := by
  show StableHlo.after hostOps2 _ (Proc.devRef .tc main_v23) = _
  after_results
  rfl
theorem v25_fn : (V10 m outs c main_v25 : S256x3x8.Idx → EReal)
    = shapeCast S256x3x8 (V9 m outs c main_v24_1 : S256x24.Idx → EReal) shapeCasts_S256x24_S256x3x8 := by
  show StableHlo.after hostOps3 _ (Proc.devRef .tc main_v25) = _
  after_results
  rfl

/-! ## Layer 1 -/

theorem host_l1_eps : (V3 m c main_v8 : S1x1.Idx → EReal) (ix2 (0 : Fin 1) (0 : Fin 1)) = x7 m c ix0 := by
  rw [v8_fn m c, cast_scalar]
  exact congrFun (back2 m c main_arg7 (by decide) (by decide)) ix0
theorem host_l1_ba (k : Fin 64) : (V3 m c main_v9 : S1x64.Idx → EReal) (ix2 (0 : Fin 1) k) = x4 m c (ix1 k) := by
  rw [v9_fn m c, shapeCast_a_1a_apply]
  exact congrFun (back2 m c main_arg4 (by decide) (by decide)) (ix1 k)
theorem host_l1_bb (k : Fin 64) : (V3 m c main_v10 : S1x64.Idx → EReal) (ix2 (0 : Fin 1) k) = x6 m c (ix1 k) := by
  rw [v10_fn m c, shapeCast_a_1a_apply]
  exact congrFun (back2 m c main_arg6 (by decide) (by decide)) (ix1 k)
theorem host_l1_h : (V3 m c main_arg0 : S200000x10.Idx → EReal) = x0 m c :=
  back3 m c main_arg0 (by decide) (by decide) (by decide)
theorem host_l1_Wa : (V3 m c main_arg3 : S10x64.Idx → EReal) = x3 m c :=
  back3 m c main_arg3 (by decide) (by decide) (by decide)
theorem host_l1_Wb : (V3 m c main_arg5 : S64x64.Idx → EReal) = x5 m c :=
  back3 m c main_arg5 (by decide) (by decide) (by decide)

/-! ## Layer 2 -/

theorem host_l2_h : (V6 m outs c main_v11 : S200000x64.Idx → EReal) = outs 4 main_v11 c :=
  (V6_of m outs c main_v11 (by decide)).trans <| (V5_of m outs c main_v11 (by decide)).trans (V4_v11 m outs c)
theorem host_l2_eps : (V6 m outs c main_v16 : S1x1.Idx → EReal) (ix2 (0 : Fin 1) (0 : Fin 1)) = x12 m c ix0 := by
  rw [v16_fn m outs c, cast_scalar]
  exact congrFun (back5 m outs c main_arg12 (by decide) (by decide) (by decide) (by decide) (by decide)) ix0
theorem host_l2_ba (k : Fin 64) : (V6 m outs c main_v17 : S1x64.Idx → EReal) (ix2 (0 : Fin 1) k) = x9 m c (ix1 k) := by
  rw [v17_fn m outs c, shapeCast_a_1a_apply]
  exact congrFun (back5 m outs c main_arg9 (by decide) (by decide) (by decide) (by decide) (by decide)) (ix1 k)
theorem host_l2_bb (k : Fin 64) : (V6 m outs c main_v18 : S1x64.Idx → EReal) (ix2 (0 : Fin 1) k) = x11 m c (ix1 k) := by
  rw [v18_fn m outs c, shapeCast_a_1a_apply]
  exact congrFun (back5 m outs c main_arg11 (by decide) (by decide) (by decide) (by decide) (by decide)) (ix1 k)
theorem host_l2_Wa : (V6 m outs c main_arg8 : S64x64.Idx → EReal) = x8 m c :=
  back6 m outs c main_arg8 (by decide) (by decide) (by decide) (by decide) (by decide) (by decide)
theorem host_l2_Wb : (V6 m outs c main_arg10 : S64x64.Idx → EReal) = x10 m c :=
  back6 m outs c main_arg10 (by decide) (by decide) (by decide) (by decide) (by decide) (by decide)

/-! ## The pool and the heads -/

theorem host_p_h : (V8 m outs c main_v19 : S200000x64.Idx → EReal) = outs 7 main_v19 c :=
  (V8_of m outs c main_v19 (by decide)).trans (V7_v19 m outs c)
theorem host_p_lab (n : Fin 200000) : (V8 m outs c main_v20 : S200000x1.Idx → BitVec 32) (ix2 n (0 : Fin 1)) = x2 m c (ix1 n) := by
  rw [v20_fn m outs c, cast_col]
  exact congrFun (back7 m outs c main_arg2 (by decide) (by decide) (by decide) (by decide) (by decide) (by decide) (by decide)) (ix1 n)
theorem host_p_b1 (k : Fin 32) : (V8 m outs c main_v21 : S1x32.Idx → EReal) (ix2 (0 : Fin 1) k) = x14 m c (ix1 k) := by
  rw [v21_fn m outs c, shapeCast_a_1a_apply]
  exact congrFun (back7 m outs c main_arg14 (by decide) (by decide) (by decide) (by decide) (by decide) (by decide) (by decide)) (ix1 k)
theorem host_p_b2 (o : Fin 8) : (V8 m outs c main_v22 : S1x8.Idx → EReal) (ix2 (0 : Fin 1) o) = x16 m c (ix1 o) := by
  rw [v22_fn m outs c, shapeCast_a_1a_apply]
  exact congrFun (back7 m outs c main_arg16 (by decide) (by decide) (by decide) (by decide) (by decide) (by decide) (by decide)) (ix1 o)
theorem host_p_bo (q : Fin 24) : (V8 m outs c main_v23 : S1x24.Idx → EReal) (ix2 (0 : Fin 1) q) = x18 m c (ix1 q) := by
  rw [v23_fn m outs c, shapeCast_a_1a_apply]
  exact congrFun (back7 m outs c main_arg18 (by decide) (by decide) (by decide) (by decide) (by decide) (by decide) (by decide)) (ix1 q)
theorem host_p_W1 : (V8 m outs c main_arg13 : S64x32.Idx → EReal) = x13 m c :=
  back8 m outs c main_arg13 (by decide) (by decide) (by decide) (by decide) (by decide) (by decide) (by decide) (by decide)
theorem host_p_W2 : (V8 m outs c main_arg15 : S32x8.Idx → EReal) = x15 m c :=
  back8 m outs c main_arg15 (by decide) (by decide) (by decide) (by decide) (by decide) (by decide) (by decide) (by decide)
theorem host_p_Wo : (V8 m outs c main_arg17 : S64x24.Idx → EReal) = x17 m c :=
  back8 m outs c main_arg17 (by decide) (by decide) (by decide) (by decide) (by decide) (by decide) (by decide) (by decide)

/-! ## The results -/

theorem host_out0 : (V10 m outs c main_v24_0 : S256x8.Idx → EReal) = outs 9 main_v24_0 c :=
  (V10_of m outs c main_v24_0 (by decide)).trans (V9_v24_0 m outs c)
theorem host_out1 (g : Fin 256) (a : Fin 3) (b : Fin 8) :
    (V10 m outs c main_v25 : S256x3x8.Idx → EReal) (ix3 g a b)
      = (outs 9 main_v24_1 c : S256x24.Idx → EReal) (ix2 g (⟨8 * a.val + b.val, by omega⟩ : Fin 24)) := by
  rw [v25_fn m outs c, cast_split]
  exact congrFun (V9_v24_1 m outs c) _

end Cert.KernelIdeal.HandV

end
-- ==== Proof.RefVal.lean ====
import proofs.«403875_j79474074845433_2_alg».proof.Proof.Gen.ReferenceIdeal.Read
import proofs.«403875_j79474074845433_2_alg».proof.Proof.Spec
import Idealize.ShloMosaic.Lib.ValueIdx
import Idealize.ShloMosaic.PureOps.Ideal.Laws
import Idealize.ShloMosaic.Lib.StableHlo.Predicate

/-!
  The reference program, stage by stage, computes the specification's functions: each layer's output row is
  `convAt` of the layer's input rows and neighbour sums, the pooled rows are `poolAt` of the second layer's rows and
  the graph labels, and the two results are `presAt` and `ordAt` of the pooled rows.
-/

noncomputable section

namespace Cert.ReferenceIdeal.RefVal

open Cert.ReferenceIdeal Cert.ReferenceIdeal.Gen Cert.ReferenceIdeal.Read Idealize.ShloMosaic Idealize.ShloMosaic.ValueIdx

variable (x0 : (⟨S200000x10, .f32⟩ : BufTy).Contents (Elt Ideal)) (x1 : (⟨S2x1000000, .i32⟩ : BufTy).Contents (Elt Ideal))
  (x2 : (⟨S200000, .i32⟩ : BufTy).Contents (Elt Ideal)) (x3 : (⟨S10x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S_, .f32⟩ : BufTy).Contents (Elt Ideal))
  (x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal))
  (x12 : (⟨S_, .f32⟩ : BufTy).Contents (Elt Ideal)) (x13 : (⟨S64x32, .f32⟩ : BufTy).Contents (Elt Ideal))
  (x14 : (⟨S32, .f32⟩ : BufTy).Contents (Elt Ideal)) (x15 : (⟨S32x8, .f32⟩ : BufTy).Contents (Elt Ideal))
  (x16 : (⟨S8, .f32⟩ : BufTy).Contents (Elt Ideal)) (x17 : (⟨S64x24, .f32⟩ : BufTy).Contents (Elt Ideal))
  (x18 : (⟨S24, .f32⟩ : BufTy).Contents (Elt Ideal))

/-! ### The first layer -/

/-- The layer's combined input: `(1 + ε) · x + agg`. -/
theorem ref_z1 (n : Fin 200000) (j : Fin 10) :
    val_main_v17 (F := Ideal) x0 x1 x7 (ix2 n j)
      = Cert.Spec.zAt (x7 ix0) (fun n j => x0 (ix2 n j)) (fun n j => val_main_v13 (F := Ideal) x0 x1 (ix2 n j)) n j := by
  rw [val_main_v17_apply, val_main_v16_apply, val_main_v15_apply, val_main_v14_apply, val_main_cst_1_apply]
  generalize val_main_v13 (F := Ideal) x0 x1 = agg
  rfl

/-- The hidden row: the first affine map and the maximum with zero. -/
theorem ref_hid1 (n : Fin 200000) (k : Fin 64) :
    val_main_v23 (F := Ideal) x0 x1 x3 x4 x7 (ix2 n k)
      = Cert.Spec.hidAt (x7 ix0) (fun n j => x0 (ix2 n j)) (fun n j => val_main_v13 (F := Ideal) x0 x1 (ix2 n j))
          (fun j k => x3 (ix2 j k)) (fun k => x4 (ix1 k)) n k := by
  have hl : ∀ j : Fin 10, lidx_main_v18 (ix2 n k) j = ix2 n j := fun j =>
    funext fun a => Fin.ext (by match a with | ⟨0, _⟩ => rfl | ⟨1, _⟩ => rfl)
  have hr : ∀ j : Fin 10, ridx_main_v18 (ix2 n k) j = ix2 j k := fun j =>
    funext fun a => Fin.ext (by match a with | ⟨0, _⟩ => rfl | ⟨1, _⟩ => rfl)
  have hb : idx_main_v19 (idx_main_v20 (ix2 n k)) = ix1 k :=
    funext fun a => Fin.ext (by match a with | ⟨0, _⟩ => rfl)
  rw [val_main_v23_apply, val_main_v21_apply, val_main_v18_apply, val_main_v20_apply, val_main_v19_apply,
    val_main_v22_apply, val_main_cst_2_apply, hb]
  simp only [hl, hr, ref_z1]
  generalize val_main_v13 (F := Ideal) x0 x1 = agg
  rfl

/-- The first layer's output row. -/
theorem ref_l1 (n : Fin 200000) (d : Fin 64) :
    val_main_v29 (F := Ideal) x0 x1 x3 x4 x5 x6 x7 (ix2 n d)
      = Cert.Spec.convAt (x7 ix0) (fun n j => x0 (ix2 n j)) (fun n j => val_main_v13 (F := Ideal) x0 x1 (ix2 n j))
          (fun j k => x3 (ix2 j k)) (fun k => x4 (ix1 k)) (fun k d => x5 (ix2 k d)) (fun d => x6 (ix1 d)) n d := by
  have hl : ∀ k : Fin 64, lidx_main_v24 (ix2 n d) k = ix2 n k := fun k =>
    funext fun a => Fin.ext (by match a with | ⟨0, _⟩ => rfl | ⟨1, _⟩ => rfl)
  have hr : ∀ k : Fin 64, ridx_main_v24 (ix2 n d) k = ix2 k d := fun k =>
    funext fun a => Fin.ext (by match a with | ⟨0, _⟩ => rfl | ⟨1, _⟩ => rfl)
  have hb : idx_main_v25 (idx_main_v26 (ix2 n d)) = ix1 d :=
    funext fun a => Fin.ext (by match a with | ⟨0, _⟩ => rfl)
  rw [val_main_v29_apply, val_main_v27_apply, val_main_v24_apply, val_main_v26_apply, val_main_v25_apply,
    val_main_v28_apply, val_main_cst_3_apply, hb]
  simp only [hl, hr, ref_hid1]
  generalize val_main_v13 (F := Ideal) x0 x1 = agg
  rfl

/-! ### The second layer -/

/-- The layer's combined input: `(1 + ε) · h + agg` over the first layer's rows. -/
theorem ref_z2 (n : Fin 200000) (j : Fin 64) :
    val_main_v43 (F := Ideal) x0 x1 x3 x4 x5 x6 x7 x12 (ix2 n j)
      = Cert.Spec.zAt (x12 ix0) (fun n j => val_main_v29 (F := Ideal) x0 x1 x3 x4 x5 x6 x7 (ix2 n j))
          (fun n j => val_main_v39 (F := Ideal) x0 x1 x3 x4 x5 x6 x7 (ix2 n j)) n j := by
  rw [val_main_v43_apply, val_main_v42_apply, val_main_v41_apply, val_main_v40_apply, val_main_cst_7_apply]
  generalize val_main_v29 (F := Ideal) x0 x1 x3 x4 x5 x6 x7 = h
  generalize val_main_v39 (F := Ideal) x0 x1 x3 x4 x5 x6 x7 = agg
  rfl

/-- The hidden row of the second layer. -/
theorem ref_hid2 (n : Fin 200000) (k : Fin 64) :
    val_main_v49 (F := Ideal) x0 x1 x3 x4 x5 x6 x7 x8 x9 x12 (ix2 n k)
      = Cert.Spec.hidAt (x12 ix0) (fun n j => val_main_v29 (F := Ideal) x0 x1 x3 x4 x5 x6 x7 (ix2 n j))
          (fun n j => val_main_v39 (F := Ideal) x0 x1 x3 x4 x5 x6 x7 (ix2 n j))
          (fun j k => x8 (ix2 j k)) (fun k => x9 (ix1 k)) n k := by
  have hl : ∀ j : Fin 64, lidx_main_v44 (ix2 n k) j = ix2 n j := fun j =>
    funext fun a => Fin.ext (by match a with | ⟨0, _⟩ => rfl | ⟨1, _⟩ => rfl)
  have hr : ∀ j : Fin 64, ridx_main_v44 (ix2 n k) j = ix2 j k := fun j =>
    funext fun a => Fin.ext (by match a with | ⟨0, _⟩ => rfl | ⟨1, _⟩ => rfl)
  have hb : idx_main_v45 (idx_main_v46 (ix2 n k)) = ix1 k :=
    funext fun a => Fin.ext (by match a with | ⟨0, _⟩ => rfl)
  rw [val_main_v49_apply, val_main_v47_apply, val_main_v44_apply, val_main_v46_apply, val_main_v45_apply,
    val_main_v48_apply, val_main_cst_8_apply, hb]
  simp only [hl, hr, ref_z2]
  generalize val_main_v29 (F := Ideal) x0 x1 x3 x4 x5 x6 x7 = h
  generalize val_main_v39 (F := Ideal) x0 x1 x3 x4 x5 x6 x7 = agg
  rfl

/-- The second layer's output row. -/
theorem ref_l2 (n : Fin 200000) (d : Fin 64) :
    val_main_v55 (F := Ideal) x0 x1 x3 x4 x5 x6 x7 x8 x9 x10 x11 x12 (ix2 n d)
      = Cert.Spec.convAt (x12 ix0) (fun n j => val_main_v29 (F := Ideal) x0 x1 x3 x4 x5 x6 x7 (ix2 n j))
          (fun n j => val_main_v39 (F := Ideal) x0 x1 x3 x4 x5 x6 x7 (ix2 n j))
          (fun j k => x8 (ix2 j k)) (fun k => x9 (ix1 k)) (fun k d => x10 (ix2 k d)) (fun d => x11 (ix1 d)) n d := by
  have hl : ∀ k : Fin 64, lidx_main_v50 (ix2 n d) k = ix2 n k := fun k =>
    funext fun a => Fin.ext (by match a with | ⟨0, _⟩ => rfl | ⟨1, _⟩ => rfl)
  have hr : ∀ k : Fin 64, ridx_main_v50 (ix2 n d) k = ix2 k d := fun k =>
    funext fun a => Fin.ext (by match a with | ⟨0, _⟩ => rfl | ⟨1, _⟩ => rfl)
  have hb : idx_main_v51 (idx_main_v52 (ix2 n d)) = ix1 d :=
    funext fun a => Fin.ext (by match a with | ⟨0, _⟩ => rfl)
  rw [val_main_v55_apply, val_main_v53_apply, val_main_v50_apply, val_main_v52_apply, val_main_v51_apply,
    val_main_v54_apply, val_main_cst_9_apply, hb]
  simp only [hl, hr, ref_hid2]
  generalize val_main_v29 (F := Ideal) x0 x1 x3 x4 x5 x6 x7 = h
  generalize val_main_v39 (F := Ideal) x0 x1 x3 x4 x5 x6 x7 = agg
  rfl
/-! ### The pooling scatter: one start index per row

  Update `(n, d')` of the pooling scatter lands on operand element `(g, d)` exactly when `d' = d` and the label word of
  row `n`, read signed, is `g` with `0 ≤ g < 256`: the row axis takes its start from the label and has no window
  coordinate, the feature axis has start `0` and the update's own feature coordinate as its window coordinate. -/

/-- The scatter's start on the row axis is the label word of the update's row, read signed. -/
theorem pool_start0 (j : S200000x64.Idx) (idx : IVec S200000x1 32) :
    scatter_S256x64_S200000x1_S200000x64_1_0_0_1.start j idx 0 = (idx (ix2 (j 0) (0 : Fin 1))).toInt := by
  unfold ScatterDims.start
  rw [dif_pos (show (0 : Fin S256x64.rank) ∈ scatter_S256x64_S200000x1_S200000x64_1_0_0_1.scatterDimsToOperandDims by decide)]
  have hsi : scatter_S256x64_S200000x1_S200000x64_1_0_0_1.siIdx j
      ⟨List.idxOf (0 : Fin S256x64.rank) scatter_S256x64_S200000x1_S200000x64_1_0_0_1.scatterDimsToOperandDims,
        List.idxOf_lt_length_iff.2 (show (0 : Fin S256x64.rank) ∈ scatter_S256x64_S200000x1_S200000x64_1_0_0_1.scatterDimsToOperandDims by decide)⟩
      = ix2 (j 0) (0 : Fin 1) := by
    funext b; refine Fin.ext ?_
    match b with
    | ⟨0, _⟩ => rfl
    | ⟨1, _⟩ => rfl
  rw [hsi]
  rfl

/-- On the feature axis the start is `0`. -/
theorem pool_start1 (j : S200000x64.Idx) (idx : IVec S200000x1 32) :
    scatter_S256x64_S200000x1_S200000x64_1_0_0_1.start j idx 1 = 0 := by
  unfold ScatterDims.start
  rw [dif_neg (show ¬ (1 : Fin S256x64.rank) ∈ scatter_S256x64_S200000x1_S200000x64_1_0_0_1.scatterDimsToOperandDims by decide)]

/-- The row axis is an inserted one: no window coordinate. -/
theorem pool_window0 (j : S200000x64.Idx) :
    scatter_S256x64_S200000x1_S200000x64_1_0_0_1.window j 0 = 0 := by
  unfold ScatterDims.window
  rw [dif_neg (show ¬ (0 : Fin S256x64.rank) ∈ scatter_S256x64_S200000x1_S200000x64_1_0_0_1.sKept by decide)]

/-- The feature axis' window coordinate is the update's feature coordinate. -/
theorem pool_window1 (j : S200000x64.Idx) :
    scatter_S256x64_S200000x1_S200000x64_1_0_0_1.window j 1 = (j 1).val := by
  unfold ScatterDims.window
  rw [dif_pos (show (1 : Fin S256x64.rank) ∈ scatter_S256x64_S200000x1_S200000x64_1_0_0_1.sKept by decide)]
  rfl

/-- Where update `(n, d')` of the pooling scatter lands. -/
theorem pool_lands (idx : IVec S200000x1 32) (n : Fin 200000) (d' : Fin 64) (g : Fin 256) (d : Fin 64) :
    scatter_S256x64_S200000x1_S200000x64_1_0_0_1.resultIdx? (ix2 n d') idx = some (ix2 g d)
      ↔ idx (ix2 n (0 : Fin 1)) = BitVec.ofNat 32 g.val ∧ d' = d := by
  have hg : g.val < 256 := g.isLt
  have hd : d.val < 64 := d.isLt
  have hd' : d'.val < 64 := d'.isLt
  have e0 : scatter_S256x64_S200000x1_S200000x64_1_0_0_1.start (ix2 n d') idx 0 + (scatter_S256x64_S200000x1_S200000x64_1_0_0_1.window (ix2 n d') 0 : Int)
      = (idx (ix2 n (0 : Fin 1))).toInt := by
    rw [pool_start0, pool_window0]; simp
  have e1 : scatter_S256x64_S200000x1_S200000x64_1_0_0_1.start (ix2 n d') idx 1 + (scatter_S256x64_S200000x1_S200000x64_1_0_0_1.window (ix2 n d') 1 : Int)
      = (d'.val : Int) := by
    rw [pool_start1, pool_window1]; simp
  unfold ScatterDims.resultIdx?
  constructor
  · intro h
    split at h
    · rename_i hin
      have hf := Option.some.inj h
      have h0 := congrArg (fun f => (f 0).val) hf
      have h1 := congrArg (fun f => (f 1).val) hf
      simp only [] at h0 h1
      have h0' : (idx (ix2 n (0 : Fin 1))).toInt.toNat = g.val := by rw [← e0]; exact h0
      have h1' : (d'.val : Int).toNat = d.val := by rw [← e1]; exact h1
      have hnn : 0 ≤ (idx (ix2 n (0 : Fin 1))).toInt := by rw [← e0]; exact (hin 0).1
      refine ⟨?_, Fin.ext (by omega)⟩
      apply BitVec.eq_of_toInt_eq
      rw [StableHlo.Predicate.toInt_ofNat_small g.val (by omega)]
      omega
    · exact absurd h (by simp)
  · rintro ⟨hw, rfl⟩
    have hi : (idx (ix2 n (0 : Fin 1))).toInt = (g.val : Int) := by
      rw [hw, StableHlo.Predicate.toInt_ofNat_small g.val (by omega)]
    have hin0 : 0 ≤ scatter_S256x64_S200000x1_S200000x64_1_0_0_1.start (ix2 n d') idx 0 + (scatter_S256x64_S200000x1_S200000x64_1_0_0_1.window (ix2 n d') 0 : Int)
        ∧ scatter_S256x64_S200000x1_S200000x64_1_0_0_1.start (ix2 n d') idx 0 + (scatter_S256x64_S200000x1_S200000x64_1_0_0_1.window (ix2 n d') 0 : Int) < (S256x64.size 0 : Int) :=
      ⟨by rw [e0, hi]; omega, by rw [e0, hi]; show (g.val : Int) < 256; omega⟩
    have hin1 : 0 ≤ scatter_S256x64_S200000x1_S200000x64_1_0_0_1.start (ix2 n d') idx 1 + (scatter_S256x64_S200000x1_S200000x64_1_0_0_1.window (ix2 n d') 1 : Int)
        ∧ scatter_S256x64_S200000x1_S200000x64_1_0_0_1.start (ix2 n d') idx 1 + (scatter_S256x64_S200000x1_S200000x64_1_0_0_1.window (ix2 n d') 1 : Int) < (S256x64.size 1 : Int) :=
      ⟨by rw [e1]; omega, by rw [e1]; show (d'.val : Int) < 64; omega⟩
    have hin : ∀ a, 0 ≤ scatter_S256x64_S200000x1_S200000x64_1_0_0_1.start (ix2 n d') idx a + (scatter_S256x64_S200000x1_S200000x64_1_0_0_1.window (ix2 n d') a : Int)
        ∧ scatter_S256x64_S200000x1_S200000x64_1_0_0_1.start (ix2 n d') idx a + (scatter_S256x64_S200000x1_S200000x64_1_0_0_1.window (ix2 n d') a : Int) < (S256x64.size a : Int) :=
      fun a => match a with
      | ⟨0, _⟩ => hin0
      | ⟨1, _⟩ => hin1
    rw [dif_pos hin]
    congr 1
    funext a; refine Fin.ext ?_
    match a with
    | ⟨0, _⟩ => show (scatter_S256x64_S200000x1_S200000x64_1_0_0_1.start (ix2 n d') idx 0 + (scatter_S256x64_S200000x1_S200000x64_1_0_0_1.window (ix2 n d') 0 : Int)).toNat = g.val; rw [e0, hi]; omega
    | ⟨1, _⟩ => show (scatter_S256x64_S200000x1_S200000x64_1_0_0_1.start (ix2 n d') idx 1 + (scatter_S256x64_S200000x1_S200000x64_1_0_0_1.window (ix2 n d') 1 : Int)).toNat = d'.val; rw [e1]; omega

/-- The pooling scatter at element `(g, d)`: the operand there plus the feature-`d` entries of the rows whose label
    word is `g`'s. The sum over all updates splits by coordinates; in row `n` at most the update `(n, d)` lands. -/
theorem pool_apply (x : S256x64.Idx → EReal) (idx : IVec S200000x1 32) (upd : S200000x64.Idx → EReal) (g : Fin 256) (d : Fin 64) :
    Ideal.hostScatterAdd scatter_S256x64_S200000x1_S200000x64_1_0_0_1 x idx upd (ix2 g d)
      = x (ix2 g d) + ∑ n : Fin 200000, if idx (ix2 n (0 : Fin 1)) = BitVec.ofNat 32 g.val then upd (ix2 n d) else 0 := by
  unfold Ideal.hostScatterAdd
  refine congrArg (x (ix2 g d) + ·) ?_
  rw [Finset.sum_filter, sum_idx2]
  refine Finset.sum_congr rfl fun n _ => ?_
  by_cases hq : idx (ix2 n (0 : Fin 1)) = BitVec.ofNat 32 g.val
  · rw [if_pos hq, Finset.sum_eq_single d]
    · rw [if_pos ((pool_lands idx n d g d).2 ⟨hq, rfl⟩)]
    · intro d' _ hne
      rw [if_neg (fun h => hne ((pool_lands idx n d' g d).1 h).2)]
    · intro h; exact absurd (Finset.mem_univ d) h
  · rw [if_neg hq]
    exact Finset.sum_eq_zero fun d' _ => if_neg (fun h => hq ((pool_lands idx n d' g d).1 h).1)

/-- The pooled rows. -/
theorem ref_pool (g : Fin 256) (d : Fin 64) :
    val_main_v58 (F := Ideal) x0 x1 x2 x3 x4 x5 x6 x7 x8 x9 x10 x11 x12 (ix2 g d)
      = Cert.Spec.poolAt (fun n j => val_main_v55 (F := Ideal) x0 x1 x3 x4 x5 x6 x7 x8 x9 x10 x11 x12 (ix2 n j)) (fun n => x2 (ix1 n)) g d := by
  have hb : ∀ n : Fin 200000, idx_main_v57 (ix2 n (0 : Fin 1)) = ix1 n := fun n =>
    funext fun a => Fin.ext (by match a with | ⟨0, _⟩ => rfl)
  unfold val_main_v58
  generalize val_main_v55 (F := Ideal) x0 x1 x3 x4 x5 x6 x7 x8 x9 x10 x11 x12 = h
  simp only [Host.scatterAdd, Ideal.hostScatterAdd_def]
  rw [pool_apply, val_main_v56_apply, val_main_cst_10_apply]
  simp only [val_main_v57_apply, hb]
  show Ideal.ofBits .f32 0x00000000#32 + _ = _
  rw [Ideal.ofBits_zero_f32, zero_add]
  rfl

/-! ### The two heads -/

/-- The word of `1.0` is the number one. -/
theorem ofBits_one_f32 : Ideal.ofBits .f32 0x3F800000#32 = 1 := by
  simp [Ideal.ofBits, Ideal.ieee, -EReal.coe_mul]; norm_num

/-- The first head's rectified layer over the pooled rows. -/
theorem ref_pres_hid (g : Fin 256) (k : Fin 32) :
    val_main_v64 (F := Ideal) x0 x1 x2 x3 x4 x5 x6 x7 x8 x9 x10 x11 x12 x13 x14 (ix2 g k)
      = max ((∑ j : Fin 64, val_main_v58 (F := Ideal) x0 x1 x2 x3 x4 x5 x6 x7 x8 x9 x10 x11 x12 (ix2 g j) * x13 (ix2 j k)) + x14 (ix1 k)) Cert.Spec.zero := by
  have hl : ∀ j : Fin 64, lidx_main_v59 (ix2 g k) j = ix2 g j := fun j =>
    funext fun a => Fin.ext (by match a with | ⟨0, _⟩ => rfl | ⟨1, _⟩ => rfl)
  have hr : ∀ j : Fin 64, ridx_main_v59 (ix2 g k) j = ix2 j k := fun j =>
    funext fun a => Fin.ext (by match a with | ⟨0, _⟩ => rfl | ⟨1, _⟩ => rfl)
  have hb : idx_main_v60 (idx_main_v61 (ix2 g k)) = ix1 k :=
    funext fun a => Fin.ext (by match a with | ⟨0, _⟩ => rfl)
  rw [val_main_v64_apply, val_main_v62_apply, val_main_v59_apply, val_main_v61_apply, val_main_v60_apply,
    val_main_v63_apply, val_main_cst_11_apply, hb]
  simp only [hl, hr]
  generalize val_main_v58 (F := Ideal) x0 x1 x2 x3 x4 x5 x6 x7 x8 x9 x10 x11 x12 = p
  rfl

/-- The first head: the logistic function of the second affine map, the reference spelling it `1 / (1 + e⁻ˣ)`. -/
theorem ref_pres (g : Fin 256) (o : Fin 8) :
    val_main_v74 (F := Ideal) x0 x1 x2 x3 x4 x5 x6 x7 x8 x9 x10 x11 x12 x13 x14 x15 x16 (ix2 g o)
      = Cert.Spec.presAt (fun g j => val_main_v58 (F := Ideal) x0 x1 x2 x3 x4 x5 x6 x7 x8 x9 x10 x11 x12 (ix2 g j))
          (fun j k => x13 (ix2 j k)) (fun k => x14 (ix1 k)) (fun k o => x15 (ix2 k o)) (fun o => x16 (ix1 o)) g o := by
  have hl : ∀ k : Fin 32, lidx_main_v65 (ix2 g o) k = ix2 g k := fun k =>
    funext fun a => Fin.ext (by match a with | ⟨0, _⟩ => rfl | ⟨1, _⟩ => rfl)
  have hr : ∀ k : Fin 32, ridx_main_v65 (ix2 g o) k = ix2 k o := fun k =>
    funext fun a => Fin.ext (by match a with | ⟨0, _⟩ => rfl | ⟨1, _⟩ => rfl)
  have hb : idx_main_v66 (idx_main_v67 (ix2 g o)) = ix1 o :=
    funext fun a => Fin.ext (by match a with | ⟨0, _⟩ => rfl)
  rw [val_main_v74_apply, val_main_v73_apply, val_main_cst_13_apply, val_main_v72_apply, val_main_v71_apply,
    val_main_cst_12_apply, val_main_v70_apply, val_main_v69_apply, val_main_v68_apply, val_main_v65_apply,
    val_main_v67_apply, val_main_v66_apply, hb]
  simp only [hl, hr, ref_pres_hid]
  generalize val_main_v58 (F := Ideal) x0 x1 x2 x3 x4 x5 x6 x7 x8 x9 x10 x11 x12 = p
  show Ideal.div (Ideal.ofBits .f32 0x3F800000#32) (Ideal.ofBits .f32 0x3F800000#32 + Ideal.exp (-_)) = _
  rw [ofBits_one_f32]
  rfl

/-- The second head: one affine map of the pooled row, its 24 columns laid out as 3 × 8. -/
theorem ref_ord (g : Fin 256) (a : Fin 3) (b : Fin 8) :
    val_main_v79 (F := Ideal) x0 x1 x2 x3 x4 x5 x6 x7 x8 x9 x10 x11 x12 x17 x18 (ix3 g a b)
      = Cert.Spec.ordAt (fun g j => val_main_v58 (F := Ideal) x0 x1 x2 x3 x4 x5 x6 x7 x8 x9 x10 x11 x12 (ix2 g j))
          (fun j q => x17 (ix2 j q)) (fun q => x18 (ix1 q)) g ⟨8 * a.val + b.val, by omega⟩ := by
  have ha : a.val < 3 := a.isLt
  have hb' : b.val < 8 := b.isLt
  have hg : g.val < 256 := g.isLt
  have hi : idx_main_v79 (ix3 g a b) = ix2 g (⟨8 * a.val + b.val, by omega⟩ : Fin 24) :=
    funext fun c => Fin.ext (by
      match c with
      | ⟨0, _⟩ => show ((g.val * 3 + a.val) * 8 + b.val) / 24 = g.val; omega
      | ⟨1, _⟩ => show ((g.val * 3 + a.val) * 8 + b.val) % 24 = 8 * a.val + b.val; omega)
  rw [val_main_v79_apply, hi]
  generalize (⟨8 * a.val + b.val, by omega⟩ : Fin 24) = q
  have hl : ∀ j : Fin 64, lidx_main_v75 (ix2 g q) j = ix2 g j := fun j =>
    funext fun a => Fin.ext (by match a with | ⟨0, _⟩ => rfl | ⟨1, _⟩ => rfl)
  have hr : ∀ j : Fin 64, ridx_main_v75 (ix2 g q) j = ix2 j q := fun j =>
    funext fun a => Fin.ext (by match a with | ⟨0, _⟩ => rfl | ⟨1, _⟩ => rfl)
  have hb : idx_main_v76 (idx_main_v77 (ix2 g q)) = ix1 q :=
    funext fun a => Fin.ext (by match a with | ⟨0, _⟩ => rfl)
  rw [val_main_v78_apply, val_main_v75_apply, val_main_v77_apply, val_main_v76_apply, hb]
  simp only [hl, hr]
  generalize val_main_v58 (F := Ideal) x0 x1 x2 x3 x4 x5 x6 x7 x8 x9 x10 x11 x12 = p
  rfl

end Cert.ReferenceIdeal.RefVal

end
-- ==== Proof.Bridge.lean ====
import proofs.«403875_j79474074845433_2_alg».proof.Proof.KI.Run
import proofs.«403875_j79474074845433_2_alg».proof.Proof.KI.ConvVal0
import proofs.«403875_j79474074845433_2_alg».proof.Proof.KI.ConvVal1
import proofs.«403875_j79474074845433_2_alg».proof.Proof.KI.PoolVal
import proofs.«403875_j79474074845433_2_alg».proof.Proof.KI.HostVal
import proofs.«403875_j79474074845433_2_alg».proof.Proof.KI.HostRead
import proofs.«403875_j79474074845433_2_alg».proof.Proof.RefVal

/-!
  The two programs compute one function.  Stage by stage the kernel program's buffers — the first layer's output
  array, the second layer's, the pooled rows in the carried accumulator, the two results — are the reference's
  stages at the same arguments: each side is the specification's function of the stage before
  (the kernel side by the regions' value lemmas over the host stretches' read-backs, the reference side by its
  stage lemmas), and the stage before is the same on both sides by the previous step.  The source-index
  precondition enters once, where the kernel's guarded gather meets the reference's bare one.
-/

set_option maxRecDepth 16384

noncomputable section

namespace Cert.Proof.Bridge

open Cert.KernelIdeal Cert.KernelIdeal.Gen Cert.KernelIdeal.Hand Cert.KernelIdeal.HandV
open Cert.ReferenceIdeal.Read Cert.ReferenceIdeal.RefVal
open Idealize.ShloMosaic Idealize.ShloMosaic.TcCoe Idealize.ShloMosaic.ValueIdx Idealize.SL.Sem

variable (m : (ℓ : Loc nD τ sig) → Buf (Elt Ideal) ℓ) (c : Dev nD)

/-- The first layer's output array is the reference's first-layer stage. -/
theorem layer1 (hpre : Cert.Pre_KernelIdeal m) :
    (outs m 4 main_v11 c : S200000x64.Idx → EReal)
      = val_main_v29 (F := Ideal) (x0 m c) (x1 m c) (x3 m c) (x4 m c) (x5 m c) (x6 m c) (x7 m c) := by
  funext i
  obtain ⟨n, d, rfl⟩ : ∃ (n : Fin 200000) (d : Fin 64), i = ix2 n d := ⟨i 0, i 1, eq_ix2 i⟩
  refine (congrFun (outs_4 m c) (ix2 n d)).trans ?_
  refine (conv0_arr (Vr0 m) c n d).trans ?_
  refine Eq.trans ?_ (ref_l1 (x0 m c) (x1 m c) (x3 m c) (x4 m c) (x5 m c) (x6 m c) (x7 m c) n d).symm
  have e8 : (Vr0 m c main_v8 : S1x1.Idx → EReal) (ix2 0 0) = x7 m c ix0 := host_l1_eps m c
  have e0 : (Vr0 m c main_arg0 : S200000x10.Idx → EReal) = x0 m c := host_l1_h m c
  have e7 : (Vr0 m c main_v7 : S200000x10.Idx → EReal) = val_main_v13 (F := Ideal) (x0 m c) (x1 m c) := host_agg1 m c hpre
  have e3 : (Vr0 m c main_arg3 : S10x64.Idx → EReal) = x3 m c := host_l1_Wa m c
  have e5 : (Vr0 m c main_arg5 : S64x64.Idx → EReal) = x5 m c := host_l1_Wb m c
  have e9 : ∀ k : Fin 64, (Vr0 m c main_v9 : S1x64.Idx → EReal) (ix2 0 k) = x4 m c (ix1 k) := host_l1_ba m c
  have e10 : ∀ k : Fin 64, (Vr0 m c main_v10 : S1x64.Idx → EReal) (ix2 0 k) = x6 m c (ix1 k) := host_l1_bb m c
  rw [e8, e0, e7, e3, e5]
  simp only [e9, e10]

/-- The second layer's output array is the reference's second-layer stage. -/
theorem layer2 (hpre : Cert.Pre_KernelIdeal m) :
    (outs m 7 main_v19 c : S200000x64.Idx → EReal)
      = val_main_v55 (F := Ideal) (x0 m c) (x1 m c) (x3 m c) (x4 m c) (x5 m c) (x6 m c) (x7 m c) (x8 m c) (x9 m c) (x10 m c) (x11 m c) (x12 m c) := by
  funext i
  obtain ⟨n, d, rfl⟩ : ∃ (n : Fin 200000) (d : Fin 64), i = ix2 n d := ⟨i 0, i 1, eq_ix2 i⟩
  refine (congrFun (outs_7 m c) (ix2 n d)).trans ?_
  refine (conv1_arr (Vr1 m) c n d).trans ?_
  refine Eq.trans ?_ (ref_l2 (x0 m c) (x1 m c) (x3 m c) (x4 m c) (x5 m c) (x6 m c) (x7 m c) (x8 m c) (x9 m c) (x10 m c) (x11 m c) (x12 m c) n d).symm
  have e16 : (Vr1 m c main_v16 : S1x1.Idx → EReal) (ix2 0 0) = x12 m c ix0 := host_l2_eps m (outs m) c
  have e11 : (Vr1 m c main_v11 : S200000x64.Idx → EReal)
      = val_main_v29 (F := Ideal) (x0 m c) (x1 m c) (x3 m c) (x4 m c) (x5 m c) (x6 m c) (x7 m c) :=
    (host_l2_h m (outs m) c).trans (layer1 m c hpre)
  have e15 : (Vr1 m c main_v15 : S200000x64.Idx → EReal)
      = val_main_v39 (F := Ideal) (x0 m c) (x1 m c) (x3 m c) (x4 m c) (x5 m c) (x6 m c) (x7 m c) :=
    host_agg2 m (outs m) c hpre _ (layer1 m c hpre)
  have e8 : (Vr1 m c main_arg8 : S64x64.Idx → EReal) = x8 m c := host_l2_Wa m (outs m) c
  have e10 : (Vr1 m c main_arg10 : S64x64.Idx → EReal) = x10 m c := host_l2_Wb m (outs m) c
  have e17 : ∀ k : Fin 64, (Vr1 m c main_v17 : S1x64.Idx → EReal) (ix2 0 k) = x9 m c (ix1 k) := host_l2_ba m (outs m) c
  have e18 : ∀ k : Fin 64, (Vr1 m c main_v18 : S1x64.Idx → EReal) (ix2 0 k) = x11 m c (ix1 k) := host_l2_bb m (outs m) c
  rw [e16, e11, e15, e8, e10]
  simp only [e17, e18]

/-- The accumulator after the last grid point holds the reference's pooled rows. -/
theorem pooled (hpre : Cert.Pre_KernelIdeal m) (g : Fin 256) (j : Fin 64) :
    accAt2 (Vr2 m) c 39 last_lt (ix2 g j)
      = val_main_v58 (F := Ideal) (x0 m c) (x1 m c) (x2 m c) (x3 m c) (x4 m c) (x5 m c) (x6 m c) (x7 m c) (x8 m c) (x9 m c) (x10 m c) (x11 m c) (x12 m c) (ix2 g j) := by
  refine (pool_acc (Vr2 m) c g j).trans ?_
  refine Eq.trans ?_ (ref_pool (x0 m c) (x1 m c) (x2 m c) (x3 m c) (x4 m c) (x5 m c) (x6 m c) (x7 m c) (x8 m c) (x9 m c) (x10 m c) (x11 m c) (x12 m c) g j).symm
  have e19 : (Vr2 m c main_v19 : S200000x64.Idx → EReal)
      = val_main_v55 (F := Ideal) (x0 m c) (x1 m c) (x3 m c) (x4 m c) (x5 m c) (x6 m c) (x7 m c) (x8 m c) (x9 m c) (x10 m c) (x11 m c) (x12 m c) :=
    (host_p_h m (outs m) c).trans (layer2 m c hpre)
  have e20 : ∀ n : Fin 200000, (Vr2 m c main_v20 : S200000x1.Idx → BitVec 32) (ix2 n 0) = x2 m c (ix1 n) := host_p_lab m (outs m) c
  rw [e19]
  simp only [e20]

/-- The first result. -/
theorem out0_eq (hpre : Cert.Pre_KernelIdeal m) :
    (V10 m (outs m) c main_v24_0 : S256x8.Idx → EReal)
      = val_main_v74 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) := by
  funext i
  obtain ⟨g, o, rfl⟩ : ∃ (g : Fin 256) (o : Fin 8), i = ix2 g o := ⟨i 0, i 1, eq_ix2 i⟩
  refine (congrFun ((host_out0 m (outs m) c).trans (outs_9_0 m c)) (ix2 g o)).trans ?_
  refine (pool_pres (Vr2 m) c g o).trans ?_
  refine Eq.trans ?_ (ref_pres (x0 m c) (x1 m c) (x2 m c) (x3 m c) (x4 m c) (x5 m c) (x6 m c) (x7 m c) (x8 m c) (x9 m c) (x10 m c) (x11 m c) (x12 m c) (x13 m c) (x14 m c) (x15 m c) (x16 m c) g o).symm
  have e13 : (Vr2 m c main_arg13 : S64x32.Idx → EReal) = x13 m c := host_p_W1 m (outs m) c
  have e15 : (Vr2 m c main_arg15 : S32x8.Idx → EReal) = x15 m c := host_p_W2 m (outs m) c
  have e21 : ∀ k : Fin 32, (Vr2 m c main_v21 : S1x32.Idx → EReal) (ix2 0 k) = x14 m c (ix1 k) := host_p_b1 m (outs m) c
  have e22 : ∀ o : Fin 8, (Vr2 m c main_v22 : S1x8.Idx → EReal) (ix2 0 o) = x16 m c (ix1 o) := host_p_b2 m (outs m) c
  rw [e13, e15]
  simp only [e21, e22, pooled m c hpre]

/-- The second result. -/
theorem out1_eq (hpre : Cert.Pre_KernelIdeal m) :
    (V10 m (outs m) c main_v25 : S256x3x8.Idx → EReal)
      = val_main_v79 (F := Ideal) (x0 m c) (x1 m c) (x2 m c) (x3 m c) (x4 m c) (x5 m c) (x6 m c) (x7 m c) (x8 m c) (x9 m c) (x10 m c) (x11 m c) (x12 m c) (x17 m c) (x18 m c) := by
  funext i
  obtain ⟨g, a, b, rfl⟩ : ∃ (g : Fin 256) (a : Fin 3) (b : Fin 8), i = ix3 g a b := ⟨i 0, i 1, i 2, eq_ix3 i⟩
  refine (host_out1 m (outs m) c g a b).trans ?_
  refine (congrFun (outs_9_1 m c) _).trans ?_
  refine (pool_ord (Vr2 m) c g _).trans ?_
  refine Eq.trans ?_ (ref_ord (x0 m c) (x1 m c) (x2 m c) (x3 m c) (x4 m c) (x5 m c) (x6 m c) (x7 m c) (x8 m c) (x9 m c) (x10 m c) (x11 m c) (x12 m c) (x17 m c) (x18 m c) g a b).symm
  have e17 : (Vr2 m c main_arg17 : S64x24.Idx → EReal) = x17 m c := host_p_Wo m (outs m) c
  have e23 : ∀ q : Fin 24, (Vr2 m c main_v23 : S1x24.Idx → EReal) (ix2 0 q) = x18 m c (ix1 q) := host_p_bo m (outs m) c
  rw [e17]
  simp only [e23, pooled m c hpre]

end Cert.Proof.Bridge

end
-- ==== Proof.lean ====
import proofs.«403875_j79474074845433_2_alg».proof.Defs
import proofs.«403875_j79474074845433_2_alg».proof.Proof.Gen.Kernel
import proofs.«403875_j79474074845433_2_alg».proof.Proof.Gen.KernelIdeal
import proofs.«403875_j79474074845433_2_alg».proof.Proof.Gen.ReferenceIdeal
import proofs.«403875_j79474074845433_2_alg».proof.Proof.Gen.Pre_finite_inputs
import proofs.«403875_j79474074845433_2_alg».proof.Proof.Gen.ReferenceIdeal.Run
import proofs.«403875_j79474074845433_2_alg».proof.Proof.Gen.ReferenceIdeal.Read
import proofs.«403875_j79474074845433_2_alg».proof.Proof.K.Run
import proofs.«403875_j79474074845433_2_alg».proof.Proof.KI.Run
import proofs.«403875_j79474074845433_2_alg».proof.Proof.Bridge
import Idealize.ShloMosaic.Adequacy
import Idealize.ShloMosaic.Init

/-!
  A two-layer graph isomorphism network with a sum pool and two heads, as a program of three kernel calls among host
  gathers and scatter-adds, against its plain reference.  Under the precondition — finite float inputs, and every
  source index of an edge a node, `0 ≤ src < 200000` — the claims are:
  the three frames (each program runs to the end on every weakly fair schedule, faults nowhere and leaves its
  arguments as launched: the kernel program's from one record per kernel call over the host stretches between them,
  the reference's from its run), and the value claim at the extended reals: both programs end with the same two
  results, because stage by stage both compute the specification's layer, pool and heads of the same arguments.
  The idealization pass rewrote nothing, so that claim is trivial.
-/

set_option maxRecDepth 16384

noncomputable section

namespace Cert.Proof

open Idealize.ShloMosaic Idealize.ShloMosaic.TcCoe Idealize.SL.Sem

/-- The kernel program at the word level: its frame. -/
theorem frame_p : Cert.frame_Kernel := fun m ρ _ => Cert.Kernel.Hand.frame m ρ

/-- The kernel program at the extended reals: its frame. -/
theorem frame_pi : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

section
open Cert.KernelIdeal Cert.KernelIdeal.Gen Cert.KernelIdeal.Hand

/-- An unscoped buffer of the TensorCore is among those the last thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option maxHeartbeats 4000000 in
/-- Both programs end with the same results: the kernel program's final buffers are the reference's last stages
    at the same arguments. -/
theorem algebraic : Cert.algebraic_KernelIdeal_ReferenceIdeal := by
  intro m ρ m' ρ' hpre hagree
  refine ⟨fun c => V10 m (outs m) c main_v24_0, fun c => V10 m (outs m) c main_v25, ?_, ?_⟩
  · refine (θ_run Cert.KernelIdeal.defs _ _).mono (fun r h c => ?_) (Cert.KernelIdeal.Hand.run_vals m ρ)
    exact ⟨h c _ (mem_uc main_v24_0 (by decide)), h c _ (mem_uc main_v25 (by decide)),
      (h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c),
      (h c _ (mem_uc main_arg11 (by decide))).trans (V10_main_arg11 m (outs m) c),
      (h c _ (mem_uc main_arg12 (by decide))).trans (V10_main_arg12 m (outs m) c),
      (h c _ (mem_uc main_arg13 (by decide))).trans (V10_main_arg13 m (outs m) c),
      (h c _ (mem_uc main_arg14 (by decide))).trans (V10_main_arg14 m (outs m) c),
      (h c _ (mem_uc main_arg15 (by decide))).trans (V10_main_arg15 m (outs m) c),
      (h c _ (mem_uc main_arg16 (by decide))).trans (V10_main_arg16 m (outs m) c),
      (h c _ (mem_uc main_arg17 (by decide))).trans (V10_main_arg17 m (outs m) c),
      (h c _ (mem_uc main_arg18 (by decide))).trans (V10_main_arg18 m (outs m) c)⟩
  · refine (θ_run Cert.ReferenceIdeal.defs _ _).mono (fun r h c => ?_) (Cert.ReferenceIdeal.Value.run (F := Ideal) m' ρ')
    obtain ⟨h74, h79, hargs⟩ := h c
    obtain ⟨a0, a1, a2, a3, a4, a5, a6, a7, a8, a9, a10, a11, a12, a13, a14, a15, a16, a17, a18⟩ := hagree c
    refine ⟨h74.trans ?_, h79.trans ?_, hargs⟩
    · rw [Cert.ReferenceIdeal.Read.val_main_v74_eq, a0, a1, a2, a3, a4, a5, a6, a7, a8, a9, a10, a11, a12, a13, a14, a15, a16]
      exact (Cert.Proof.Bridge.out0_eq m c hpre).symm
    · rw [Cert.ReferenceIdeal.Read.val_main_v79_eq, a0, a1, a2, a3, a4, a5, a6, a7, a8, a9, a10, a11, a12, a17, a18]
      exact (Cert.Proof.Bridge.out1_eq m c hpre).symm

end

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
